-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x384 : Shape := ⟨2, ![131072, 384]⟩
abbrev S131072 : Shape := ⟨1, ![131072]⟩
abbrev S640x256 : Shape := ⟨2, ![640, 256]⟩
abbrev S256 : Shape := ⟨1, ![256]⟩
abbrev S_ : Shape := ⟨0, ![]⟩

class Facts : Prop where
  bcast_S_S131072x384 : S_.BroadcastsInDim S131072x384 (![] : Fin 0 → Fin S131072x384.rank)
  reducesTo_S131072x384_S_d0_1 : S131072x384.ReducesTo [0, 1] S_
  h_S_ : 0 < S_.numel
  bcast_S_S640x256 : S_.BroadcastsInDim S640x256 (![] : Fin 0 → Fin S640x256.rank)
  reducesTo_S640x256_S_d0_1 : S640x256.ReducesTo [0, 1] S_
  bcast_S_S256 : S_.BroadcastsInDim S256 (![] : Fin 0 → Fin S256.rank)
  reducesTo_S256_S_d0 : S256.ReducesTo [0] S_
  bcast_S_S131072 : S_.BroadcastsInDim S131072 (![] : Fin 0 → Fin S131072.rank)
  reducesTo_S131072_S_d0 : S131072.ReducesTo [0] S_

variable [Facts]

def fn_part2 {F : FTy → Type} [FloatOps F] (main_arg2 : IVec S131072 32) (main_v31 : IVec S_ 1) (main_v32 : IVec S131072 32) : IVec S_ 1 :=
  let main_v33 : IVec S131072 1 := cmpi .sge main_arg2 main_v32
  let main_c_13 : IVec S_ 1 := constantI S_ 1 1#1
  let main_v34 : IVec S_ 1 := (fun x v => Host.reduce IntOp.andi x v reducesTo_S131072_S_d0 h_S_) main_v33 main_c_13
  let main_v35 : IVec S_ 1 := andi main_v31 main_v34
  let main_c_14 : IVec S_ 32 := constantI S_ 32 4096#32
  let main_v36 : IVec S131072 32 := broadcastInDim S131072 ![] bcast_S_S131072 main_c_14
  let main_v37 : IVec S131072 1 := cmpi .slt main_arg2 main_v36
  let main_c_15 : IVec S_ 1 := constantI S_ 1 1#1
  let main_v38 : IVec S_ 1 := (fun x v => Host.reduce IntOp.andi x v reducesTo_S131072_S_d0 h_S_) main_v37 main_c_15
  let main_v39 : IVec S_ 1 := andi main_v35 main_v38
  main_v39

def fn_part1 {F : FTy → Type} [FloatOps F] (main_arg1 : IVec S131072 32) (main_arg2 : IVec S131072 32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_c_8 : IVec S_ 32 := constantI S_ 32 0#32
  let main_v24 : IVec S131072 32 := broadcastInDim S131072 ![] bcast_S_S131072 main_c_8
  let main_v25 : IVec S131072 1 := cmpi .sge main_arg1 main_v24
  let main_c_9 : IVec S_ 1 := constantI S_ 1 1#1
  let main_v26 : IVec S_ 1 := (fun x v => Host.reduce IntOp.andi x v reducesTo_S131072_S_d0 h_S_) main_v25 main_c_9
  let main_v27 : IVec S_ 1 := andi main_v23 main_v26
  let main_c_10 : IVec S_ 32 := constantI S_ 32 4096#32
  let main_v28 : IVec S131072 32 := broadcastInDim S131072 ![] bcast_S_S131072 main_c_10
  let main_v29 : IVec S131072 1 := cmpi .slt main_arg1 main_v28
  let main_c_11 : IVec S_ 1 := constantI S_ 1 1#1
  let main_v30 : IVec S_ 1 := (fun x v => Host.reduce IntOp.andi x v reducesTo_S131072_S_d0 h_S_) main_v29 main_c_11
  let main_v31 : IVec S_ 1 := andi main_v27 main_v30
  let main_c_12 : IVec S_ 32 := constantI S_ 32 0#32
  let main_v32 : IVec S131072 32 := broadcastInDim S131072 ![] bcast_S_S131072 main_c_12
  fn_part2 (F := F) main_arg2 main_v31 main_v32

def fn {F : FTy → Type} [FloatOps F] (main_arg0 : FVec F S131072x384 .f32) (main_arg1 : IVec S131072 32) (main_arg2 : IVec S131072 32) (main_arg3 : FVec F S640x256 .f32) (main_arg4 : FVec F S256 .f32) (main_arg5 : FVec F S256 .f32) (main_arg6 : FVec F S256 .f32) : IVec S_ 1 :=
  let main_v0 : FVec F S131072x384 .f32 := Host.absf main_arg0
  let main_cst : FVec F S_ .f32 := constant S_ .f32 0x7F800000#32
  let main_v1 : FVec F S131072x384 .f32 := broadcastInDim S131072x384 ![] bcast_S_S131072x384 main_cst
  let main_v2 : IVec S131072x384 1 := cmpf .olt main_v0 main_v1
  let main_c : IVec S_ 1 := constantI S_ 1 1#1
  let main_v3 : IVec S_ 1 := (fun x v => Host.reduce IntOp.andi x v reducesTo_S131072x384_S_d0_1 h_S_) main_v2 main_c
  let main_v4 : FVec F S640x256 .f32 := Host.absf main_arg3
  let main_cst_0 : FVec F S_ .f32 := constant S_ .f32 0x7F800000#32
  let main_v5 : FVec F S640x256 .f32 := broadcastInDim S640x256 ![] bcast_S_S640x256 main_cst_0
  let main_v6 : IVec S640x256 1 := cmpf .olt main_v4 main_v5
  let main_c_1 : IVec S_ 1 := constantI S_ 1 1#1
  let main_v7 : IVec S_ 1 := (fun x v => Host.reduce IntOp.andi x v reducesTo_S640x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg2 main_arg6 main_v13 main_v16
-- ==== Kernel.lean ====
abbrev S131072x384 : Shape := ⟨2, ![131072, 384]⟩
abbrev S131072 : Shape := ⟨1, ![131072]⟩
abbrev S640x256 : Shape := ⟨2, ![640, 256]⟩
abbrev S256 : Shape := ⟨1, ![256]⟩
abbrev S131072x128 : Shape := ⟨2, ![131072, 128]⟩
abbrev S_ : Shape := ⟨0, ![]⟩
abbrev S4096x128 : Shape := ⟨2, ![4096, 128]⟩
abbrev S131072x1 : Shape := ⟨2, ![131072, 1]⟩
abbrev S4096 : Shape := ⟨1, ![4096]⟩
abbrev S4096x1 : Shape := ⟨2, ![4096, 1]⟩
abbrev S1x256 : Shape := ⟨2, ![1, 256]⟩
abbrev S131072x256 : Shape := ⟨2, ![131072, 256]⟩
abbrev S512x384 : Shape := ⟨2, ![512, 384]⟩
abbrev S512x1 : Shape := ⟨2, ![512, 1]⟩
abbrev S512x256 : Shape := ⟨2, ![512, 256]⟩
abbrev S512x4096 : Shape := ⟨2, ![512, 4096]⟩
abbrev S512x128 : Shape := ⟨2, ![512, 128]⟩
abbrev S512x640 : Shape := ⟨2, ![512, 640]⟩
abbrev S4096x256 : Shape := ⟨2, ![4096, 256]⟩

abbrev nBuf : Space → Nat
  | .hbm => 63
  | .vmem => 22
  | .smem => 0
  | _ => 0

abbrev bufTy : (tb : Table) → Fin (tcTables nBuf tb) → BufTy
  | .hbm, ⟨0, _⟩ => ⟨S131072x384, .f32⟩
  | .hbm, ⟨1, _⟩ => ⟨S131072, .i32⟩
  | .hbm, ⟨2, _⟩ => ⟨S131072, .i32⟩
  | .hbm, ⟨3, _⟩ => ⟨S640x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S131072x128, .f32⟩
  | .hbm, ⟨8, _⟩ => ⟨S131072x128, .f32⟩
  | .hbm, ⟨9, _⟩ => ⟨S_, .f32⟩
  | .hbm, ⟨10, _⟩ => ⟨S4096x128, .f32⟩
  | .hbm, ⟨11, _⟩ => ⟨S131072x1, .i32⟩
  | .hbm, ⟨12, _⟩ => ⟨S4096x128, .f32⟩
  | .hbm, ⟨13, _⟩ => ⟨S_, .f32⟩
  | .hbm, ⟨14, _⟩ => ⟨S4096x128, .f32⟩
  | .hbm, ⟨15, _⟩ => ⟨S131072x1, .i32⟩
  | .hbm, ⟨16, _⟩ => ⟨S4096x128, .f32⟩
  | .hbm, ⟨17, _⟩ => ⟨S_, .f32⟩
  | .hbm, ⟨18, _⟩ => ⟨S131072, .f32⟩
  | .hbm, ⟨19, _⟩ => ⟨S_, .f32⟩
  | .hbm, ⟨20, _⟩ => ⟨S4096, .f32⟩
  | .hbm, ⟨21, _⟩ => ⟨S131072x1, .i32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1, .f32⟩
  | .hbm, ⟨30, _⟩ => ⟨S4096x128, .f32⟩
  | .hbm, ⟨31, _⟩ => ⟨S4096x128, .f32⟩
  | .hbm, ⟨32, _⟩ => ⟨S4096x128, .bf16⟩
  | .hbm, ⟨33, _⟩ => ⟨S4096x1, .f32⟩
  | .hbm, ⟨34, _⟩ => ⟨S4096x128, .f32⟩
  | .hbm, ⟨35, _⟩ => ⟨S4096x128, .f32⟩
  | .hbm, ⟨36, _⟩ => ⟨S4096x128, .bf16⟩
  | .hbm, ⟨37, _⟩ => ⟨S131072x1, .i32⟩
  | .hbm, ⟨38, _⟩ => ⟨S131072x1, .i32⟩
  | .hbm, ⟨39, _⟩ => ⟨S640x256, .bf16⟩
  | .hbm, ⟨40, _⟩ => ⟨S1x256, .f32⟩
  | .hbm, ⟨41, _⟩ => ⟨S131072x256, .f32⟩
  | .hbm, ⟨42, _⟩ => ⟨S1x256, .f32⟩
  | .hbm, ⟨43, _⟩ => ⟨S1x256, .f32⟩
  | .hbm, ⟨44, _⟩ => ⟨S256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S256, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S131072x256, .f32⟩
  | .local _ .vmem, ⟨0, _⟩ => ⟨S512x384, .f32⟩
  | .local _ .vmem, ⟨1, _⟩ => ⟨S512x384, .f32⟩
  | .local _ .vmem, ⟨2, _⟩ => ⟨S512x1, .i32⟩
  | .local _ .vmem, ⟨3, _⟩ => ⟨S512x1, .i32⟩
  | .local _ .vmem, ⟨4, _⟩ => ⟨S512x1, .i32⟩
  | .local _ .vmem, ⟨5, _⟩ => ⟨S512x1, .i32⟩
  | .local _ .vmem, ⟨6, _⟩ => ⟨S4096x128, .bf16⟩
  | .local _ .vmem, ⟨7, _⟩ => ⟨S4096x128, .bf16⟩
  | .local _ .vmem, ⟨8, _⟩ => ⟨S640x256, .bf16⟩
  | .local _ .vmem, ⟨9, _⟩ => ⟨S1x256, .f32⟩
  | .local _ .vmem, ⟨10, _⟩ => ⟨S512x256, .f32⟩
  | .local _ .vmem, ⟨11, _⟩ => ⟨S512x256, .f32⟩
  | .local _ .vmem, ⟨12, _⟩ => ⟨S1x256, .f32⟩
  | .local _ .vmem, ⟨13, _⟩ => ⟨S1x256, .f32⟩
  | .local _ .vmem, ⟨14, _⟩ => ⟨S4096x256, .f32⟩
  | .local _ .vmem, ⟨15, _⟩ => ⟨S4096x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S4096x256, .f32⟩
  | .local _ .vmem, ⟨21, _⟩ => ⟨S4096x256, .f32⟩
  | _, _ => ⟨S131072x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_v28_2 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S131072x384_S131072x128_0_0 : S131072x384.Slices ![0, 0] S131072x128
  slices_S131072x384_S131072x128_0_128 : S131072x384.Slices ![0, 128] S131072x128
  bcast_S_S4096x128 : S_.BroadcastsInDim S4096x128 (![] : Fin 0 → Fin S4096x128.rank)
  bcast_S131072_S131072x1_0 : S131072.BroadcastsInDim S131072x1 (![0] : Fin 1 → Fin S131072x1.rank)
  bcast_S_S131072 : S_.BroadcastsInDim S131072 (![] : Fin 0 → Fin S131072.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bitsLt_bf16_f32 : FTy.bits .bf16 < FTy.bits .f32
  shapeCasts_S131072_S131072x1 : S131072.ShapeCasts S131072x1
  shapeCasts_S256_S1x256 : S256.ShapeCasts S1x256
  inb_S1x256_S1x256_0_0 : ∀ a, (![0, 0] : Fin 2 → Nat) a + S1x256.size a ≤ S1x256.size a
  h_S1x256 : 0 < S1x256.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x4096_d1_w32 : S512x4096.Iotas .tc 32 [1]
  broadcasts_S512x1_S512x4096 : S512x1.Broadcasts S512x4096
  natLt_1_32 : 1 < 32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S512x384_S512x384_0_0 : ∀ a, (![0, 0] : Fin 2 → Nat) a + S512x384.size a ≤ S512x384.size a
  h_S512x384 : 0 < S512x384.numel
  slices_S512x384_o0_0_S512x128 : S512x384.Slices ![0, 0] S512x128
  slices_S512x384_o0_128_S512x128 : S512x384.Slices ![0, 128] S512x128
  slices_S512x384_o0_256_S512x128 : S512x384.Slices ![0, 256] S512x128
  concatenates_S512x128_S512x128_S512x128_S512x128_S512x128_S512x640_d1 : Shape.Concatenates [S512x128, S512x128, S512x128, S512x128, S512x128] S512x640 1
  inb_S640x256_S640x256_0_0 : ∀ a, (![0, 0] : Fin 2 → Nat) a + S640x256.size a ≤ S640x256.size a
  h_S640x256 : 0 < S640x256.numel
  shapeCasts_S640x256_S640x256 : S640x256.ShapeCasts S640x256
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  reduces_S512x256_S256 : S512x256.Reduces [0] S256
  shapeCasts_S1x256_S256 : S1x256.ShapeCasts S256
  bcast_S_S256 : S_.BroadcastsInDim S256 (![] : Fin 0 → Fin S256.rank)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  broadcasts_S1x256_S4096x256 : S1x256.Broadcasts S4096x256
  scatter_S4096x128_S131072x1_S131072x128_1_0_0_1_wf : ScatterDims.WF S4096x128 S131072x1 S131072x128 [1] [0] [0] 1
  scatter_S4096_S131072x1_S131072_n_0_0_1_wf : ScatterDims.WF S4096 S131072x1 S131072 [] [0] [0] 1
  dot_S512x4096_S4096x128_S512x128_1_0_0_1_n_n_wf : DotDims.WF S512x4096 S4096x128 S512x128 [1] [0] [0] [1] [] []
  dot_S512x640_S640x256_S512x256_1_0_0_1_n_n_wf : DotDims.WF S512x640 S640x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x384.size a ≤ S131072x384.size a
  hwx0_0 : ∀ i : grid0.Coords, EltTy.bits .f32 = 32 ∨ (Rect.block (s := S131072x384) S512x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S131072x1.size a
  hwx0_1 : ∀ i : grid0.Coords, EltTy.bits .i32 = 32 ∨ (Rect.block (s := S131072x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S131072x1.size a
  hwx0_2 : ∀ i : grid0.Coords, EltTy.bits .i32 = 32 ∨ (Rect.block (s := S131072x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .bf16 = 32 ∨ (Rect.block (s := S4096x128) S4096x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S4096x128.size a
  hwx0_4 : ∀ i : grid0.Coords, EltTy.bits .bf16 = 32 ∨ (Rect.block (s := S4096x128) S4096x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x256.size a ≤ S640x256.size a
  hwx0_5 : ∀ i : grid0.Coords, EltTy.bits .bf16 = 32 ∨ (Rect.block (s := S640x256) S640x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S131072x256.size a
  hwx0_7 : ∀ i : grid0.Coords, EltTy.bits .f32 = 32 ∨ (Rect.block (s := S131072x256) S512x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S131072x256.size a
  hwx1_0 : ∀ i : grid1.Coords, EltTy.bits .f32 = 32 ∨ (Rect.block (s := S131072x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x256.size a ≤ S131072x256.size a
  hwx1_5 : ∀ i : grid1.Coords, EltTy.bits .f32 = 32 ∨ (Rect.block (s := S131072x256) S4096x256.size (cc1_transform_5 i) (hinb1_5 i)).WholeWords (EltTy.packing .f32)

variable [Facts₀]

def scatter_S4096x128_S131072x1_S131072x128_1_0_0_1 : ScatterDims S4096x128 S131072x1 S131072x128 where
  updateWindowDims := [1]
  insertedWindowDims := [0]
  scatterDimsToOperandDims := [0]
  indexVectorDim := 1
  wf := scatter_S4096x128_S131072x1_S131072x128_1_0_0_1_wf
def scatter_S4096_S131072x1_S131072_n_0_0_1 : ScatterDims S4096 S131072x1 S131072 where
  updateWindowDims := []
  insertedWindowDims := [0]
  scatterDimsToOperandDims := [0]
  indexVectorDim := 1
  wf := scatter_S4096_S131072x1_S131072_n_0_0_1_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x640_S640x256_S512x256_1_0_0_1_n_n : DotDims S512x640 S640x256 S512x256 where
  lhsContracting := [1]
  rhsContracting := [0]
  lhsNonContracting := [0]
  rhsNonContracting := [1]
  lhsBatch := []
  rhsBatch := []
  wf := dot_S512x640_S640x256_S512x256_1_0_0_1_n_n_wf

abbrev win0_0 : Pipeline.Window sig grid0 :=
  Pipeline.Window.ofSpec (Memref.whole main_arg0) S512x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S4096x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S4096x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S640x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28_0) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28_1) S1x256.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28_2) S1x256.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v28_0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S4096x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S131072x384 : Shape := ⟨2, ![131072, 384]⟩
abbrev S131072 : Shape := ⟨1, ![131072]⟩
abbrev S640x256 : Shape := ⟨2, ![640, 256]⟩
abbrev S256 : Shape := ⟨1, ![256]⟩
abbrev S131072x128 : Shape := ⟨2, ![131072, 128]⟩
abbrev S_ : Shape := ⟨0, ![]⟩
abbrev S4096x128 : Shape := ⟨2, ![4096, 128]⟩
abbrev S131072x1 : Shape := ⟨2, ![131072, 1]⟩
abbrev S4096 : Shape := ⟨1, ![4096]⟩
abbrev S4096x1 : Shape := ⟨2, ![4096, 1]⟩
abbrev S131072x640 : Shape := ⟨2, ![131072, 640]⟩
abbrev S131072x256 : Shape := ⟨2, ![131072, 256]⟩
abbrev S1x256 : Shape := ⟨2, ![1, 256]⟩

abbrev nBuf : Space → Nat
  | .hbm => 112
  | .vmem => 0
  | .smem => 0
  | _ => 0

abbrev bufTy : (tb : Table) → Fin (tcTables nBuf tb) → BufTy
  | .hbm, ⟨0, _⟩ => ⟨S131072x384, .f32⟩
  | .hbm, ⟨1, _⟩ => ⟨S131072, .i32⟩
  | .hbm, ⟨2, _⟩ => ⟨S131072, .i32⟩
  | .hbm, ⟨3, _⟩ => ⟨S640x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S131072x128, .f32⟩
  | .hbm, ⟨8, _⟩ => ⟨S131072x128, .f32⟩
  | .hbm, ⟨9, _⟩ => ⟨S131072x128, .f32⟩
  | .hbm, ⟨10, _⟩ => ⟨S_, .f32⟩
  | .hbm, ⟨11, _⟩ => ⟨S4096x128, .f32⟩
  | .hbm, ⟨12, _⟩ => ⟨S131072x1, .i32⟩
  | .hbm, ⟨13, _⟩ => ⟨S4096x128, .f32⟩
  | .hbm, ⟨14, _⟩ => ⟨S_, .f32⟩
  | .hbm, ⟨15, _⟩ => ⟨S131072, .f32⟩
  | .hbm, ⟨16, _⟩ => ⟨S_, .f32⟩
  | .hbm, ⟨17, _⟩ => ⟨S4096, .f32⟩
  | .hbm, ⟨18, _⟩ => ⟨S131072x1, .i32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1, .f32⟩
  | .hbm, ⟨24, _⟩ => ⟨S4096x128, .f32⟩
  | .hbm, ⟨25, _⟩ => ⟨S4096x128, .f32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S131072x1, .i32⟩
  | .hbm, ⟨34, _⟩ => ⟨S131072x128, .f32⟩
  | .hbm, ⟨35, _⟩ => ⟨S_, .f32⟩
  | .hbm, ⟨36, _⟩ => ⟨S4096x128, .f32⟩
  | .hbm, ⟨37, _⟩ => ⟨S131072x1, .i32⟩
  | .hbm, ⟨38, _⟩ => ⟨S4096x128, .f32⟩
  | .hbm, ⟨39, _⟩ => ⟨S_, .f32⟩
  | .hbm, ⟨40, _⟩ => ⟨S131072, .f32⟩
  | .hbm, ⟨41, _⟩ => ⟨S_, .f32⟩
  | .hbm, ⟨42, _⟩ => ⟨S4096, .f32⟩
  | .hbm, ⟨43, _⟩ => ⟨S131072x1, .i32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1, .f32⟩
  | .hbm, ⟨49, _⟩ => ⟨S4096x128, .f32⟩
  | .hbm, ⟨50, _⟩ => ⟨S4096x128, .f32⟩
  | .hbm, ⟨51, _⟩ => ⟨S_, .i32⟩
  | .hbm, ⟨52, _⟩ => ⟨S131072, .i32⟩
  | .hbm, ⟨53, _⟩ => ⟨S131072, .i1⟩
  | .hbm, ⟨54, _⟩ => ⟨S_, .i32⟩
  | .hbm, ⟨55, _⟩ => ⟨S131072, .i32⟩
  | .hbm, ⟨56, _⟩ => ⟨S131072, .i32⟩
  | .hbm, ⟨57, _⟩ => ⟨S131072, .i32⟩
  | .hbm, ⟨58, _⟩ => ⟨S131072x1, .i32⟩
  | .hbm, ⟨59, _⟩ => ⟨S131072x128, .f32⟩
  | .hbm, ⟨60, _⟩ => ⟨S131072x640, .f32⟩
  | .hbm, ⟨61, _⟩ => ⟨S131072x256, .f32⟩
  | .hbm, ⟨62, _⟩ => ⟨S1x256, .f32⟩
  | .hbm, ⟨63, _⟩ => ⟨S131072x256, .f32⟩
  | .hbm, ⟨64, _⟩ => ⟨S131072x256, .f32⟩
  | .hbm, ⟨65, _⟩ => ⟨S_, .f32⟩
  | .hbm, ⟨66, _⟩ => ⟨S256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S_, .i32⟩
  | .hbm, ⟨71, _⟩ => ⟨S_, .f32⟩
  | .hbm, ⟨72, _⟩ => ⟨S256, .f32⟩
  | .hbm, ⟨73, _⟩ => ⟨S1x256, .f32⟩
  | .hbm, ⟨74, _⟩ => ⟨S_, .f32⟩
  | .hbm, ⟨75, _⟩ => ⟨S1x256, .f32⟩
  | .hbm, ⟨76, _⟩ => ⟨S1x256, .f32⟩
  | .hbm, ⟨77, _⟩ => ⟨S131072x256, .f32⟩
  | .hbm, ⟨78, _⟩ => ⟨S131072x256, .f32⟩
  | .hbm, ⟨79, _⟩ => ⟨S131072x256, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S256, .f32⟩
  | .hbm, ⟨85, _⟩ => ⟨S256, .f32⟩
  | .hbm, ⟨86, _⟩ => ⟨S256, .f32⟩
  | .hbm, ⟨87, _⟩ => ⟨S_, .f32⟩
  | .hbm, ⟨88, _⟩ => ⟨S_, .i1⟩
  | .hbm, ⟨89, _⟩ => ⟨S_, .f32⟩
  | .hbm, ⟨90, _⟩ => ⟨S_, .f32⟩
  | .hbm, ⟨91, _⟩ => ⟨S256, .f32⟩
  | .hbm, ⟨92, _⟩ => ⟨S256, .f32⟩
  | .hbm, ⟨93, _⟩ => ⟨S1x256, .f32⟩
  | .hbm, ⟨94, _⟩ => ⟨S131072x256, .f32⟩
  | .hbm, ⟨95, _⟩ => ⟨S131072x256, .f32⟩
  | .hbm, ⟨96, _⟩ => ⟨S_, .f32⟩
  | .hbm, ⟨97, _⟩ => ⟨S256, .f32⟩
  | .hbm, ⟨98, _⟩ => ⟨S256, .f32⟩
  | .hbm, ⟨99, _⟩ => ⟨S256, .f32⟩
  | .hbm, ⟨100, _⟩ => ⟨S1x256, .f32⟩
  | .hbm, ⟨101, _⟩ => ⟨S131072x256, .f32⟩
  | .hbm, ⟨102, _⟩ => ⟨S131072x256, .f32⟩
  | .hbm, ⟨103, _⟩ => ⟨S1x256, .f32⟩
  | .hbm, ⟨104, _⟩ => ⟨S131072x256, .f32⟩
  | .hbm, ⟨105, _⟩ => ⟨S131072x256, .f32⟩
  | .hbm, ⟨106, _⟩ => ⟨S1x256, .f32⟩
  | .hbm, ⟨107, _⟩ => ⟨S131072x256, .f32⟩
  | .hbm, ⟨108, _⟩ => ⟨S131072x256, .f32⟩
  | .hbm, ⟨109, _⟩ => ⟨S_, .f32⟩
  | .hbm, ⟨110, _⟩ => ⟨S131072x256, .f32⟩
  | .hbm, ⟨111, _⟩ => ⟨S131072x256, .f32⟩
  | _, _ => ⟨S131072x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_c_12 : Ref sig .tc := ⟨.hbm, 70, rfl⟩
abbrev main_call0_cst : Ref sig .tc := ⟨.hbm, 71, rfl⟩
abbrev main_call0_v0 : Ref sig .tc := ⟨.hbm, 72, rfl⟩
abbrev main_call0_v1 : Ref sig .tc := ⟨.hbm, 73, rfl⟩
abbrev main_call0_cst_0 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_cst_1 : Ref sig .tc := ⟨.hbm, 81, rfl⟩
abbrev main_call0_v8 : Ref sig .tc := ⟨.hbm, 82, rfl⟩
abbrev main_call0_cst_2 : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_call0_cst_3 : Ref sig .tc := ⟨.hbm, 87, rfl⟩
abbrev main_call0_v12 : Ref sig .tc := ⟨.hbm, 88, rfl⟩
abbrev main_call0_cst_4 : Ref sig .tc := ⟨.hbm, 89, rfl⟩
abbrev main_call0_call0_v0 : Ref sig .tc := ⟨.hbm, 90, rfl⟩
abbrev main_call0_call0_v1 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_13 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_call1_cst : Ref sig .tc := ⟨.hbm, 109, rfl⟩
abbrev main_call1_v0 : Ref sig .tc := ⟨.hbm, 110, rfl⟩
abbrev main_v65 : Ref sig .tc := ⟨.hbm, 111, rfl⟩

abbrev nD : Nat := 1
abbrev τ : Topo := Topo.v7x

variable {F : FTy → Type} [FloatOps F]

class Facts₀ : Prop where
  slices_S131072x384_S131072x128_0_0 : S131072x384.Slices ![0, 0] S131072x128
  slices_S131072x384_S131072x128_0_128 : S131072x384.Slices ![0, 128] S131072x128
  slices_S131072x384_S131072x128_0_256 : S131072x384.Slices ![0, 256] S131072x128
  bcast_S_S4096x128 : S_.BroadcastsInDim S4096x128 (![] : Fin 0 → Fin S4096x128.rank)
  bcast_S131072_S131072x1_0 : S131072.BroadcastsInDim S131072x1 (![0] : Fin 1 → Fin S131072x1.rank)
  bcast_S_S131072 : S_.BroadcastsInDim S131072 (![] : Fin 0 → Fin S131072.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  concatenates_S131072x128_S131072x128_S131072x128_S131072x128_S131072x128_S131072x640_d1 : Shape.Concatenates [S131072x128, S131072x128, S131072x128, S131072x128, S131072x128] S131072x640 1
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  reducesTo_S131072x256_S256_d0 : S131072x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S131072x256 : S_.BroadcastsInDim S131072x256 (![] : Fin 0 → Fin S131072x256.rank)
  scatter_S4096x128_S131072x1_S131072x128_1_0_0_1_wf : ScatterDims.WF S4096x128 S131072x1 S131072x128 [1] [0] [0] 1
  scatter_S4096_S131072x1_S131072_n_0_0_1_wf : ScatterDims.WF S4096 S131072x1 S131072 [] [0] [0] 1
  gather_S4096x128_S131072x1_S131072x128_1_0_n_n_0_1_1128_wf : GatherDims.WF S4096x128 S131072x1 S131072x128 [1] [0] [] [0] [] 1 ![1, 128]
  dot_S131072x640_S640x256_S131072x256_1_0_0_1_n_n_wf : DotDims.WF S131072x640 S640x256 S131072x256 [1] [0] [0] [1] [] []

variable [Facts₀]

def scatter_S4096x128_S131072x1_S131072x128_1_0_0_1 : ScatterDims S4096x128 S131072x1 S131072x128 where
  updateWindowDims := [1]
  insertedWindowDims := [0]
  scatterDimsToOperandDims := [0]
  indexVectorDim := 1
  wf := scatter_S4096x128_S131072x1_S131072x128_1_0_0_1_wf
def scatter_S4096_S131072x1_S131072_n_0_0_1 : ScatterDims S4096 S131072x1 S131072 where
  updateWindowDims := []
  insertedWindowDims := [0]
  scatterDimsToOperandDims := [0]
  indexVectorDim := 1
  wf := scatter_S4096_S131072x1_S131072_n_0_0_1_wf
def gather_S4096x128_S131072x1_S131072x128_1_0_n_n_0_1_1128 : GatherDims S4096x128 S131072x1 S131072x128 where
  offsetDims := [1]
  collapsedSliceDims := [0]
  operandBatchingDims := []
  startIndicesBatchingDims := []
  startIndexMap := [0]
  indexVectorDim := 1
  sliceSizes := ![1, 128]
  wf := gather_S4096x128_S131072x1_S131072x128_1_0_n_n_0_1_1128_wf
def dot_S131072x640_S640x256_S131072x256_1_0_0_1_n_n : DotDims S131072x640 S640x256 S131072x256 where
  lhsContracting := [1]
  rhsContracting := [0]
  lhsNonContracting := [0]
  rhsNonContracting := [1]
  lhsBatch := []
  rhsBatch := []
  wf := dot_S131072x640_S640x256_S131072x256_1_0_0_1_n_n_wf

class Facts : Prop extends Facts₀ where

variable [Facts]
-- ==== Proof.Spec.lean ====
/-
  What both programs compute, as plain functions over the extended reals.

  A batch of 131072 rows of 384 features is cut into three 128-wide column groups (atom, element, distance). Each row
  carries two segment numbers in [0, 4096). The atom and element groups are pooled per segment of the FIRST segment
  number — the sum of the rows of that segment divided by the larger of the segment's row count and one — and each row
  then reads back the pooled atom row of its first segment number and the pooled element row of its second. The five
  128-wide pieces (atom, pooled atom, element, pooled element, distance) are laid side by side into 640 features, a
  640 × 256 linear layer with a bias follows, and the 256 outputs are normalised over the batch (mean and biased variance
  down each column, the reciprocal square root of variance plus a small constant, a scale and a shift) and clipped below
  at zero.

  The variance down a column is written in two ways: the mean of the squares minus the square of the mean (`varK`), and
  the mean of the squared deviations from the mean (`varR`). Over the reals they are one number; over the extended reals
  they are one number whenever every entry of the column is a real, which is what `varK_eq_varR` says.
-/
import Idealize.ShloMosaic.Lib.ValueIdx
import Idealize.ShloMosaic.PureOps.Ideal.Laws

open scoped BigOperators

noncomputable section

namespace Cert.Spec

open Idealize.ShloMosaic Idealize.ShloMosaic.ValueIdx

abbrev SX : Shape := ⟨2, ![131072, 384]⟩
abbrev SI : Shape := ⟨1, ![131072]⟩
abbrev SW : Shape := ⟨2, ![640, 256]⟩
abbrev SV : Shape := ⟨1, ![256]⟩
abbrev SO : Shape := ⟨2, ![131072, 256]⟩

/-- The three float words the programs spell besides zero: 1.0, 131072.0 and the small constant under the root. -/
def one : EReal := Ideal.ofBits .f32 0x3F800000#32
def nrows : EReal := Ideal.ofBits .f32 0x48000000#32
def eps : EReal := Ideal.ofBits .f32 0x3727C5AC#32

/-- Row `e`'s segment word, read signed, is `s`. -/
def names (ii : SI.Idx → BitVec 32) (e : Fin 131072) (s : Nat) : Prop := (ii (ix1 e)).toInt = (s : Int)

instance (ii : SI.Idx → BitVec 32) (e : Fin 131072) (s : Nat) : Decidable (names ii e s) := by
  unfold names; infer_instance

/-- Every segment word lies in [0, 4096). -/
def InRange (ii : SI.Idx → BitVec 32) : Prop := ∀ e : Fin 131072, 0 ≤ (ii (ix1 e)).toInt ∧ (ii (ix1 e)).toInt < 4096

/-- How many rows segment `s` has, counted in ones. -/
def cnt (ai : SI.Idx → BitVec 32) (s : Fin 4096) : EReal :=
  ∑ _e ∈ Finset.univ.filter (fun e : Fin 131072 => names ai e s.val), one

/-- The sum of the rows of segment `s`, column `j`. -/
def seg (Y : Fin 131072 → Fin 128 → EReal) (ai : SI.Idx → BitVec 32) (s : Fin 4096) (j : Fin 128) : EReal :=
  ∑ e ∈ Finset.univ.filter (fun e : Fin 131072 => names ai e s.val), Y e j

/-- The pooled row of segment `s`: its sum over the larger of its count and one. -/
def pooled (Y : Fin 131072 → Fin 128 → EReal) (ai : SI.Idx → BitVec 32) (s : Fin 4096) (j : Fin 128) : EReal :=
  Ideal.div (seg Y ai s j) (max (cnt ai s) one)

/-- The segment a row's word names, read signed and kept inside [0, 4095]. -/
def rowOf (ii : SI.Idx → BitVec 32) (r : Fin 131072) : Fin 4096 :=
  ⟨min (ii (ix1 r)).toInt.toNat 4095, by omega⟩

/-- The 128 columns of `X` that start at column `off`. -/
def cols (X : SX.Idx → EReal) (off : Nat) (h : off + 128 ≤ 384) (r : Fin 131072) (j : Fin 128) : EReal :=
  X (ix2 r ⟨off + j.val, by have := j.isLt; omega⟩)

/-- Five 128-wide rows side by side. -/
def cat5 {α : Type} (f0 f1 f2 f3 f4 : Fin 128 → α) (k : Fin 640) : α :=
  if h0 : k.val < 128 then f0 ⟨k.val, h0⟩
  else if h1 : k.val < 256 then f1 ⟨k.val - 128, by omega⟩
  else if h2 : k.val < 384 then f2 ⟨k.val - 256, by omega⟩
  else if h3 : k.val < 512 then f3 ⟨k.val - 384, by omega⟩
  else f4 ⟨k.val - 512, by have := k.isLt; omega⟩

/-- Row `r` of the 640 features the linear layer reads. -/
def hin (X : SX.Idx → EReal) (ai ei : SI.Idx → BitVec 32) (r : Fin 131072) : Fin 640 → EReal :=
  cat5 (cols X 0 (by omega) r)
    (pooled (cols X 0 (by omega)) ai (rowOf ai r))
    (cols X 128 (by omega) r)
    (pooled (cols X 128 (by omega)) ai (rowOf ei r))
    (cols X 256 (by omega) r)

/-- The linear layer's output, before normalisation. -/
def hpre (X : SX.Idx → EReal) (ai ei : SI.Idx → BitVec 32) (W : SW.Idx → EReal) (b : SV.Idx → EReal)
    (r : Fin 131072) (j : Fin 256) : EReal :=
  (∑ k : Fin 640, hin X ai ei r k * W (ix2 k j)) + b (ix1 j)

/-- The mean down column `j`. -/
def mean (h : Fin 131072 → Fin 256 → EReal) (j : Fin 256) : EReal := Ideal.div (∑ r : Fin 131072, h r j) nrows

/-- The variance as the mean of the squares minus the square of the mean. -/
def varK (h : Fin 131072 → Fin 256 → EReal) (j : Fin 256) : EReal :=
  Ideal.div (∑ r : Fin 131072, h r j * h r j) nrows - mean h j * mean h j

/-- The variance as the mean of the squared deviations. -/
def varR (h : Fin 131072 → Fin 256 → EReal) (j : Fin 256) : EReal :=
  Ideal.div (∑ r : Fin 131072, (h r j - mean h j) * (h r j - mean h j)) nrows

/-- Normalise, scale, shift, clip. -/
def bn (h : Fin 131072 → Fin 256 → EReal) (v : Fin 256 → EReal) (g be : SV.Idx → EReal) (r : Fin 131072) (j : Fin 256) :
    EReal :=
  max ((h r j - mean h j) * Ideal.rsqrt (v j + eps) * g (ix1 j) + be (ix1 j)) 0

/-- The result with the variance in its first form. -/
def outK (X : SX.Idx → EReal) (ai ei : SI.Idx → BitVec 32) (W : SW.Idx → EReal) (b g be : SV.Idx → EReal) : SO.Idx → EReal :=
  fun i => bn (hpre X ai ei W b) (varK (hpre X ai ei W b)) g be (i 0) (i 1)

/-- The result with the variance in its second form. -/
def outR (X : SX.Idx → EReal) (ai ei : SI.Idx → BitVec 32) (W : SW.Idx → EReal) (b g be : SV.Idx → EReal) : SO.Idx → EReal :=
  fun i => bn (hpre X ai ei W b) (varR (hpre X ai ei W b)) g be (i 0) (i 1)

/-- Every entry is a real number. -/
def AllReal {ι : Type} (f : ι → EReal) : Prop := ∀ i, ∃ a : ℝ, f i = (a : EReal)

end Cert.Spec

end
-- ==== Proof.PreDecode.lean ====
/-
  The printed precondition, read back as the facts the proof uses.

  The precondition is the conjunction of nine "every element satisfies …" tests: for each of the five float inputs,
  that the absolute value of every entry is below +∞; for each of the two segment-number vectors, that every word is
  at least 0 and below 4096, compared signed. Each test is an and-reduction of a pointwise comparison from the
  constant 1 into a single bit, and the nine bits are and-ed together. The conjunction being 1 therefore gives every
  pointwise comparison the value 1. Over the extended reals `max a (-a) < ⊤` leaves only the real numbers (at both
  infinities the maximum is ⊤), and a signed comparison of words is the comparison of their signed values.
-/
import proofs.«414974_j88794153877511_1_alg».proof.Pre_finite_inputs
import proofs.«414974_j88794153877511_1_alg».proof.Proof.Gen.Pre_finite_inputs
import proofs.«414974_j88794153877511_1_alg».proof.Proof.Spec
import Idealize.ShloMosaic.Lib.ReduceAll
import Idealize.ShloMosaic.Lib.StableHlo.Predicate

noncomputable section

namespace Cert.PreDecode

open Idealize.ShloMosaic Idealize.ShloMosaic.ValueIdx
open Cert.Pre_finite_inputs

/-- The scalar shape has one index. -/
instance : Subsingleton S_.Idx := ⟨fun a b => funext fun d => d.elim0⟩

/-- The word 0x7F800000 is +∞. -/
theorem ofBits_inf : Ideal.ofBits .f32 0x7F800000#32 = ⊤ := by simp [Ideal.ofBits, Ideal.ieee]

/-- An extended real whose absolute value `max x (-x)` is below +∞ is a real number. -/
theorem real_of_abs_lt (x : EReal) (h : Ideal.cmp .olt (max x (-x)) ⊤ = 1#1) : ∃ a : ℝ, x = (a : EReal) := by
  induction x using EReal.rec with
  | bot => simp [Ideal.cmp] at h
  | coe a => exact ⟨a, rfl⟩
  | top => simp [Ideal.cmp] at h

/-- The float test at one entry: `|x i| < +∞` true makes `x i` a real number. -/
theorem finite_at {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ a : ℝ, x i = (a : EReal) := by
  have h' : Ideal.cmp .olt (max (x i : EReal) (-(x i : EReal))) (Ideal.ofBits .f32 0x7F800000#32) = 1#1 := h
  rw [ofBits_inf] at h'
  exact real_of_abs_lt _ h'

/-- The two integer tests at one row: the word read signed lies in [0, 4096). -/
theorem range_at (hb : S_.BroadcastsInDim S131072 (![] : Fin 0 → Fin S131072.rank)) (ii : IVec S131072 32) (e : Fin 131072)
    (h0 : cmpi .sge ii (broadcastInDim S131072 ![] hb (constantI S_ 32 0#32)) (ix1 e) = 1#1)
    (h1 : cmpi .slt ii (broadcastInDim S131072 ![] hb (constantI S_ 32 4096#32)) (ix1 e) = 1#1) :
    0 ≤ (ii (ix1 e)).toInt ∧ (ii (ix1 e)).toInt < 4096 := by
  have h0' : IntOp.cmpi .sge (ii (ix1 e)) 0#32 = 1#1 := h0
  have h1' : IntOp.cmpi .slt (ii (ix1 e)) 4096#32 = 1#1 := h1
  rw [IntOp.cmpi_sge] at h0'
  rw [IntOp.cmpi_slt] at h1'
  have z : (0#32 : BitVec 32).toInt = 0 := by decide
  have k : (4096#32 : BitVec 32).toInt = 4096 := by decide
  rw [z] at h0'
  rw [k] at h1'
  exact ⟨h0', h1'⟩

/-- THE PRECONDITION DECODED: the batch, the weights and the bias hold real numbers, and both segment-number vectors
    lie in [0, 4096). (The scale and the shift are tested too; the proof does not need them.) -/
theorem of_pre [Cert.Pre_finite_inputs.Facts]
    (X : FVec Ideal Cert.Pre_finite_inputs.S131072x384 .f32) (ai ei : IVec Cert.Pre_finite_inputs.S131072 32)
    (W : FVec Ideal Cert.Pre_finite_inputs.S640x256 .f32) (b g be : FVec Ideal Cert.Pre_finite_inputs.S256 .f32)
    (h : Cert.Pre_finite_inputs.fn (F := Ideal) X ai ei W b g be = fun _ => 1#1) :
    Cert.Spec.AllReal X ∧ Cert.Spec.AllReal W ∧ Cert.Spec.AllReal b ∧ Cert.Spec.InRange ai ∧ Cert.Spec.InRange ei := by
  have h0 := congrFun h ValueIdx.ix0
  simp only [Cert.Pre_finite_inputs.fn, Cert.Pre_finite_inputs.fn_part1, Cert.Pre_finite_inputs.fn_part2, andi,
    IntOp.andi_eq_one] at h0
  obtain ⟨⟨⟨⟨⟨⟨⟨⟨hX, hW⟩, hb⟩, hg⟩, hbe⟩, ha0⟩, ha1⟩, he0⟩, he1⟩ := h0
  refine ⟨fun i => ?_, fun i => ?_, fun i => ?_, fun e => ?_, fun e => ?_⟩
  · exact finite_at _ X i (Host.reduce_andi_all _ _ _ _ _ hX i)
  · exact finite_at _ W i (Host.reduce_andi_all _ _ _ _ _ hW i)
  · exact finite_at _ b i (Host.reduce_andi_all _ _ _ _ _ hb i)
  · exact range_at _ ai e (Host.reduce_andi_all _ _ _ _ _ ha0 (ix1 e)) (Host.reduce_andi_all _ _ _ _ _ ha1 (ix1 e))
  · exact range_at _ ei e (Host.reduce_andi_all _ _ _ _ _ he0 (ix1 e)) (Host.reduce_andi_all _ _ _ _ _ he1 (ix1 e))

end Cert.PreDecode

end
-- ==== Proof.Math.lean ====
/-
  The arithmetic behind the specification: the three float constants as real numbers, a sum over 131072 rows regrouped
  into equal blocks, the two forms of the variance agreeing on real columns, and the fact that every quantity up to the
  linear layer's output is a real number when the inputs are.
-/
import proofs.«414974_j88794153877511_1_alg».proof.Proof.Spec
import Mathlib.Algebra.BigOperators.Fin
import Mathlib.Algebra.BigOperators.Ring.Finset
import Mathlib.Data.EReal.Basic
import Mathlib.Data.EReal.Operations
import Mathlib.Data.EReal.Inv
import Mathlib.Tactic.FieldSimp
import Mathlib.Tactic.Ring
import Mathlib.Tactic.NormNum
import Mathlib.Tactic.Linarith

open scoped BigOperators

noncomputable section

namespace Cert.Spec

open Idealize.ShloMosaic Idealize.ShloMosaic.ValueIdx

/-! ### The constants -/

/-- The word of 1.0 denotes the real number one. -/
theorem one_eq : one = 1 := by
  unfold one
  simp [Ideal.ofBits, Ideal.ieee, -EReal.coe_mul]; norm_num

/-- The word of 131072.0 denotes the real number 131072. -/
theorem nrows_eq : nrows = ((131072 : ℝ) : EReal) := by
  unfold nrows
  simp [Ideal.ofBits, Ideal.ieee, -EReal.coe_mul]; norm_num

/-! ### Regrouping a sum into equal blocks -/

/-- A sum over m·n consecutive indices is the sum over m blocks of the sums over the n indices of each block. -/
theorem sum_blocks_gen {M : Type*} [AddCommMonoid M] (m n N : ℕ) (hN : m * n = N) (f : Fin N → M) :
    ∑ t : Fin m, ∑ p : Fin n, f ⟨n * t.val + p.val, by
        have ht := t.isLt; have hp := p.isLt
        have h1 : n * t.val + p.val < n * (t.val + 1) := by rw [Nat.mul_succ]; omega
        have h2 : n * (t.val + 1) ≤ n * m := Nat.mul_le_mul_left n ht
        rw [Nat.mul_comm] at hN; omega⟩ = ∑ r : Fin N, f r := by
  subst hN
  rw [← Finset.sum_product', Finset.univ_product_univ]
  refine Fintype.sum_equiv finProdFinEquiv _ _ ?_
  rintro ⟨t, p⟩
  congr 1
  ext
  simp [finProdFinEquiv, Nat.add_comm]

theorem sum_blocks {M : Type*} [AddCommMonoid M] (f : Fin 131072 → M) :
    ∑ t : Fin 256, ∑ p : Fin 512, f ⟨512 * t.val + p.val, by have := t.isLt; have := p.isLt; omega⟩
      = ∑ r : Fin 131072, f r :=
  sum_blocks_gen 256 512 131072 (by norm_num) f

theorem sum_blocks4096 {M : Type*} [AddCommMonoid M] (f : Fin 131072 → M) :
    ∑ t : Fin 32, ∑ p : Fin 4096, f ⟨4096 * t.val + p.val, by have := t.isLt; have := p.isLt; omega⟩
      = ∑ r : Fin 131072, f r :=
  sum_blocks_gen 32 4096 131072 (by norm_num) f

/-! ### Finite sums of reals inside the extended reals -/

/-- A finite sum of real numbers, taken in the extended reals, is the real sum. -/
theorem coe_sum {ι : Type*} (s : Finset ι) (a : ι → ℝ) :
    ∑ i ∈ s, ((a i : ℝ) : EReal) = ((∑ i ∈ s, a i : ℝ) : EReal) := by
  classical
  induction s using Finset.induction_on with
  | empty => simp
  | insert x s hx ih => rw [Finset.sum_insert hx, Finset.sum_insert hx, ih, EReal.coe_add]

/-- A finite sum of extended reals that are each a real number is a real number. -/
theorem sum_real {ι : Type*} (s : Finset ι) (f : ι → EReal) (hf : ∀ i, ∃ a : ℝ, f i = (a : EReal)) :
    ∃ a : ℝ, ∑ i ∈ s, f i = (a : EReal) := by
  choose a ha using hf
  exact ⟨∑ i ∈ s, a i, by simp only [ha]; exact coe_sum s a⟩

/-! ### The two forms of the variance -/

/-- Over the reals: the mean of the squares minus the square of the mean is the mean of the squared deviations. -/
theorem real_var (a : Fin 131072 → ℝ) :
    (∑ r, a r * a r) * (1 / 131072) - (∑ r, a r) * (1 / 131072) * ((∑ r, a r) * (1 / 131072))
      = (∑ r, (a r - (∑ r, a r) * (1 / 131072)) * (a r - (∑ r, a r) * (1 / 131072))) * (1 / 131072) := by
  have key : ∀ μ : ℝ, ∑ r : Fin 131072, (a r - μ) * (a r - μ)
      = (∑ r, a r * a r) - 2 * μ * (∑ r, a r) + 131072 * (μ * μ) := by
    intro μ
    have e : ∀ r : Fin 131072, (a r - μ) * (a r - μ) = a r * a r - 2 * μ * a r + μ * μ := fun r => by ring
    simp only [e]
    rw [Finset.sum_add_distrib, Finset.sum_sub_distrib, ← Finset.mul_sum, Finset.sum_const, Finset.card_univ,
      Fintype.card_fin, nsmul_eq_mul]
    norm_num
  rw [key]
  generalize (∑ r, a r) = S
  generalize (∑ r, a r * a r) = Q
  ring

theorem varK_eq_varR (h : Fin 131072 → Fin 256 → EReal) (hreal : ∀ r j, ∃ a : ℝ, h r j = (a : EReal)) (j : Fin 256) :
    varK h j = varR h j := by
  choose a ha using hreal
  have hN : (131072 : ℝ) ≠ 0 := by norm_num
  have hmean : mean h j = (((∑ r, a r j) * (1 / 131072) : ℝ) : EReal) := by
    unfold mean
    rw [nrows_eq, Ideal.div_coe hN]
    simp only [ha]
    rw [coe_sum, ← EReal.coe_mul]
  unfold varK varR
  rw [hmean, nrows_eq, Ideal.div_coe hN, Ideal.div_coe hN]
  simp only [ha, ← EReal.coe_mul, ← EReal.coe_sub, coe_sum]
  exact congrArg _ (real_var (fun r => a r j))

/-! ### Counts and pooled rows are real -/

/-- A segment's count is the number of its rows. -/
theorem cnt_eq (ai : SI.Idx → BitVec 32) (s : Fin 4096) :
    cnt ai s = ((((Finset.univ.filter (fun e : Fin 131072 => names ai e s.val)).card : ℕ) : ℝ) : EReal) := by
  unfold cnt
  rw [one_eq, ← EReal.coe_one]
  refine (coe_sum _ (fun _ => (1 : ℝ))).trans ?_
  rw [Finset.sum_const, nsmul_eq_mul, mul_one]

theorem cnt_real (ai : SI.Idx → BitVec 32) (s : Fin 4096) : ∃ a : ℝ, 0 ≤ a ∧ cnt ai s = (a : EReal) :=
  ⟨_, Nat.cast_nonneg _, cnt_eq ai s⟩

theorem maxcnt_ne_zero (ai : SI.Idx → BitVec 32) (s : Fin 4096) :
    ∃ a : ℝ, 1 ≤ a ∧ max (cnt ai s) one = (a : EReal) := by
  obtain ⟨c, _, hc⟩ := cnt_real ai s
  refine ⟨max c 1, le_max_right _ _, ?_⟩
  rw [hc, one_eq, ← EReal.coe_one]
  rcases le_total c 1 with h | h
  · rw [max_eq_right h, max_eq_right (EReal.coe_le_coe_iff.mpr h)]
  · rw [max_eq_left h, max_eq_left (EReal.coe_le_coe_iff.mpr h)]

/-- The sum of a segment's rows is real when the rows are. -/
theorem seg_real (Y : Fin 131072 → Fin 128 → EReal) (hY : ∀ e j, ∃ a : ℝ, Y e j = (a : EReal))
    (ai : SI.Idx → BitVec 32) (s : Fin 4096) (j : Fin 128) : ∃ a : ℝ, seg Y ai s j = (a : EReal) :=
  sum_real _ _ (fun e => hY e j)

/-- Dividing by the larger of the count and one is multiplying by the reciprocal of a real number that is at least one. -/
theorem pooled_eq (Y : Fin 131072 → Fin 128 → EReal) (ai : SI.Idx → BitVec 32) (s : Fin 4096) (j : Fin 128) :
    ∃ c : ℝ, 1 ≤ c ∧ max (cnt ai s) one = (c : EReal) ∧ pooled Y ai s j = seg Y ai s j * ((1 / c : ℝ) : EReal) := by
  obtain ⟨c, hc1, hc⟩ := maxcnt_ne_zero ai s
  have hc0 : c ≠ 0 := by linarith
  exact ⟨c, hc1, hc, by unfold pooled; rw [hc, Ideal.div_coe hc0]⟩

theorem pooled_real (Y : Fin 131072 → Fin 128 → EReal) (hY : ∀ e j, ∃ a : ℝ, Y e j = (a : EReal))
    (ai : SI.Idx → BitVec 32) (s : Fin 4096) (j : Fin 128) : ∃ a : ℝ, pooled Y ai s j = (a : EReal) := by
  obtain ⟨c, _, _, hp⟩ := pooled_eq Y ai s j
  obtain ⟨q, hq⟩ := seg_real Y hY ai s j
  exact ⟨q * (1 / c), by rw [hp, hq, EReal.coe_mul]⟩

theorem pooled_eq_mul (Y : Fin 131072 → Fin 128 → EReal) (ai : SI.Idx → BitVec 32) (s : Fin 4096) (j : Fin 128) :
    seg Y ai s j * Ideal.div one (max (cnt ai s) one) = pooled Y ai s j := by
  obtain ⟨c, hc1, hc, hp⟩ := pooled_eq Y ai s j
  have hc0 : c ≠ 0 := by linarith
  rw [hp, hc, Ideal.div_coe hc0, one_eq, one_mul]

/-! ### The linear layer's output is real -/

theorem cols_real (X : SX.Idx → EReal) (hX : AllReal X) (off : Nat) (h : off + 128 ≤ 384) (r : Fin 131072)
    (j : Fin 128) : ∃ a : ℝ, cols X off h r j = (a : EReal) :=
  hX _

/-- Five rows of reals laid side by side are a row of reals. -/
theorem cat5_real (f0 f1 f2 f3 f4 : Fin 128 → EReal) (h0 : ∀ j, ∃ a : ℝ, f0 j = (a : EReal))
    (h1 : ∀ j, ∃ a : ℝ, f1 j = (a : EReal)) (h2 : ∀ j, ∃ a : ℝ, f2 j = (a : EReal))
    (h3 : ∀ j, ∃ a : ℝ, f3 j = (a : EReal)) (h4 : ∀ j, ∃ a : ℝ, f4 j = (a : EReal)) (k : Fin 640) :
    ∃ a : ℝ, cat5 f0 f1 f2 f3 f4 k = (a : EReal) := by
  unfold cat5
  split_ifs
  · exact h0 _
  · exact h1 _
  · exact h2 _
  · exact h3 _
  · exact h4 _

theorem hin_real (X : SX.Idx → EReal) (ai ei : SI.Idx → BitVec 32) (hX : AllReal X) (r : Fin 131072) (k : Fin 640) :
    ∃ a : ℝ, hin X ai ei r k = (a : EReal) := by
  unfold hin
  exact cat5_real _ _ _ _ _ (cols_real X hX _ _ r)
    (pooled_real _ (fun e j => cols_real X hX _ _ e j) ai _)
    (cols_real X hX _ _ r)
    (pooled_real _ (fun e j => cols_real X hX _ _ e j) ai _)
    (cols_real X hX _ _ r) k

theorem hpre_real (X : SX.Idx → EReal) (ai ei : SI.Idx → BitVec 32) (W : SW.Idx → EReal) (b : SV.Idx → EReal)
    (hX : AllReal X) (hW : AllReal W) (hb : AllReal b) : ∀ r j, ∃ a : ℝ, hpre X ai ei W b r j = (a : EReal) := by
  intro r j
  unfold hpre
  obtain ⟨s, hs⟩ := sum_real Finset.univ (fun k : Fin 640 => hin X ai ei r k * W (ix2 k j)) (fun k => by
    obtain ⟨x, hx⟩ := hin_real X ai ei hX r k
    obtain ⟨w, hw⟩ := hW (ix2 k j)
    exact ⟨x * w, by rw [hx, hw, EReal.coe_mul]⟩)
  obtain ⟨c, hc⟩ := hb (ix1 j)
  exact ⟨s + c, by rw [hs, hc, EReal.coe_add]⟩

theorem outK_eq_outR (X : SX.Idx → EReal) (ai ei : SI.Idx → BitVec 32) (W : SW.Idx → EReal) (b g be : SV.Idx → EReal)
    (hX : AllReal X) (hW : AllReal W) (hb : AllReal b) : outK X ai ei W b g be = outR X ai ei W b g be := by
  funext i
  unfold outK outR
  rw [show varK (hpre X ai ei W b) = varR (hpre X ai ei W b) from
    funext (varK_eq_varR _ (hpre_real X ai ei W b hX hW hb))]

end Cert.Spec

end
-- ==== Proof.KPieces.lean ====
/-
  What the first kernel leaves in its three output blocks at each grid point, as values.

  At every point the body computes one 512 × 256 block `hb` of the linear layer's output from the point's input blocks
  and stores it whole into the first output. The other two outputs are two 1 × 256 running totals that stay in place
  from point to point: at the first point they are reset to zero and then receive the block's column sums and the
  column sums of its squares; at every later point they receive the same on top of what the point before left. So after
  point `n` the three outputs hold the point's block and the two totals over points 0 … n, by induction on the point.
-/
import proofs.«414974_j88794153877511_1_alg».proof.Proof.Gen.KernelIdeal.Frame
import Idealize.ShloMosaic.Lib.Pipeline.Value

noncomputable section

namespace Cert.KernelIdeal.Val

open Idealize.ShloMosaic Idealize.ShloMosaic.TcCoe Idealize.SL.Sem
open Cert.KernelIdeal Cert.KernelIdeal.Gen

variable {F : FTy → Type} [FloatOps F]

/-- The zero offset of a rank-2 rectangle, as the constant function. -/
theorem hz : (![0, 0] : Fin 2 → Nat) = fun _ => 0 := funext fun a => by fin_cases a <;> rfl

/-! ## The six found pieces as payloads

  Each output's contents after the body are its stores read back. Every store covers its whole buffer, so the contents
  are the last store's payload; every load reads a whole buffer, so each payload argument is that buffer's contents.
  At the first point the totals' buffers are stored twice: the zero row, then the update, whose own load reads the zero
  row back. -/

section Pieces
variable (c : Dev nD) (i : grid0.Coords) (a1 : Memref sig .tc .vmem S512x384 .f32) (h1 : a1.IsWhole) (a2 : Memref sig .tc .vmem S512x1 .i32) (h2 : a2.IsWhole) (a3 : Memref sig .tc .vmem S512x1 .i32) (h3 : a3.IsWhole) (a4 : Memref sig .tc .vmem S4096x128 .bf16) (h4 : a4.IsWhole) (a5 : Memref sig .tc .vmem S4096x128 .bf16) (h5 : a5.IsWhole) (a6 : Memref sig .tc .vmem S640x256 .bf16) (h6 : a6.IsWhole) (a7 : Memref sig .tc .vmem S1x256 .f32) (h7 : a7.IsWhole) (a8 : Memref sig .tc .vmem S512x256 .f32) (h8 : a8.IsWhole) (a9 : Memref sig .tc .vmem S1x256 .f32) (h9 : a9.IsWhole) (a10 : Memref sig .tc .vmem S1x256 .f32) (h10 : a10.IsWhole)

/-- At the first point the block output holds the point's block. -/
theorem out_A_7 (hc : cond0_0 i) (x0 : Vec F S512x384 .f32) (x1 : Vec F S512x1 .i32) (x2 : Vec F S512x1 .i32) (x3 : Vec F S4096x128 .bf16) (x4 : Vec F S4096x128 .bf16) (x5 : Vec F S640x256 .bf16) (x6 : Vec F S1x256 .f32) :
    out0_A_7 c i a1 h1 a2 h2 a3 h3 a4 h4 a5 h5 a6 h6 a7 h7 a8 h8 a9 h9 a10 h10 hc x0 x1 x2 x3 x4 x5 x6 = k0_pay5 x1 x2 x3 x4 x0 x5 x6 := by
  unfold out0_A_7
  rw [View.read_writes_eq_canon _ _ _ (cover0_A_7 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h9.read_unread, h10.read_unread,
    View.ld_unit_zero (S := S512x1) hz, View.ld_unit_zero (S := S4096x128) hz, View.ld_unit_zero (S := S512x384) hz, View.ld_unit_zero (S := S640x256) hz, View.ld_unit_zero (S := S1x256) hz, shapeCast_self]

/-- At the first point the first total is the block's column sums over the zero row just stored. -/
theorem out_A_8 (hc : cond0_0 i) (x0 : Vec F S512x384 .f32) (x1 : Vec F S512x1 .i32) (x2 : Vec F S512x1 .i32) (x3 : Vec F S4096x128 .bf16) (x4 : Vec F S4096x128 .bf16) (x5 : Vec F S640x256 .bf16) (x6 : Vec F S1x256 .f32) :
    out0_A_8 c i a1 h1 a2 h2 a3 h3 a4 h4 a5 h5 a6 h6 a7 h7 a8 h8 a9 h9 a10 h10 hc x0 x1 x2 x3 x4 x5 x6 = k0_pay1 (k0_pay5 x1 x2 x3 x4 x0 x5 x6) (k0_pay3 (F := F)) := by
  unfold out0_A_8
  rw [View.read_writes_eq_canon _ _ _ (cover0_A_8 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h9.read_unread, h10.read_unread,
    View.ld_unit_zero (S := S512x1) hz, View.ld_unit_zero (S := S4096x128) hz, View.ld_unit_zero (S := S512x384) hz, View.ld_unit_zero (S := S640x256) hz, View.ld_unit_zero (S := S1x256) hz, shapeCast_self]

/-- At the first point the second total is the column sums of the block's squares over the zero row just stored. -/
theorem out_A_9 (hc : cond0_0 i) (x0 : Vec F S512x384 .f32) (x1 : Vec F S512x1 .i32) (x2 : Vec F S512x1 .i32) (x3 : Vec F S4096x128 .bf16) (x4 : Vec F S4096x128 .bf16) (x5 : Vec F S640x256 .bf16) (x6 : Vec F S1x256 .f32) :
    out0_A_9 c i a1 h1 a2 h2 a3 h3 a4 h4 a5 h5 a6 h6 a7 h7 a8 h8 a9 h9 a10 h10 hc x0 x1 x2 x3 x4 x5 x6 = k0_pay2 (k0_pay5 x1 x2 x3 x4 x0 x5 x6) (k0_pay4 (F := F)) := by
  unfold out0_A_9
  rw [View.read_writes_eq_canon _ _ _ (cover0_A_9 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h9.read_unread, h10.read_unread,
    View.ld_unit_zero (S := S512x1) hz, View.ld_unit_zero (S := S4096x128) hz, View.ld_unit_zero (S := S512x384) hz, View.ld_unit_zero (S := S640x256) hz, View.ld_unit_zero (S := S1x256) hz, shapeCast_self]

/-- At a later point the block output holds the point's block. -/
theorem out_B_7 (hc : ¬cond0_0 i) (x0 : Vec F S512x384 .f32) (x1 : Vec F S512x1 .i32) (x2 : Vec F S512x1 .i32) (x3 : Vec F S4096x128 .bf16) (x4 : Vec F S4096x128 .bf16) (x5 : Vec F S640x256 .bf16) (x6 : Vec F S1x256 .f32) (xo8 xo9 : Vec F S1x256 .f32) :
    out0_B_7 c i a1 h1 a2 h2 a3 h3 a4 h4 a5 h5 a6 h6 a7 h7 a8 h8 a9 h9 a10 h10 hc x0 x1 x2 x3 x4 x5 x6 xo8 xo9 = k0_pay5 x1 x2 x3 x4 x0 x5 x6 := by
  unfold out0_B_7
  rw [View.read_writes_eq_canon _ _ _ (cover0_B_7 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread,
    View.ld_unit_zero (S := S512x1) hz, View.ld_unit_zero (S := S4096x128) hz, View.ld_unit_zero (S := S512x384) hz, View.ld_unit_zero (S := S640x256) hz, View.ld_unit_zero (S := S1x256) hz, shapeCast_self]

/-- At a later point the first total grows by the block's column sums. -/
theorem out_B_8 (hc : ¬cond0_0 i) (x0 : Vec F S512x384 .f32) (x1 : Vec F S512x1 .i32) (x2 : Vec F S512x1 .i32) (x3 : Vec F S4096x128 .bf16) (x4 : Vec F S4096x128 .bf16) (x5 : Vec F S640x256 .bf16) (x6 : Vec F S1x256 .f32) (xo8 xo9 : Vec F S1x256 .f32) :
    out0_B_8 c i a1 h1 a2 h2 a3 h3 a4 h4 a5 h5 a6 h6 a7 h7 a8 h8 a9 h9 a10 h10 hc x0 x1 x2 x3 x4 x5 x6 xo8 xo9 = k0_pay1 (k0_pay5 x1 x2 x3 x4 x0 x5 x6) xo8 := by
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread,
    View.ld_unit_zero (S := S512x1) hz, View.ld_unit_zero (S := S4096x128) hz, View.ld_unit_zero (S := S512x384) hz, View.ld_unit_zero (S := S640x256) hz, View.ld_unit_zero (S := S1x256) hz, shapeCast_self]

/-- At a later point the second total grows by the column sums of the block's squares. -/
theorem out_B_9 (hc : ¬cond0_0 i) (x0 : Vec F S512x384 .f32) (x1 : Vec F S512x1 .i32) (x2 : Vec F S512x1 .i32) (x3 : Vec F S4096x128 .bf16) (x4 : Vec F S4096x128 .bf16) (x5 : Vec F S640x256 .bf16) (x6 : Vec F S1x256 .f32) (xo8 xo9 : Vec F S1x256 .f32) :
    out0_B_9 c i a1 h1 a2 h2 a3 h3 a4 h4 a5 h5 a6 h6 a7 h7 a8 h8 a9 h9 a10 h10 hc x0 x1 x2 x3 x4 x5 x6 xo8 xo9 = k0_pay2 (k0_pay5 x1 x2 x3 x4 x0 x5 x6) xo9 := by
  unfold out0_B_9
  rw [View.read_writes_eq_canon _ _ _ (cover0_B_9 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread,
    View.ld_unit_zero (S := S512x1) hz, View.ld_unit_zero (S := S4096x128) hz, View.ld_unit_zero (S := S512x384) hz, View.ld_unit_zero (S := S640x256) hz, View.ld_unit_zero (S := S1x256) hz, shapeCast_self]

end Pieces

/-! ## The outputs after each point -/

variable (V : (c : Dev nD) → (b : Ref sig .tc) → Buf (Elt F) ((c : Thread nD τ).loc b))

/-- The block of the linear layer's output that point `t` computes from its input blocks. -/
def hblk (c : Dev nD) (t : Fin cfg0.N) : Vec F S512x256 .f32 :=
  k0_pay5 (iblk0 V c 1 t) (iblk0 V c 2 t) (iblk0 V c 3 t) (iblk0 V c 4 t) (iblk0 V c 0 t) (iblk0 V c 5 t) (iblk0 V c 6 t)

/-- The running total of the blocks' column sums after point `n`. -/
def acc8 (c : Dev nD) : (n : ℕ) → n < cfg0.N → Vec F S1x256 .f32
  | 0, h => k0_pay1 (hblk V c ⟨0, h⟩) (k0_pay3 (F := F))
  | n + 1, h => k0_pay1 (hblk V c ⟨n + 1, h⟩) (acc8 c n (Nat.lt_of_succ_lt h))

/-- The running total of the column sums of the blocks' squares after point `n`. -/
def acc9 (c : Dev nD) : (n : ℕ) → n < cfg0.N → Vec F S1x256 .f32
  | 0, h => k0_pay2 (hblk V c ⟨0, h⟩) (k0_pay4 (F := F))
  | n + 1, h => k0_pay2 (hblk V c ⟨n + 1, h⟩) (acc9 c n (Nat.lt_of_succ_lt h))

/-- After point `n` the three outputs hold the point's block and the two running totals. -/
theorem outsAt_eq (c : Dev nD) : ∀ (n : ℕ) (h : n < cfg0.N),
    outsAt0 V c n h = (hblk V c ⟨n, h⟩, acc8 V c n h, acc9 V c n h) := by
  intro n
  induction n with
  | zero =>
    -- the first point resets the totals: each output is its first-point piece
    intro h
    have hcA : cond0_0 (grid0.coords (⟨0, h⟩ : Fin cfg0.N)) := (hcond0_0 ⟨0, h⟩).mpr (Nat.zero_mod _)
    rw [outsAt0_A V c ⟨0, h⟩ (Nat.zero_mod _)]
    exact congrArg₂ Prod.mk (out_A_7 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) hcA (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N)) (iblk0 V c 5 (⟨0, h⟩ : Fin cfg0.N)) (iblk0 V c 6 (⟨0, h⟩ : Fin cfg0.N)))
      (congrArg₂ Prod.mk (out_A_8 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) hcA (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N)) (iblk0 V c 5 (⟨0, h⟩ : Fin cfg0.N)) (iblk0 V c 6 (⟨0, h⟩ : Fin cfg0.N)))
        (out_A_9 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) hcA (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N)) (iblk0 V c 5 (⟨0, h⟩ : Fin cfg0.N)) (iblk0 V c 6 (⟨0, h⟩ : Fin cfg0.N))))
  | succ n ih =>
    -- a later point adds to what point `n` left, which the induction hypothesis names
    intro h
    have hN : cfg0.N = 256 := N_0
    have hB : ¬(⟨n + 1, h⟩ : Fin cfg0.N).val % 256 = 0 := by dsimp only; omega
    have hcB : ¬cond0_0 (grid0.coords (⟨n + 1, h⟩ : Fin cfg0.N)) := fun hh => hB ((hcond0_0 ⟨n + 1, h⟩).mp hh)
    have hprev : outsAt0 V c ((⟨n + 1, h⟩ : Fin cfg0.N).val - 1) (Nat.lt_of_le_of_lt (Nat.sub_le _ _) (⟨n + 1, h⟩ : Fin cfg0.N).isLt)
        = (hblk V c ⟨n, Nat.lt_of_succ_lt h⟩, acc8 V c n (Nat.lt_of_succ_lt h), acc9 V c n (Nat.lt_of_succ_lt h)) :=
      ih (Nat.lt_of_succ_lt h)
    rw [outsAt0_B V c ⟨n + 1, h⟩ hB, hprev]
    dsimp only
    exact congrArg₂ Prod.mk (out_B_7 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) hcB (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (iblk0 V c 5 (⟨n + 1, h⟩ : Fin cfg0.N)) (iblk0 V c 6 (⟨n + 1, h⟩ : Fin cfg0.N)) (acc8 V c n (Nat.lt_of_succ_lt h)) (acc9 V c n (Nat.lt_of_succ_lt h)))
      (congrArg₂ Prod.mk (out_B_8 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) hcB (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (iblk0 V c 5 (⟨n + 1, h⟩ : Fin cfg0.N)) (iblk0 V c 6 (⟨n + 1, h⟩ : Fin cfg0.N)) (acc8 V c n (Nat.lt_of_succ_lt h)) (acc9 V c n (Nat.lt_of_succ_lt h)))
        (out_B_9 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) hcB (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (iblk0 V c 5 (⟨n + 1, h⟩ : Fin cfg0.N)) (iblk0 V c 6 (⟨n + 1, h⟩ : Fin cfg0.N)) (acc8 V c n (Nat.lt_of_succ_lt h)) (acc9 V c n (Nat.lt_of_succ_lt h))))

end Cert.KernelIdeal.Val

end
-- ==== Proof.KArr.lean ====
/-
  From blocks to arrays, for both kernels, over any contents `V` the region is entered with.

  A window's block at a grid point is a rectangle of its array: row block `t` of a 131072-row array holds rows
  512 t … 512 t + 511 (first kernel) or 4096 t … 4096 t + 4095 (second kernel); a window whose block index never moves
  holds its whole array. The first kernel's block output is written back at every point and its 256 blocks tile the
  array, so the array ends holding, at row `r`, point `r / 512`'s block at row `r % 512`. Its two running totals are one
  block that never moves, written back after the last point only, so each array ends holding the total after point 255.
  The second kernel's output is written back at every point and its 32 blocks tile the array.
-/
import proofs.«414974_j88794153877511_1_alg».proof.Proof.KPieces
import Idealize.ShloMosaic.Lib.ValueIdx
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-- Point `t` of the first kernel's grid, from a row number. -/
def pt0 (r : Fin 131072) : Fin cfg0.N := ⟨r.val / 512, by have := r.isLt; rw [show cfg0.N = 256 from N_0]; omega⟩
/-- Point `t` of the second kernel's grid, from a row number. -/
def pt1 (r : Fin 131072) : Fin cfg1.N := ⟨r.val / 4096, by have := r.isLt; rw [show cfg1.N = 32 from N_1]; omega⟩
/-- Row `512 t + p`. -/
def row0 (t : Fin cfg0.N) (p : Fin 512) : Fin 131072 :=
  ⟨512 * t.val + p.val, by have ht : t.val < 256 := lt_of_lt_of_eq t.isLt N_0; have := p.isLt; omega⟩
/-- Row `4096 t + p`. -/
def row1 (t : Fin cfg1.N) (p : Fin 4096) : Fin 131072 :=
  ⟨4096 * t.val + p.val, by have ht : t.val < 32 := lt_of_lt_of_eq t.isLt N_1; have := p.isLt; omega⟩

/-! ## Where each window's block sits

  A block's index along each axis, decided once over each grid: a row-block window's row index is the point's number
  and its column index 0; a window that never moves sits at (0, 0). An element's coordinate in the array is the block
  index times the block's extent plus the coordinate inside the block. -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx1_0 : ∀ t : Fin cfg1.N, win1_0.index t (0 : Fin 2) = t.val ∧ win1_0.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)

/-! ## The first kernel's input blocks -/

theorem iblk0_x (c : Dev nD) (t : Fin cfg0.N) (p : Fin 512) (k : Fin 384) :
    (iblk0 V c 0 t : Vec F S512x384 .f32) (ix2 p k) = (V c main_arg0 : Vec F S131072x384 .f32) (ix2 (row0 t p) k) := by
  obtain ⟨e0, e1⟩ := idx0_0 t
  unfold iblk0
  rw [View.read_apply]
  show V c main_arg0 _ = V c main_arg0 _
  congr 1
  funext a
  apply Fin.ext
  match a with
  | ⟨0, _⟩ => show win0_0.index t 0 * 512 + 1 * p.val = 512 * t.val + p.val; rw [e0]; omega
  | ⟨1, _⟩ => show win0_0.index t 1 * 384 + 1 * k.val = k.val; rw [e1]; omega

theorem iblk0_a (c : Dev nD) (t : Fin cfg0.N) (p : Fin 512) :
    (iblk0 V c 1 t : Vec F S512x1 .i32) (ix2 p (0 : Fin 1)) = (V c main_v24 : Vec F S131072x1 .i32) (ix2 (row0 t p) (0 : Fin 1)) := by
  obtain ⟨e0, e1⟩ := idx0_1 t
  unfold iblk0
  rw [View.read_apply]
  show V c main_v24 _ = V c main_v24 _
  congr 1
  funext a
  apply Fin.ext
  match a with
  | ⟨0, _⟩ => show win0_1.index t 0 * 512 + 1 * p.val = 512 * t.val + p.val; rw [e0]; omega
  | ⟨1, _⟩ => show win0_1.index t 1 * 1 + 1 * (0 : Fin 1).val = (0 : Fin 1).val; rw [e1]; rfl

theorem iblk0_e (c : Dev nD) (t : Fin cfg0.N) (p : Fin 512) :
    (iblk0 V c 2 t : Vec F S512x1 .i32) (ix2 p (0 : Fin 1)) = (V c main_v25 : Vec F S131072x1 .i32) (ix2 (row0 t p) (0 : Fin 1)) := by
  obtain ⟨e0, e1⟩ := idx0_2 t
  unfold iblk0
  rw [View.read_apply]
  show V c main_v25 _ = V c main_v25 _
  congr 1
  funext a
  apply Fin.ext
  match a with
  | ⟨0, _⟩ => show win0_2.index t 0 * 512 + 1 * p.val = 512 * t.val + p.val; rw [e0]; omega
  | ⟨1, _⟩ => show win0_2.index t 1 * 1 + 1 * (0 : Fin 1).val = (0 : Fin 1).val; rw [e1]; rfl

theorem iblk0_tA (c : Dev nD) (t : Fin cfg0.N) : (iblk0 V c 3 t : Vec F S4096x128 .bf16) = V c main_v19 := by
  obtain ⟨e0, e1⟩ := idx0_3 t
  funext i
  unfold iblk0
  rw [View.read_apply]
  show V c main_v19 _ = V c main_v19 _
  congr 1
  funext a
  apply Fin.ext
  match a with
  | ⟨0, _⟩ => show win0_3.index t 0 * 4096 + 1 * (i 0).val = (i 0).val; rw [e0]; omega
  | ⟨1, _⟩ => show win0_3.index t 1 * 128 + 1 * (i 1).val = (i 1).val; rw [e1]; omega

theorem iblk0_tE (c : Dev nD) (t : Fin cfg0.N) : (iblk0 V c 4 t : Vec F S4096x128 .bf16) = V c main_v23 := by
  obtain ⟨e0, e1⟩ := idx0_4 t
  funext i
  unfold iblk0
  rw [View.read_apply]
  show V c main_v23 _ = V c main_v23 _
  congr 1
  funext a
  apply Fin.ext
  match a with
  | ⟨0, _⟩ => show win0_4.index t 0 * 4096 + 1 * (i 0).val = (i 0).val; rw [e0]; omega
  | ⟨1, _⟩ => show win0_4.index t 1 * 128 + 1 * (i 1).val = (i 1).val; rw [e1]; omega

theorem iblk0_w (c : Dev nD) (t : Fin cfg0.N) : (iblk0 V c 5 t : Vec F S640x256 .bf16) = V c main_v26 := by
  obtain ⟨e0, e1⟩ := idx0_5 t
  funext i
  unfold iblk0
  rw [View.read_apply]
  show V c main_v26 _ = V c main_v26 _
  congr 1
  funext a
  apply Fin.ext
  match a with
  | ⟨0, _⟩ => show win0_5.index t 0 * 640 + 1 * (i 0).val = (i 0).val; rw [e0]; omega
  | ⟨1, _⟩ => show win0_5.index t 1 * 256 + 1 * (i 1).val = (i 1).val; rw [e1]; omega

theorem iblk0_b (c : Dev nD) (t : Fin cfg0.N) : (iblk0 V c 6 t : Vec F S1x256 .f32) = V c main_v27 := by
  obtain ⟨e0, e1⟩ := idx0_6 t
  funext i
  unfold iblk0
  rw [View.read_apply]
  show V c main_v27 _ = V c main_v27 _
  congr 1
  funext a
  apply Fin.ext
  match a with
  | ⟨0, _⟩ => show win0_6.index t 0 * 1 + 1 * (i 0).val = (i 0).val; rw [e0]; omega
  | ⟨1, _⟩ => show win0_6.index t 1 * 256 + 1 * (i 1).val = (i 1).val; rw [e1]; omega

/-! ## The first kernel's three result arrays -/

/-- The whole block output as one function of the row and column: row `r` belongs to point `r / 512`, whose block
    holds it at row `r % 512`. -/
def G7 (c : Dev nD) : S131072x256.Idx → Elt F .f32 := fun i =>
  hblk V c (pt0 (i 0)) (ix2 (⟨(i 0).val % 512, Nat.mod_lt _ (by norm_num)⟩ : Fin 512) (i 1))

/-- At row `512 t + y₀`, column `y₁`, that function is point `t`'s block at `(y₀, y₁)`: dividing by 512 gives `t` back and
    the remainder gives `y₀`. -/
theorem G7_at (c : Dev nD) (t : Fin cfg0.N) (y : S512x256.Idx) (i : S131072x256.Idx)
    (h0 : (i 0).val = 512 * t.val + (y 0).val) (h1 : (i 1).val = (y 1).val) : G7 V c i = hblk V c t y := by
  unfold G7
  have hy : (y 0).val < 512 := (y 0).isLt
  have e : pt0 (i 0) = t := Fin.ext (by show (i 0).val / 512 = t.val; omega)
  rw [e]
  congr 1
  funext a
  match a with
  | ⟨0, _⟩ => exact Fin.ext (by show (i 0).val % 512 = (y 0).val; omega)
  | ⟨1, _⟩ => exact Fin.ext h1

/-- What point `t` writes back is block `t` of that function. -/
theorem flushed7_eq (c : Dev nD) (t : Fin cfg0.N) (hf : (cfg0.win 7).flush t = true) :
    (dat0 V c).flushed 7 t = ((cfg0.win 7).blk t).view.read (Elt F) (G7 V c) := by
  show (cfg0.win 7).cut (grid0.coords t) ((dat0 V c).after 7 t) = _
  rw [after0_7, outsAt_eq]
  obtain ⟨e0, e1⟩ := idx0_7 t
  funext y
  rw [View.read_apply]
  show hblk V c t y = G7 V c (((cfg0.win 7).blk t).view.emb y)
  refine (G7_at V c t y _ ?_ ?_).symm
  · show win0_7.index t 0 * 512 + 1 * (y 0).val = 512 * t.val + (y 0).val; rw [e0]; omega
  · show win0_7.index t 1 * 256 + 1 * (y 1).val = (y 1).val; rw [e1]; omega

/-- An index of the array is in point `t`'s block iff each coordinate is in the block's range on its axis. -/
theorem mem_blk7 (t : Fin cfg0.N) (i : S131072x256.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v28_0).slice (win0_7.rect t)).set ↔ _
  rw [View.set_slice_whole, Rect.mem_set_unit]
  exact Iff.rfl

/-- Row `r` lies in point `r / 512`'s block, so the 256 blocks cover the array. -/
theorem cover7 (i : S131072x256.Idx) :
    ∃ t : Fin cfg0.N, (cfg0.win 7).flush t = true ∧ i ∈ ((cfg0.win 7).blk t).view.set := by
  have hi0 : (i 0).val < 131072 := (i 0).isLt
  have hi1 : (i 1).val < 256 := (i 1).isLt
  refine ⟨pt0 (i 0), flush0_7 _, ?_⟩
  obtain ⟨e0, e1⟩ := idx0_7 (pt0 (i 0))
  have ev : (pt0 (i 0)).val = (i 0).val / 512 := rfl
  rw [mem_blk7]
  intro a
  match a with
  | ⟨0, _⟩ => show win0_7.index (pt0 (i 0)) 0 * 512 ≤ (i 0).val ∧ (i 0).val < win0_7.index (pt0 (i 0)) 0 * 512 + 512; rw [e0, ev]; omega
  | ⟨1, _⟩ => show win0_7.index (pt0 (i 0)) 1 * 256 ≤ (i 1).val ∧ (i 1).val < win0_7.index (pt0 (i 0)) 1 * 256 + 256; rw [e1]; omega

theorem arr7_apply (c : Dev nD) (r : Fin 131072) (j : Fin 256) :
    ((dat0 V c).arrAt 7 cfg0.N : Vec F S131072x256 .f32) (ix2 r j)
      = hblk V c (pt0 r) (ix2 (⟨r.val % 512, Nat.mod_lt _ (by norm_num)⟩ : Fin 512) j) := by
  have h := (dat0 V c).arrAt_eq_of_cover 7 (G7 V c) (flushed7_eq V c) cover7
  show (dat0 V c).arrAt 7 cfg0.N (ix2 r j) = _
  rw [h]
  rfl

/-- Point 255, the last. -/
def tLast : Fin cfg0.N := ⟨255, by rw [show cfg0.N = 256 from N_0]; norm_num⟩

/-- The one write-back of this total, after the last point, writes the total after point 255; its block is the whole array. -/
theorem flushed8_eq (c : Dev nD) (t : Fin cfg0.N) (hf : (cfg0.win 8).flush t = true) :
    (dat0 V c).flushed 8 t = ((cfg0.win 8).blk t).view.read (Elt F) (acc8 V c 255 tLast.isLt) := by
  have hN : cfg0.N = 256 := N_0
  have h255 : t.val = 255 := by have := (flush0_8 t).mp hf; have := t.isLt; omega
  obtain rfl : t = tLast := Fin.ext h255
  show (cfg0.win 8).cut (grid0.coords tLast) ((dat0 V c).after 8 tLast) = _
  rw [after0_8, outsAt_eq]
  obtain ⟨e0, e1⟩ := idx0_8 tLast
  funext y
  rw [View.read_apply]
  show acc8 V c 255 _ y = acc8 V c 255 _ (((cfg0.win 8).blk tLast).view.emb y)
  congr 1
  funext a
  apply Fin.ext
  match a with
  | ⟨0, _⟩ => show (y 0).val = win0_8.index tLast 0 * 1 + 1 * (y 0).val; rw [e0]; omega
  | ⟨1, _⟩ => show (y 1).val = win0_8.index tLast 1 * 256 + 1 * (y 1).val; rw [e1]; omega

/-- The last point's block is the whole array. -/
theorem cover8 (i : S1x256.Idx) :
    ∃ t : Fin cfg0.N, (cfg0.win 8).flush t = true ∧ i ∈ ((cfg0.win 8).blk t).view.set := by
  have hi0 : (i 0).val < 1 := (i 0).isLt
  have hi1 : (i 1).val < 256 := (i 1).isLt
  refine ⟨tLast, (flush0_8 tLast).mpr rfl, ?_⟩
  obtain ⟨e0, e1⟩ := idx0_8 tLast
  show i ∈ ((View.whole main_v28_1).slice (win0_8.rect tLast)).set
  rw [View.set_slice_whole, Rect.mem_set_unit]
  intro a
  match a with
  | ⟨0, _⟩ => show win0_8.index tLast 0 * 1 ≤ (i 0).val ∧ (i 0).val < win0_8.index tLast 0 * 1 + 1; rw [e0]; omega
  | ⟨1, _⟩ => show win0_8.index tLast 1 * 256 ≤ (i 1).val ∧ (i 1).val < win0_8.index tLast 1 * 256 + 256; rw [e1]; omega

theorem arr8_eq (c : Dev nD) :
    ((dat0 V c).arrAt 8 cfg0.N : Vec F S1x256 .f32) = acc8 V c 255 (by rw [show cfg0.N = 256 from N_0]; norm_num) :=
  (dat0 V c).arrAt_eq_of_cover 8 (acc8 V c 255 tLast.isLt) (flushed8_eq V c) cover8

/-- The one write-back of this total, after the last point, writes the total after point 255; its block is the whole array. -/
theorem flushed9_eq (c : Dev nD) (t : Fin cfg0.N) (hf : (cfg0.win 9).flush t = true) :
    (dat0 V c).flushed 9 t = ((cfg0.win 9).blk t).view.read (Elt F) (acc9 V c 255 tLast.isLt) := by
  have hN : cfg0.N = 256 := N_0
  have h255 : t.val = 255 := by have := (flush0_9 t).mp hf; have := t.isLt; omega
  obtain rfl : t = tLast := Fin.ext h255
  show (cfg0.win 9).cut (grid0.coords tLast) ((dat0 V c).after 9 tLast) = _
  rw [after0_9, outsAt_eq]
  obtain ⟨e0, e1⟩ := idx0_9 tLast
  funext y
  rw [View.read_apply]
  show acc9 V c 255 _ y = acc9 V c 255 _ (((cfg0.win 9).blk tLast).view.emb y)
  congr 1
  funext a
  apply Fin.ext
  match a with
  | ⟨0, _⟩ => show (y 0).val = win0_9.index tLast 0 * 1 + 1 * (y 0).val; rw [e0]; omega
  | ⟨1, _⟩ => show (y 1).val = win0_9.index tLast 1 * 256 + 1 * (y 1).val; rw [e1]; omega

/-- The last point's block is the whole array. -/
theorem cover9 (i : S1x256.Idx) :
    ∃ t : Fin cfg0.N, (cfg0.win 9).flush t = true ∧ i ∈ ((cfg0.win 9).blk t).view.set := by
  have hi0 : (i 0).val < 1 := (i 0).isLt
  have hi1 : (i 1).val < 256 := (i 1).isLt
  refine ⟨tLast, (flush0_9 tLast).mpr rfl, ?_⟩
  obtain ⟨e0, e1⟩ := idx0_9 tLast
  show i ∈ ((View.whole main_v28_2).slice (win0_9.rect tLast)).set
  rw [View.set_slice_whole, Rect.mem_set_unit]
  intro a
  match a with
  | ⟨0, _⟩ => show win0_9.index tLast 0 * 1 ≤ (i 0).val ∧ (i 0).val < win0_9.index tLast 0 * 1 + 1; rw [e0]; omega
  | ⟨1, _⟩ => show win0_9.index tLast 1 * 256 ≤ (i 1).val ∧ (i 1).val < win0_9.index tLast 1 * 256 + 256; rw [e1]; omega

theorem arr9_eq (c : Dev nD) :
    ((dat0 V c).arrAt 9 cfg0.N : Vec F S1x256 .f32) = acc9 V c 255 (by rw [show cfg0.N = 256 from N_0]; norm_num) :=
  (dat0 V c).arrAt_eq_of_cover 9 (acc9 V c 255 tLast.isLt) (flushed9_eq V c) cover9

/-! ## The second kernel's input blocks and result array -/

theorem iblk1_h (c : Dev nD) (t : Fin cfg1.N) (p : Fin 4096) (j : Fin 256) :
    (iblk1 V c 0 t : Vec F S4096x256 .f32) (ix2 p j) = (V c main_v28_0 : Vec F S131072x256 .f32) (ix2 (row1 t p) j) := by
  obtain ⟨e0, e1⟩ := idx1_0 t
  unfold iblk1
  rw [View.read_apply]
  show V c main_v28_0 _ = V c main_v28_0 _
  congr 1
  funext a
  apply Fin.ext
  match a with
  | ⟨0, _⟩ => show win1_0.index t 0 * 4096 + 1 * p.val = 4096 * t.val + p.val; rw [e0]; omega
  | ⟨1, _⟩ => show win1_0.index t 1 * 256 + 1 * j.val = j.val; rw [e1]; omega

theorem iblk1_mean (c : Dev nD) (t : Fin cfg1.N) : (iblk1 V c 1 t : Vec F S1x256 .f32) = V c main_v40 := by
  obtain ⟨e0, e1⟩ := idx1_1 t
  funext i
  unfold iblk1
  rw [View.read_apply]
  show V c main_v40 _ = V c main_v40 _
  congr 1
  funext a
  apply Fin.ext
  match a with
  | ⟨0, _⟩ => show win1_1.index t 0 * 1 + 1 * (i 0).val = (i 0).val; rw [e0]; omega
  | ⟨1, _⟩ => show win1_1.index t 1 * 256 + 1 * (i 1).val = (i 1).val; rw [e1]; omega

theorem iblk1_inv (c : Dev nD) (t : Fin cfg1.N) : (iblk1 V c 2 t : Vec F S1x256 .f32) = V c main_v41 := by
  obtain ⟨e0, e1⟩ := idx1_2 t
  funext i
  unfold iblk1
  rw [View.read_apply]
  show V c main_v41 _ = V c main_v41 _
  congr 1
  funext a
  apply Fin.ext
  match a with
  | ⟨0, _⟩ => show win1_2.index t 0 * 1 + 1 * (i 0).val = (i 0).val; rw [e0]; omega
  | ⟨1, _⟩ => show win1_2.index t 1 * 256 + 1 * (i 1).val = (i 1).val; rw [e1]; omega

theorem iblk1_g (c : Dev nD) (t : Fin cfg1.N) : (iblk1 V c 3 t : Vec F S1x256 .f32) = V c main_v42 := by
  obtain ⟨e0, e1⟩ := idx1_3 t
  funext i
  unfold iblk1
  rw [View.read_apply]
  show V c main_v42 _ = V c main_v42 _
  congr 1
  funext a
  apply Fin.ext
  match a with
  | ⟨0, _⟩ => show win1_3.index t 0 * 1 + 1 * (i 0).val = (i 0).val; rw [e0]; omega
  | ⟨1, _⟩ => show win1_3.index t 1 * 256 + 1 * (i 1).val = (i 1).val; rw [e1]; omega

theorem iblk1_be (c : Dev nD) (t : Fin cfg1.N) : (iblk1 V c 4 t : Vec F S1x256 .f32) = V c main_v43 := by
  obtain ⟨e0, e1⟩ := idx1_4 t
  funext i
  unfold iblk1
  rw [View.read_apply]
  show V c main_v43 _ = V c main_v43 _
  congr 1
  funext a
  apply Fin.ext
  match a with
  | ⟨0, _⟩ => show win1_4.index t 0 * 1 + 1 * (i 0).val = (i 0).val; rw [e0]; omega
  | ⟨1, _⟩ => show win1_4.index t 1 * 256 + 1 * (i 1).val = (i 1).val; rw [e1]; omega

/-- The second kernel's whole output as one function of the row and column: row `r` belongs to point `r / 4096`,
    whose block holds it at row `r % 4096`. -/
def G5 (c : Dev nD) : S131072x256.Idx → Elt F .f32 := fun i =>
  k1_pay1 (iblk1 V c 0 (pt1 (i 0))) (iblk1 V c 1 (pt1 (i 0))) (iblk1 V c 2 (pt1 (i 0))) (iblk1 V c 3 (pt1 (i 0))) (iblk1 V c 4 (pt1 (i 0)))
    (ix2 (⟨(i 0).val % 4096, Nat.mod_lt _ (by norm_num)⟩ : Fin 4096) (i 1))

/-- At row `4096 t + y₀`, column `y₁`, that function is point `t`'s block at `(y₀, y₁)`. -/
theorem G5_at (c : Dev nD) (t : Fin cfg1.N) (y : S4096x256.Idx) (i : S131072x256.Idx)
    (h0 : (i 0).val = 4096 * t.val + (y 0).val) (h1 : (i 1).val = (y 1).val) :
    G5 V c i = k1_pay1 (iblk1 V c 0 t) (iblk1 V c 1 t) (iblk1 V c 2 t) (iblk1 V c 3 t) (iblk1 V c 4 t) y := by
  unfold G5
  have hy : (y 0).val < 4096 := (y 0).isLt
  have e : pt1 (i 0) = t := Fin.ext (by show (i 0).val / 4096 = t.val; omega)
  rw [e]
  congr 1
  funext a
  match a with
  | ⟨0, _⟩ => exact Fin.ext (by show (i 0).val % 4096 = (y 0).val; omega)
  | ⟨1, _⟩ => exact Fin.ext h1

/-- The body's one store covers its whole buffer and each load reads a whole buffer, so the buffer after the body is the
    payload of the point's input blocks. -/
theorem out1_5_eq (x0 : Vec F S4096x256 .f32) (x1 x2 x3 x4 : Vec F S1x256 .f32) :
    out1_5 x0 x1 x2 x3 x4 = k1_pay1 x0 x1 x2 x3 x4 := by
  unfold out1_5
  rw [View.canon_unit_zero hz]
  simp only [View.ld_unit_zero (S := S4096x256) hz, View.ld_unit_zero (S := S1x256) hz]

/-- What point `t` writes back is block `t` of that function. -/
theorem flushed5_eq (c : Dev nD) (t : Fin cfg1.N) (hf : (cfg1.win 5).flush t = true) :
    (dat1 V c).flushed 5 t = ((cfg1.win 5).blk t).view.read (Elt F) (G5 V c) := by
  show (cfg1.win 5).cut (grid1.coords t) ((dat1 V c).after 5 t) = _
  rw [after1_5, out1_5_eq]
  obtain ⟨e0, e1⟩ := idx1_5 t
  funext y
  rw [View.read_apply]
  show k1_pay1 (iblk1 V c 0 t) (iblk1 V c 1 t) (iblk1 V c 2 t) (iblk1 V c 3 t) (iblk1 V c 4 t) y = G5 V c (((cfg1.win 5).blk t).view.emb y)
  refine (G5_at V c t y _ ?_ ?_).symm
  · show win1_5.index t 0 * 4096 + 1 * (y 0).val = 4096 * t.val + (y 0).val; rw [e0]; omega
  · show win1_5.index t 1 * 256 + 1 * (y 1).val = (y 1).val; rw [e1]; omega

/-- Row `r` lies in point `r / 4096`'s block, so the 32 blocks cover the array. -/
theorem cover5 (i : S131072x256.Idx) :
    ∃ t : Fin cfg1.N, (cfg1.win 5).flush t = true ∧ i ∈ ((cfg1.win 5).blk t).view.set := by
  have hi0 : (i 0).val < 131072 := (i 0).isLt
  have hi1 : (i 1).val < 256 := (i 1).isLt
  refine ⟨pt1 (i 0), flush1_5 _, ?_⟩
  obtain ⟨e0, e1⟩ := idx1_5 (pt1 (i 0))
  have ev : (pt1 (i 0)).val = (i 0).val / 4096 := rfl
  show i ∈ ((View.whole main_v44).slice (win1_5.rect (pt1 (i 0)))).set
  rw [View.set_slice_whole, Rect.mem_set_unit]
  intro a
  match a with
  | ⟨0, _⟩ => show win1_5.index (pt1 (i 0)) 0 * 4096 ≤ (i 0).val ∧ (i 0).val < win1_5.index (pt1 (i 0)) 0 * 4096 + 4096; rw [e0, ev]; omega
  | ⟨1, _⟩ => show win1_5.index (pt1 (i 0)) 1 * 256 ≤ (i 1).val ∧ (i 1).val < win1_5.index (pt1 (i 0)) 1 * 256 + 256; rw [e1]; omega

theorem arr5_apply (c : Dev nD) (r : Fin 131072) (j : Fin 256) :
    ((dat1 V c).arrAt 5 cfg1.N : Vec F S131072x256 .f32) (ix2 r j)
      = k1_pay1 (iblk1 V c 0 (pt1 r)) (iblk1 V c 1 (pt1 r)) (iblk1 V c 2 (pt1 r)) (iblk1 V c 3 (pt1 r)) (iblk1 V c 4 (pt1 r))
          (ix2 (⟨r.val % 4096, Nat.mod_lt _ (by norm_num)⟩ : Fin 4096) j) := by
  have h := (dat1 V c).arrAt_eq_of_cover 5 (G5 V c) (flushed5_eq V c) cover5
  show (dat1 V c).arrAt 5 cfg1.N (ix2 r j) = _
  rw [h]
  rfl

end Cert.KernelIdeal.Val

end
-- ==== Proof.Cat5.lean ====
/-
  Five 128-wide pieces laid side by side along the column axis, read at a row and a column: the piece whose span of
  128 columns holds the column, at the column's offset inside that span.
-/
import proofs.«414974_j88794153877511_1_alg».proof.Proof.Spec
import Idealize.ShloMosaic.Lib.Pipeline.Value

noncomputable section

namespace Cert.Spec

open Idealize.ShloMosaic Idealize.ShloMosaic.ValueIdx

/-- Off the column axis (axis 1) only the row axis remains, and there the index into a piece and the index into the
    whole agree: both are the row. -/
private theorem row_agrees {n : Nat} (r : Fin n) (k : Fin 640) (q : Fin 128)
    (hr : (⟨2, ![n, 128]⟩ : Shape).rank = (⟨2, ![n, 640]⟩ : Shape).rank) :
    ∀ b : Fin (⟨2, ![n, 128]⟩ : Shape).rank, b.cast hr ≠ (1 : Fin (⟨2, ![n, 640]⟩ : Shape).rank) →
      ((ix2 r q : (⟨2, ![n, 128]⟩ : Shape).Idx) b).val = ((ix2 r k : (⟨2, ![n, 640]⟩ : Shape).Idx) (b.cast hr)).val := by
  intro b hb
  match b with
  | ⟨0, _⟩ => rfl
  | ⟨1, _⟩ => exact absurd rfl hb

/-- The five pieces as the list the concatenation takes. -/
private abbrev pieces {α : Type} {n : Nat} (x0 x1 x2 x3 x4 : (⟨2, ![n, 128]⟩ : Shape).Idx → α) :
    List ((s : Shape) × (s.Idx → α)) :=
  [⟨(⟨2, ![n, 128]⟩ : Shape), x0⟩, ⟨(⟨2, ![n, 128]⟩ : Shape), x1⟩, ⟨(⟨2, ![n, 128]⟩ : Shape), x2⟩,
    ⟨(⟨2, ![n, 128]⟩ : Shape), x3⟩, ⟨(⟨2, ![n, 128]⟩ : Shape), x4⟩]

theorem concat5_apply {α : Type} {n : Nat} (x0 x1 x2 x3 x4 : (⟨2, ![n, 128]⟩ : Shape).Idx → α)
    (h : Shape.Concatenates [(⟨2, ![n, 128]⟩ : Shape), ⟨2, ![n, 128]⟩, ⟨2, ![n, 128]⟩, ⟨2, ![n, 128]⟩, ⟨2, ![n, 128]⟩]
      ⟨2, ![n, 640]⟩ 1)
    (r : Fin n) (k : Fin 640) :
    concatenate (⟨2, ![n, 640]⟩ : Shape) 1
        [⟨(⟨2, ![n, 128]⟩ : Shape), x0⟩, ⟨(⟨2, ![n, 128]⟩ : Shape), x1⟩, ⟨(⟨2, ![n, 128]⟩ : Shape), x2⟩,
          ⟨(⟨2, ![n, 128]⟩ : Shape), x3⟩, ⟨(⟨2, ![n, 128]⟩ : Shape), x4⟩] h (ix2 r k)
      = cat5 (fun q => x0 (ix2 r q)) (fun q => x1 (ix2 r q)) (fun q => x2 (ix2 r q)) (fun q => x3 (ix2 r q))
          (fun q => x4 (ix2 r q)) k := by
  have hk := k.isLt
  unfold cat5
  split_ifs with h0 h1 h2 h3
  · -- columns 0 … 127: piece 0, nothing before it
    exact concatenate_apply_piece (t := ⟨2, ![n, 640]⟩) 1 (pieces x0 x1 x2 x3 x4) h (ix2 r k) 0 (show 0 < 5 by omega) ⟨2, ![n, 128]⟩ x0 rfl rfl 0 rfl
      (ix2 r ⟨k.val, h0⟩) (row_agrees r k _ rfl) (by show 0 + k.val = k.val; omega)
  · -- columns 128 … 255: piece 1, after 128 columns
    exact concatenate_apply_piece (t := ⟨2, ![n, 640]⟩) 1 (pieces x0 x1 x2 x3 x4) h (ix2 r k) 1 (show 1 < 5 by omega) ⟨2, ![n, 128]⟩ x1 rfl rfl 128 rfl
      (ix2 r ⟨k.val - 128, by omega⟩) (row_agrees r k _ rfl) (by show 128 + (k.val - 128) = k.val; omega)
  · -- columns 256 … 383: piece 2, after 256 columns
    exact concatenate_apply_piece (t := ⟨2, ![n, 640]⟩) 1 (pieces x0 x1 x2 x3 x4) h (ix2 r k) 2 (show 2 < 5 by omega) ⟨2, ![n, 128]⟩ x2 rfl rfl 256 rfl
      (ix2 r ⟨k.val - 256, by omega⟩) (row_agrees r k _ rfl) (by show 256 + (k.val - 256) = k.val; omega)
  · -- columns 384 … 511: piece 3, after 384 columns
    exact concatenate_apply_piece (t := ⟨2, ![n, 640]⟩) 1 (pieces x0 x1 x2 x3 x4) h (ix2 r k) 3 (show 3 < 5 by omega) ⟨2, ![n, 128]⟩ x3 rfl rfl 384 rfl
      (ix2 r ⟨k.val - 384, by omega⟩) (row_agrees r k _ rfl) (by show 384 + (k.val - 384) = k.val; omega)
  · -- columns 512 … 639: piece 4, after 512 columns
    exact concatenate_apply_piece (t := ⟨2, ![n, 640]⟩) 1 (pieces x0 x1 x2 x3 x4) h (ix2 r k) 4 (show 4 < 5 by omega) ⟨2, ![n, 128]⟩ x4 rfl rfl 512 rfl
      (ix2 r ⟨k.val - 512, by omega⟩) (row_agrees r k _ rfl) (by show 512 + (k.val - 512) = k.val; omega)

end Cert.Spec

end
-- ==== Proof.KPay.lean ====
/-
  The kernels' arithmetic read at an index, over the extended reals.

  The first kernel's block: a row's segment word, compared with every segment number 0 … 4095, gives a row of zeros and
  ones; its product with a 4096 × 128 table is therefore the table row the word names (every other term is zero times an
  entry); the row's five 128-wide pieces side by side meet the 640 × 256 weights in a sum of 640 products, and the bias
  is added. The two running totals receive a sum over the block's 512 rows. The second kernel subtracts a row vector,
  scales twice, shifts and clips at zero, entry by entry.
-/
import proofs.«414974_j88794153877511_1_alg».proof.Proof.Gen.KernelIdeal.Skeleton
import proofs.«414974_j88794153877511_1_alg».proof.Proof.Spec
import proofs.«414974_j88794153877511_1_alg».proof.Proof.Cat5
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Val

open Idealize.ShloMosaic Idealize.ShloMosaic.ValueIdx
open Cert.KernelIdeal Cert.KernelIdeal.Gen

/-! ### The products read at an index -/

theorem lhs_4096_0 (j : S512x128.Idx) (k : dot_S512x4096_S4096x128_S512x128_1_0_0_1_n_n.contr.Idx) :
    (dot_S512x4096_S4096x128_S512x128_1_0_0_1_n_n.lhsIdx j k 0).val = (j 0).val := by
  simp [DotDims.lhsIdx, dot_S512x4096_S4096x128_S512x128_1_0_0_1_n_n]; rfl

theorem lhs_4096_1 (j : S512x128.Idx) (k : dot_S512x4096_S4096x128_S512x128_1_0_0_1_n_n.contr.Idx) :
    (dot_S512x4096_S4096x128_S512x128_1_0_0_1_n_n.lhsIdx j k 1).val = (k ⟨0, Nat.one_pos⟩).val :=
  DotDims.lhsIdx_val_of_single (d := dot_S512x4096_S4096x128_S512x128_1_0_0_1_n_n) (cl := 1) rfl j k

theorem rhs_4096_0 (j : S512x128.Idx) (k : dot_S512x4096_S4096x128_S512x128_1_0_0_1_n_n.contr.Idx) :
    (dot_S512x4096_S4096x128_S512x128_1_0_0_1_n_n.rhsIdx j k 0).val = (k ⟨0, Nat.one_pos⟩).val :=
  DotDims.rhsIdx_val_of_single (d := dot_S512x4096_S4096x128_S512x128_1_0_0_1_n_n) (cr := 0) rfl j k

theorem rhs_4096_1 (j : S512x128.Idx) (k : dot_S512x4096_S4096x128_S512x128_1_0_0_1_n_n.contr.Idx) :
    (dot_S512x4096_S4096x128_S512x128_1_0_0_1_n_n.rhsIdx j k 1).val = (j 1).val := by
  simp [DotDims.rhsIdx, dot_S512x4096_S4096x128_S512x128_1_0_0_1_n_n]; rfl

/-- A 512 × 4096 matrix times a 4096 × 128 table, into zero, at (p, q): the sum over the 4096 of the products. -/
theorem matmul4096_apply (lhs : FVec Ideal S512x4096 .bf16) (rhs : FVec Ideal S4096x128 .bf16) (p : Fin 512) (q : Fin 128) :
    matmul dot_S512x4096_S4096x128_S512x128_1_0_0_1_n_n none lhs rhs (constant (F := Ideal) S512x128 .f32 0x00000000#32)
        (ix2 p q)
      = ∑ s : Fin 4096, lhs (ix2 p s) * rhs (ix2 s q) := by
  rw [show matmul dot_S512x4096_S4096x128_S512x128_1_0_0_1_n_n none lhs rhs
        (constant (F := Ideal) S512x128 .f32 0x00000000#32) (ix2 p q) = _ from
      Ideal.matmul_constant_zero_apply dot_S512x4096_S4096x128_S512x128_1_0_0_1_n_n none lhs rhs (ix2 p q),
    ← Equiv.sum_comp (contrEquiv1 dot_S512x4096_S4096x128_S512x128_1_0_0_1_n_n 4096 rfl rfl).symm]
  refine Finset.sum_congr rfl fun s _ => ?_
  have hk := contrEquiv1_symm_val dot_S512x4096_S4096x128_S512x128_1_0_0_1_n_n 4096 rfl rfl s
  congr 2
  · exact Shape.idx_ext₂ (lhs_4096_0 _ _) ((lhs_4096_1 _ _).trans hk)
  · exact Shape.idx_ext₂ ((rhs_4096_0 _ _).trans hk) (rhs_4096_1 _ _)

theorem lhs_640_0 (j : S512x256.Idx) (k : dot_S512x640_S640x256_S512x256_1_0_0_1_n_n.contr.Idx) :
    (dot_S512x640_S640x256_S512x256_1_0_0_1_n_n.lhsIdx j k 0).val = (j 0).val := by
  simp [DotDims.lhsIdx, dot_S512x640_S640x256_S512x256_1_0_0_1_n_n]; rfl

theorem lhs_640_1 (j : S512x256.Idx) (k : dot_S512x640_S640x256_S512x256_1_0_0_1_n_n.contr.Idx) :
    (dot_S512x640_S640x256_S512x256_1_0_0_1_n_n.lhsIdx j k 1).val = (k ⟨0, Nat.one_pos⟩).val :=
  DotDims.lhsIdx_val_of_single (d := dot_S512x640_S640x256_S512x256_1_0_0_1_n_n) (cl := 1) rfl j k

theorem rhs_640_0 (j : S512x256.Idx) (k : dot_S512x640_S640x256_S512x256_1_0_0_1_n_n.contr.Idx) :
    (dot_S512x640_S640x256_S512x256_1_0_0_1_n_n.rhsIdx j k 0).val = (k ⟨0, Nat.one_pos⟩).val :=
  DotDims.rhsIdx_val_of_single (d := dot_S512x640_S640x256_S512x256_1_0_0_1_n_n) (cr := 0) rfl j k

theorem rhs_640_1 (j : S512x256.Idx) (k : dot_S512x640_S640x256_S512x256_1_0_0_1_n_n.contr.Idx) :
    (dot_S512x640_S640x256_S512x256_1_0_0_1_n_n.rhsIdx j k 1).val = (j 1).val := by
  simp [DotDims.rhsIdx, dot_S512x640_S640x256_S512x256_1_0_0_1_n_n]; rfl

/-- A 512 × 640 matrix times the 640 × 256 weights, into zero, at (p, j): the sum over the 640 of the products. -/
theorem matmul640_apply (lhs : FVec Ideal S512x640 .bf16) (rhs : FVec Ideal S640x256 .bf16) (p : Fin 512) (q : Fin 256) :
    matmul dot_S512x640_S640x256_S512x256_1_0_0_1_n_n none lhs rhs (constant (F := Ideal) S512x256 .f32 0x00000000#32)
        (ix2 p q)
      = ∑ s : Fin 640, lhs (ix2 p s) * rhs (ix2 s q) := by
  rw [show matmul dot_S512x640_S640x256_S512x256_1_0_0_1_n_n none lhs rhs
        (constant (F := Ideal) S512x256 .f32 0x00000000#32) (ix2 p q) = _ from
      Ideal.matmul_constant_zero_apply dot_S512x640_S640x256_S512x256_1_0_0_1_n_n none lhs rhs (ix2 p q),
    ← Equiv.sum_comp (contrEquiv1 dot_S512x640_S640x256_S512x256_1_0_0_1_n_n 640 rfl rfl).symm]
  refine Finset.sum_congr rfl fun s _ => ?_
  have hk := contrEquiv1_symm_val dot_S512x640_S640x256_S512x256_1_0_0_1_n_n 640 rfl rfl s
  congr 2
  · exact Shape.idx_ext₂ (lhs_640_0 _ _) ((lhs_640_1 _ _).trans hk)
  · exact Shape.idx_ext₂ ((rhs_640_0 _ _).trans hk) (rhs_640_1 _ _)

/-! ### A row of zeros and ones picks one table row -/

/-- A one-column array copied across the columns reads, at (p, c), its entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison bit of two words, widened and read signed, is one when they are equal and zero otherwise. -/
theorem bit_toInt (a b : BitVec 32) : ((IntOp.cmpi .eq a b).setWidth 32).toInt = if a = b then 1 else 0 := by
  by_cases h : a = b
  · subst h; simp [IntOp.cmpi]
  · have hb : (a == b) = false := by simpa using h
    rw [if_neg h]
    simp [IntOp.cmpi, hb]

/-- A word that reads signed as a segment number is the word of segment number s exactly when s is that number. -/
theorem word_eq_iff (a : BitVec 32) (sA s : Fin 4096) (hA : a.toInt = (sA.val : Int)) :
    a = BitVec.ofNat 32 s.val ↔ s = sA := by
  have e := BitVec.toInt_eq_toNat_cond a
  have ha := a.isLt
  have hsA := sA.isLt
  have hs := s.isLt
  have hn : a.toNat = sA.val := by omega
  constructor
  · intro h
    apply Fin.ext
    have h2 := congrArg BitVec.toNat h
    rw [BitVec.toNat_ofNat, Nat.mod_eq_of_lt (by omega)] at h2
    omega
  · rintro rfl
    apply BitVec.eq_of_toNat_eq
    rw [BitVec.toNat_ofNat, Nat.mod_eq_of_lt (by omega)]
    exact hn

/-- The row of zeros and ones that a segment word makes against the numbers 0 … 4095, times a table column, sums to the
    table's entry in the row the word names: every other term is zero times an entry. -/
theorem onehot_sum (a : BitVec 32) (sA : Fin 4096) (hA : a.toInt = (sA.val : Int)) (T : Fin 4096 → EReal) :
    ∑ s : Fin 4096, ((((IntOp.cmpi .eq a (BitVec.ofNat 32 s.val)).setWidth 32).toInt : ℝ) : EReal) * T s = T sA := by
  rw [Finset.sum_eq_single sA]
  · rw [bit_toInt, if_pos ((word_eq_iff a sA sA hA).mpr rfl), Int.cast_one, EReal.coe_one, one_mul]
  · intro s _ hs
    rw [bit_toInt, if_neg (fun h => hs ((word_eq_iff a sA s hA).mp h)), Int.cast_zero, EReal.coe_zero, zero_mul]
  · intro h; exact absurd (Finset.mem_univ _) h

/-- The row of zeros and ones at (p, s): the comparison bit of row p's word with the word of s, as a real. -/
theorem onehot_apply (x : IVec S512x1 32) (p : Fin 512) (s : Fin 4096) :
    (truncf .bf16 (sitofp (F := Ideal) .f32 (extui 32 (cmpi .eq (broadcastTo S512x4096 x broadcasts_S512x1_S512x4096)
        (iota .tc S512x4096 32 [1] iota_S512x4096_d1_w32)) natLt_1_32)) bitsLt_bf16_f32 : FVec Ideal S512x4096 .bf16) (ix2 p s)
      = ((((IntOp.cmpi .eq (x (ix2 p (0 : Fin 1))) (BitVec.ofNat 32 s.val)).setWidth 32).toInt : ℝ) : EReal) := by
  rw [truncf_apply, sitofp_apply, extui_apply]
  show ((((IntOp.cmpi .eq (broadcastTo S512x4096 x broadcasts_S512x1_S512x4096 (ix2 p s))
      (iota .tc S512x4096 32 [1] iota_S512x4096_d1_w32 (ix2 p s))).setWidth 32).toInt : ℝ) : EReal) = _
  rw [broadcastTo_a1_ab_apply, iota_single_apply]

/-- The row of zeros and ones of a block's segment words, times a 4096 × 128 table, at (p, q): the table's entry in
    the row that row p's word names. -/
theorem gathered_row (x : Vec Ideal S512x1 .i32) (t : FVec Ideal S4096x128 .bf16) (p : Fin 512) (q : Fin 128) (sX : Fin 4096)
    (hX : (x (ix2 p (0 : Fin 1))).toInt = (sX.val : Int)) :
    matmul dot_S512x4096_S4096x128_S512x128_1_0_0_1_n_n none
        (truncf .bf16 (sitofp .f32 (extui 32 (cmpi .eq
          (broadcastTo S512x4096 (shapeCast S512x1 x shapeCasts_S512x1_S512x1) broadcasts_S512x1_S512x4096)
          (iota .tc S512x4096 32 [1] iota_S512x4096_d1_w32)) natLt_1_32)) bitsLt_bf16_f32)
        (shapeCast S4096x128 t shapeCasts_S4096x128_S4096x128) (constant (F := Ideal) S512x128 .f32 0x00000000#32) (ix2 p q)
      = t (ix2 sX q) := by
  rw [matmul4096_apply]
  refine (Finset.sum_congr rfl fun s _ => ?_).trans (onehot_sum _ sX hX fun s => t (ix2 s q))
  rw [onehot_apply, shapeCast_self, shapeCast_self]

/-! ### The payloads -/

/-- The block of the linear layer's output at row `p`, column `j`, when the row's two segment words name segments
    `sA` and `sE`. -/
theorem pay5_apply (x1 x2 : Vec Ideal S512x1 .i32) (tA tE : Vec Ideal S4096x128 .bf16) (x0 : Vec Ideal S512x384 .f32)
    (w : Vec Ideal S640x256 .bf16) (bb : Vec Ideal S1x256 .f32) (p : Fin 512) (j : Fin 256) (sA sE : Fin 4096)
    (hA : (x1 (ix2 p (0 : Fin 1))).toInt = (sA.val : Int)) (hE : (x2 (ix2 p (0 : Fin 1))).toInt = (sE.val : Int)) :
    k0_pay5 (F := Ideal) x1 x2 tA tE x0 w bb (ix2 p j)
      = (∑ k : Fin 640,
          Cert.Spec.cat5 (fun q : Fin 128 => x0 (ix2 p ⟨0 + q.val, by have := q.isLt; omega⟩)) (fun q => tA (ix2 sA q))
            (fun q : Fin 128 => x0 (ix2 p ⟨128 + q.val, by have := q.isLt; omega⟩)) (fun q => tE (ix2 sE q))
            (fun q : Fin 128 => x0 (ix2 p ⟨256 + q.val, by have := q.isLt; omega⟩)) k * w (ix2 k j))
        + bb (ix2 (0 : Fin 1) j) := by
  unfold k0_pay5
  simp only [shapeCast_self]
  rw [addf_apply, broadcastTo_1b_ab_apply, matmul640_apply]
  refine congrArg (· + bb (ix2 (0 : Fin 1) j)) (Finset.sum_congr rfl fun k _ => ?_)
  rw [truncf_apply, Cert.Spec.concat5_apply]
  simp only [slice2_axis1_eq, gathered_row x1 tA p _ sA hA, gathered_row x2 tE p _ sE hE]

/-- The index a sum down the rows inserts its row number into is the (row, column) pair. -/
theorem lift_rows (j : Fin 256) (k : Fin 512) : reduces_S512x256_S256.lift (ix1 j) k = ix2 k j :=
  Shape.idx_ext₂ rfl rfl

/-- The first running total after a block: what was there plus the block's column sum. -/
theorem pay1_apply (v36 : Vec Ideal S512x256 .f32) (v38 : Vec Ideal S1x256 .f32) (j : Fin 256) :
    k0_pay1 (F := Ideal) v36 v38 (ix2 (0 : Fin 1) j) = v38 (ix2 (0 : Fin 1) j) + ∑ p : Fin 512, v36 (ix2 p j) := by
  unfold k0_pay1
  rw [addf_apply, shapeCast_self, shapeCast_a_1a_apply,
    Ideal.multiReduction_add_single (s := S512x256) (t := S256) (a := 0) v36 0x00000000#32 reduces_S512x256_S256
      (.inl rfl) rfl (ix1 j)]
  exact congrArg (v38 (ix2 (0 : Fin 1) j) + ·) (Finset.sum_congr rfl fun k _ => congrArg v36 (lift_rows j k))

/-- The second running total after a block: what was there plus the column sum of the block's squares. -/
theorem pay2_apply (v36 : Vec Ideal S512x256 .f32) (v44 : Vec Ideal S1x256 .f32) (j : Fin 256) :
    k0_pay2 (F := Ideal) v36 v44 (ix2 (0 : Fin 1) j)
      = v44 (ix2 (0 : Fin 1) j) + ∑ p : Fin 512, v36 (ix2 p j) * v36 (ix2 p j) := by
  unfold k0_pay2
  rw [addf_apply, shapeCast_self, shapeCast_a_1a_apply,
    Ideal.multiReduction_add_single (s := S512x256) (t := S256) (a := 0) (mulf v36 v36) 0x00000000#32
      reduces_S512x256_S256 (.inl rfl) rfl (ix1 j)]
  refine congrArg (v44 (ix2 (0 : Fin 1) j) + ·) (Finset.sum_congr rfl fun k _ => ?_)
  rw [lift_rows j k, mulf_apply]

/-- The two reset rows are zero. -/
theorem pay3_apply (i : S1x256.Idx) : k0_pay3 (F := Ideal) i = 0 := by
  unfold k0_pay3
  exact Ideal.ofBits_zero_f32

theorem pay4_apply (i : S1x256.Idx) : k0_pay4 (F := Ideal) i = 0 := by
  unfold k0_pay4
  exact Ideal.ofBits_zero_f32

/-- The second kernel's block at row `p`, column `j`. -/
theorem k1_pay1_apply (v0 : Vec Ideal S4096x256 .f32) (v2 v6 v10 v14 : Vec Ideal S1x256 .f32) (p : Fin 4096) (j : Fin 256) :
    k1_pay1 (F := Ideal) v0 v2 v6 v10 v14 (ix2 p j)
      = max ((v0 (ix2 p j) - v2 (ix2 (0 : Fin 1) j)) * v6 (ix2 (0 : Fin 1) j) * v10 (ix2 (0 : Fin 1) j)
          + v14 (ix2 (0 : Fin 1) j)) 0 := by
  unfold k1_pay1
  rw [maximumf_apply, addf_apply, mulf_apply, mulf_apply, subf_apply, broadcast_apply]
  simp only [shapeCast_self, broadcastTo_1b_ab_apply]
  exact congrArg (max _) Ideal.ofBits_zero_f32

end Cert.KernelIdeal.Val

end
-- ==== Proof.LibAfter.lean ====
/-
  Two small general facts about the contents after a list of host operations. The contents after two lists in a row are
  the second list's contents from the first's. And each operation leaves, at its own result buffer, its function of its
  operands' contents, and at every other buffer what was there — which holds equally for a buffer read inside the operand
  list of a concatenation.
-/
import Idealize.ShloMosaic.Lib.StableHlo.Run

namespace Cert.LibAfter

open Idealize.ShloMosaic Idealize.ShloMosaic.StableHlo

/-- The contents after two lists of operations run one after the other. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter

/-- Each operation's result at its own buffer is its function of the operands' contents; at any other buffer the contents
    are unchanged. Applied operation by operation until no fold is left. -/
macro "after_results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.quaternary_result] | rw [Idealize.ShloMosaic.StableHlo.reshape_result]
      | rw [Idealize.ShloMosaic.StableHlo.nary_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.KHost.lean ====
/-
  What the host operations around the two kernels leave in the buffers the kernels read, over the extended reals.

  Before the first kernel: the features as launched; the two segment-word vectors as one-column matrices; for the atom and
  the element column group the pooled table — the group's segment sums times one over the larger of the segment's count
  and one, which is the sum divided by it; the weights (a change of float format is the identity); the bias as a row.
  Between the kernels: the first kernel's block array untouched; the column mean, the column total over 131072; the
  reciprocal root of (the total of squares over 131072, less the square of the mean, plus the small constant); the scale
  and the shift as rows.
-/
import proofs.«414974_j88794153877511_1_alg».proof.Proof.Gen.KernelIdeal.Frame
import proofs.«414974_j88794153877511_1_alg».proof.Proof.Spec
import proofs.«414974_j88794153877511_1_alg».proof.Proof.Math
import proofs.«414974_j88794153877511_1_alg».proof.Proof.LibAfter
import proofs.«414974_j88794153877511_1_alg».proof.Proof.LibGatherScatter
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

open scoped BigOperators

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- A buffer that no operation of a list writes holds after the list what it held before it: every operation's result
    buffer is a different one. -/
macro "khost_not_written" : tactic =>
  `(tactic| (refine StableHlo.after_of_forall_not_mem _ _ (List.forall_iff_forall_mem.mp ?_) <;>
      simp only [hostOps0, hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton] <;>
      (repeat' apply And.intro) <;>
      exact StableHlo.devRef_ne_of_ne (by decide)))

/-- The host's quotient and reciprocal root read at an index. -/
theorem hostDivf_apply {s : Shape} {φ : FTy} (a b : FVec Ideal s φ) (i : s.Idx) :
    Host.divf a b i = Ideal.div (a i) (b i) := rfl
theorem hostRsqrt_apply {s : Shape} {φ : FTy} (a : FVec Ideal s φ) (i : s.Idx) :
    Host.rsqrt a i = Ideal.rsqrt (a i) := rfl

/-! ## Before the first kernel -/

theorem V1_x (c : Dev nD) :
    (V1 m ρ c main_arg0 : Vec Ideal S131072x384 .f32) = m ((c : Thread nD τ).loc main_arg0) := by
  show StableHlo.after hostOps0 (W0 m ρ c) (Proc.devRef .tc main_arg0) = W0 m ρ c (Proc.devRef .tc main_arg0)
  khost_not_written

/-- A vector cast to a one-column matrix reads, at row e, the vector at e. -/
theorem cast_col {α : Type} {n : Nat} (x : (⟨1, ![n]⟩ : Shape).Idx → α) (h : (⟨1, ![n]⟩ : Shape).ShapeCasts ⟨2, ![n, 1]⟩)
    (e : Fin n) (u : Fin 1) : shapeCast ⟨2, ![n, 1]⟩ x h (ix2 e u) = x (ix1 e) :=
  shapeCast_apply x h _ _ (by
    have hu : u.val = 0 := by omega
    rw [Shape.rowMajor_val_two, Shape.rowMajor_val_one]
    show e.val = e.val * 1 + u.val
    rw [hu, Nat.mul_one, Nat.add_zero])

theorem V1_a (c : Dev nD) (e : Fin 131072) :
    (V1 m ρ c main_v24 : Vec Ideal S131072x1 .i32) (ix2 e (0 : Fin 1))
      = (m ((c : Thread nD τ).loc main_arg1) : Vec Ideal S131072 .i32) (ix1 e) := by
  show (StableHlo.after hostOps0 (W0 m ρ c) (Proc.devRef .tc main_v24) : Vec Ideal S131072x1 .i32) (ix2 e (0 : Fin 1)) = _
  after_results
  exact cast_col _ _ e 0

theorem V1_e (c : Dev nD) (e : Fin 131072) :
    (V1 m ρ c main_v25 : Vec Ideal S131072x1 .i32) (ix2 e (0 : Fin 1))
      = (m ((c : Thread nD τ).loc main_arg2) : Vec Ideal S131072 .i32) (ix1 e) := by
  show (StableHlo.after hostOps0 (W0 m ρ c) (Proc.devRef .tc main_v25) : Vec Ideal S131072x1 .i32) (ix2 e (0 : Fin 1)) = _
  after_results
  exact cast_col _ _ e 0

open Idealize.ShloMosaic.StableHlo.Predicate in
/-- Row e of the segment words laid as a one-column matrix names segment s exactly when the word itself does. -/
theorem lands_iff (hc : S131072.BroadcastsInDim S131072x1 ![0]) (ai : IVec S131072 32) (e : Fin 131072) (s : Nat) :
    RowOps.lands (broadcastInDim S131072x1 ![0] hc ai) e s ↔ Cert.Spec.names ai e s := by
  unfold RowOps.lands Cert.Spec.names
  rw [bcast_col1, RowOps.ofFin_eq_ix1]

open Idealize.ShloMosaic.StableHlo.Predicate in
/-- Scattering the rows of a 128-column group onto a zero table by the segment words leaves the segment sums. -/
theorem segsum_eq (hb : S_.BroadcastsInDim S4096x128 ![]) (hc : S131072.BroadcastsInDim S131072x1 ![0])
    (off : Nat) (hoff : off + 128 ≤ 384) (hs : S131072x384.Slices ![0, off] S131072x128)
    (X : FVec Ideal S131072x384 .f32) (ai : IVec S131072 32) (s : Fin 4096) (q : Fin 128) :
    (Host.scatterAdd (F := Ideal) scatter_S4096x128_S131072x1_S131072x128_1_0_0_1
        (broadcastInDim S4096x128 ![] hb (constant (F := Ideal) S_ .f32 0x00000000#32))
        (broadcastInDim S131072x1 ![0] hc ai)
        (extractStridedSlice S131072x128 ![0, off] X hs)) (ix2 s q)
      = Cert.Spec.seg (Cert.Spec.cols X off hoff) ai s q := by
  show Ideal.hostScatterAdd _ _ _ _ (ix2 s q) = _
  rw [RowOps.scatterAdd_rows _ rfl rfl rfl rfl]
  rw [bcast_scalar hb (by decide), constant_apply, Ideal.ofBits_zero_f32, zero_add]
  unfold Cert.Spec.seg
  refine Finset.sum_congr (Finset.filter_congr fun e _ => lands_iff hc ai e s.val) fun e _ => ?_
  exact slice2_axis1_apply off X hs e q _ rfl

open Idealize.ShloMosaic.StableHlo.Predicate in
/-- Scattering ones onto a zero vector by the segment words leaves each segment's row count. -/
theorem count_eq (hb : S_.BroadcastsInDim S4096 ![]) (hc : S131072.BroadcastsInDim S131072x1 ![0])
    (h1 : S_.BroadcastsInDim S131072 ![]) (ai : IVec S131072 32) (s : Fin 4096) :
    (Host.scatterAdd (F := Ideal) scatter_S4096_S131072x1_S131072_n_0_0_1
        (broadcastInDim S4096 ![] hb (constant (F := Ideal) S_ .f32 0x00000000#32))
        (broadcastInDim S131072x1 ![0] hc ai)
        (broadcastInDim S131072 ![] h1 (constant (F := Ideal) S_ .f32 0x3F800000#32))) (ix1 s)
      = Cert.Spec.cnt ai s := by
  show Ideal.hostScatterAdd _ _ _ _ (ix1 s) = _
  rw [RowOps.scatterAdd_row1 _ rfl rfl rfl rfl]
  rw [bcast_scalar hb (by decide), constant_apply, Ideal.ofBits_zero_f32, zero_add]
  unfold Cert.Spec.cnt
  refine Finset.sum_congr (Finset.filter_congr fun e _ => lands_iff hc ai e s.val) fun e _ => ?_
  rw [bcast_scalar h1 (by decide), constant_apply]
  rfl

open Idealize.ShloMosaic.StableHlo.Predicate in
/-- The pooled table as the host computes it: the segment sums times one over the larger of the count and one. -/
theorem pooled_read (hb2 : S_.BroadcastsInDim S4096x128 ![]) (hc : S131072.BroadcastsInDim S131072x1 ![0])
    (off : Nat) (hoff : off + 128 ≤ 384) (hs : S131072x384.Slices ![0, off] S131072x128)
    (hr2 : S4096x1.BroadcastsInDim S4096x128 ![0, 1]) (hr1 : S4096.BroadcastsInDim S4096x1 ![0])
    (hb1 : S_.BroadcastsInDim S4096 ![]) (h1 : S_.BroadcastsInDim S131072 ![]) (ht : FTy.bf16.bits < FTy.f32.bits)
    (X : FVec Ideal S131072x384 .f32) (ai : IVec S131072 32) (s : Fin 4096) (q : Fin 128) :
    (truncf .bf16
      (mulf
        (Host.scatterAdd (F := Ideal) scatter_S4096x128_S131072x1_S131072x128_1_0_0_1
          (broadcastInDim S4096x128 ![] hb2 (constant (F := Ideal) S_ .f32 0x00000000#32))
          (broadcastInDim S131072x1 ![0] hc ai)
          (extractStridedSlice S131072x128 ![0, off] X hs))
        (broadcastInDim S4096x128 ![0, 1] hr2
          (broadcastInDim S4096x1 ![0] hr1
            (Host.divf (broadcastInDim S4096 ![] hb1 (constant (F := Ideal) S_ .f32 0x3F800000#32))
              (maximumf
                (Host.scatterAdd (F := Ideal) scatter_S4096_S131072x1_S131072_n_0_0_1
                  (broadcastInDim S4096 ![] hb1 (constant (F := Ideal) S_ .f32 0x00000000#32))
                  (broadcastInDim S131072x1 ![0] hc ai)
                  (broadcastInDim S131072 ![] h1 (constant (F := Ideal) S_ .f32 0x3F800000#32)))
                (broadcastInDim S4096 ![] hb1 (constant (F := Ideal) S_ .f32 0x3F800000#32)))))))
      ht : FVec Ideal S4096x128 .bf16) (ix2 s q)
      = Cert.Spec.pooled (Cert.Spec.cols X off hoff) ai s q := by
  rw [truncf_apply, mulf_apply, segsum_eq hb2 hc off hoff hs]
  have hB : ∀ v : FVec Ideal S4096 .f32,
      broadcastInDim S4096x128 ![0, 1] hr2 (broadcastInDim S4096x1 ![0] hr1 v) (ix2 s q) = v (ix1 s) := fun v => by
    have h := bcast_rows hr1 hr2 v s q
    rw [RowOps.ofFin_eq_ix1] at h
    exact h
  rw [hB]
  rw [hostDivf_apply, maximumf_apply, count_eq hb1 hc h1, bcast_scalar hb1 (by decide), constant_apply]
  exact Cert.Spec.pooled_eq_mul _ ai s q

theorem V1_tA (c : Dev nD) (s : Fin 4096) (q : Fin 128) :
    (V1 m ρ c main_v19 : Vec Ideal S4096x128 .bf16) (ix2 s q)
      = Cert.Spec.pooled (Cert.Spec.cols (m ((c : Thread nD τ).loc main_arg0)) 0 (by omega))
          (m ((c : Thread nD τ).loc main_arg1)) s q := by
  show (StableHlo.after hostOps0 (W0 m ρ c) (Proc.devRef .tc main_v19) : Vec Ideal S4096x128 .bf16) (ix2 s q) = _
  after_results
  exact pooled_read _ _ 0 (by omega) _ _ _ _ _ _ _ _ s q

theorem V1_tE (c : Dev nD) (s : Fin 4096) (q : Fin 128) :
    (V1 m ρ c main_v23 : Vec Ideal S4096x128 .bf16) (ix2 s q)
      = Cert.Spec.pooled (Cert.Spec.cols (m ((c : Thread nD τ).loc main_arg0)) 128 (by omega))
          (m ((c : Thread nD τ).loc main_arg1)) s q := by
  show (StableHlo.after hostOps0 (W0 m ρ c) (Proc.devRef .tc main_v23) : Vec Ideal S4096x128 .bf16) (ix2 s q) = _
  after_results
  exact pooled_read _ _ 128 (by omega) _ _ _ _ _ _ _ _ s q

theorem V1_w (c : Dev nD) (k : Fin 640) (j : Fin 256) :
    (V1 m ρ c main_v26 : Vec Ideal S640x256 .bf16) (ix2 k j)
      = (m ((c : Thread nD τ).loc main_arg3) : Vec Ideal S640x256 .f32) (ix2 k j) := by
  show (StableHlo.after hostOps0 (W0 m ρ c) (Proc.devRef .tc main_v26) : Vec Ideal S640x256 .bf16) (ix2 k j) = _
  after_results
  rfl

theorem V1_b (c : Dev nD) (j : Fin 256) :
    (V1 m ρ c main_v27 : Vec Ideal S1x256 .f32) (ix2 (0 : Fin 1) j)
      = (m ((c : Thread nD τ).loc main_arg4) : Vec Ideal S256 .f32) (ix1 j) := by
  show (StableHlo.after hostOps0 (W0 m ρ c) (Proc.devRef .tc main_v27) : Vec Ideal S1x256 .f32) (ix2 (0 : Fin 1) j) = _
  after_results
  exact shapeCast_a_1a_apply _ _ 0 j

/-! ## Between the kernels -/

open Idealize.ShloMosaic.StableHlo.Predicate in
/-- A row of totals, each over 131072. -/
theorem over_nrows (T : FVec Ideal S1x256 .f32) (h1 : S1x256.ShapeCasts S256) (hb : S_.BroadcastsInDim S256 ![])
    (j : Fin 256) :
    (Host.divf (F := Ideal) (shapeCast S256 T h1)
        (broadcastInDim S256 ![] hb (constant (F := Ideal) S_ .f32 0x48000000#32))) (ix1 j)
      = Ideal.div (T (ix2 (0 : Fin 1) j)) Cert.Spec.nrows := by
  show Ideal.div (shapeCast S256 T h1 (ix1 j)) (broadcastInDim S256 ![] hb (constant (F := Ideal) S_ .f32 0x48000000#32) (ix1 j)) = _
  rw [shapeCast_1a_a_apply, bcast_scalar hb (by decide), constant_apply]
  rfl

open Idealize.ShloMosaic.StableHlo.Predicate in
/-- The reciprocal root of the total of squares over 131072, less the square of the total over 131072, plus the small
    constant. -/
theorem inv_read (T1 T2 : FVec Ideal S1x256 .f32) (h1 : S1x256.ShapeCasts S256) (hb : S_.BroadcastsInDim S256 ![])
    (j : Fin 256) :
    (Host.rsqrt (F := Ideal)
      (addf
        (subf
          (Host.divf (shapeCast S256 T2 h1) (broadcastInDim S256 ![] hb (constant (F := Ideal) S_ .f32 0x48000000#32)))
          (mulf
            (Host.divf (shapeCast S256 T1 h1) (broadcastInDim S256 ![] hb (constant (F := Ideal) S_ .f32 0x48000000#32)))
            (Host.divf (shapeCast S256 T1 h1) (broadcastInDim S256 ![] hb (constant (F := Ideal) S_ .f32 0x48000000#32)))))
        (broadcastInDim S256 ![] hb (constant (F := Ideal) S_ .f32 0x3727C5AC#32)))) (ix1 j)
      = Ideal.rsqrt
          (Ideal.div (T2 (ix2 (0 : Fin 1) j)) Cert.Spec.nrows
              - Ideal.div (T1 (ix2 (0 : Fin 1) j)) Cert.Spec.nrows * Ideal.div (T1 (ix2 (0 : Fin 1) j)) Cert.Spec.nrows
            + Cert.Spec.eps) := by
  rw [hostRsqrt_apply, addf_apply, subf_apply, mulf_apply, over_nrows, over_nrows, bcast_scalar hb (by decide),
    constant_apply]
  rfl

/-- The scale and the shift are written by nothing before the second kernel: they are as launched. -/
theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = W0 m ρ c (Proc.devRef .tc main_arg5)
  khost_not_written

theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = W0 m ρ c (Proc.devRef .tc main_arg6)
  khost_not_written

/-- The first kernel's two total arrays. -/
abbrev tot1 (c : Dev nD) : Vec Ideal S1x256 .f32 := (dat0 (V1 m ρ) c).arrAt 8 cfg0.N
abbrev tot2 (c : Dev nD) : Vec Ideal S1x256 .f32 := (dat0 (V1 m ρ) c).arrAt 9 cfg0.N

theorem V3_h (c : Dev nD) :
    (V3 m ρ c main_v28_0 : Vec Ideal S131072x256 .f32) = (dat0 (V1 m ρ) c).arrAt 7 cfg0.N := by
  refine Eq.trans ?_ (W2_arr m ρ c 7)
  show StableHlo.after hostOps1 (W2 m ρ c) (Proc.devRef .tc main_v28_0) = W2 m ρ c (Proc.devRef .tc main_v28_0)
  khost_not_written

theorem V3_mean (c : Dev nD) (j : Fin 256) :
    (V3 m ρ c main_v40 : Vec Ideal S1x256 .f32) (ix2 (0 : Fin 1) j)
      = Ideal.div (tot1 m ρ c (ix2 (0 : Fin 1) j)) Cert.Spec.nrows := by
  show (StableHlo.after hostOps1 (W2 m ρ c) (Proc.devRef .tc main_v40) : Vec Ideal S1x256 .f32) (ix2 (0 : Fin 1) j) = _
  after_results
  refine (shapeCast_a_1a_apply _ _ 0 j).trans ?_
  refine (over_nrows _ _ _ j).trans ?_
  rw [show W2 m ρ c (Proc.devRef .tc main_v28_1) = _ from W2_arr m ρ c 8]

open Idealize.ShloMosaic.StableHlo.Predicate in
theorem V3_inv (c : Dev nD) (j : Fin 256) :
    (V3 m ρ c main_v41 : Vec Ideal S1x256 .f32) (ix2 (0 : Fin 1) j)
      = Ideal.rsqrt
          (Ideal.div (tot2 m ρ c (ix2 (0 : Fin 1) j)) Cert.Spec.nrows
              - Ideal.div (tot1 m ρ c (ix2 (0 : Fin 1) j)) Cert.Spec.nrows
                * Ideal.div (tot1 m ρ c (ix2 (0 : Fin 1) j)) Cert.Spec.nrows
            + Cert.Spec.eps) := by
  show (StableHlo.after hostOps1 (W2 m ρ c) (Proc.devRef .tc main_v41) : Vec Ideal S1x256 .f32) (ix2 (0 : Fin 1) j) = _
  after_results
  refine (shapeCast_a_1a_apply _ _ 0 j).trans ?_
  refine (inv_read _ _ _ _ j).trans ?_
  rw [show W2 m ρ c (Proc.devRef .tc main_v28_1) = _ from W2_arr m ρ c 8,
    show W2 m ρ c (Proc.devRef .tc main_v28_2) = _ from W2_arr m ρ c 9]

theorem V3_g (c : Dev nD) (j : Fin 256) :
    (V3 m ρ c main_v42 : Vec Ideal S1x256 .f32) (ix2 (0 : Fin 1) j)
      = (m ((c : Thread nD τ).loc main_arg5) : Vec Ideal S256 .f32) (ix1 j) := by
  show (StableHlo.after hostOps1 (W2 m ρ c) (Proc.devRef .tc main_v42) : Vec Ideal S1x256 .f32) (ix2 (0 : Fin 1) j) = _
  after_results
  refine (shapeCast_a_1a_apply _ _ 0 j).trans ?_
  rw [W2_arg5]

theorem V3_be (c : Dev nD) (j : Fin 256) :
    (V3 m ρ c main_v43 : Vec Ideal S1x256 .f32) (ix2 (0 : Fin 1) j)
      = (m ((c : Thread nD τ).loc main_arg6) : Vec Ideal S256 .f32) (ix1 j) := by
  show (StableHlo.after hostOps1 (W2 m ρ c) (Proc.devRef .tc main_v43) : Vec Ideal S1x256 .f32) (ix2 (0 : Fin 1) j) = _
  after_results
  refine (shapeCast_a_1a_apply _ _ 0 j).trans ?_
  rw [W2_arg6]

end Cert.KernelIdeal.Val

end
-- ==== Proof.KSum.lean ====
/-
  The two running totals after the last grid point are sums over all 131072 rows.

  After point n the first total holds, at column j, the sum over points 0 … n and over the 512 rows of each point's
  block of the block's entry at column j (zero at the reset, then one block's column sum added per point); the second
  holds the same sum of squares. Rows 512 t + p for t < 256, p < 512 are exactly the rows below 131072, so after the last
  point the totals are the column sums, and the column sums of squares, of any row-indexed function the blocks restrict.
-/
import proofs.«414974_j88794153877511_1_alg».proof.Proof.KArr
import proofs.«414974_j88794153877511_1_alg».proof.Proof.KPay
import proofs.«414974_j88794153877511_1_alg».proof.Proof.Math

open scoped BigOperators

noncomputable section

namespace Cert.KernelIdeal.Val

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The first total after point `n`, at column `j`: the reset's zero plus one block's column sum per point, so the
    sum over points 0 … n of the blocks' column sums (the new point's column sum is that sum's last term). -/
theorem acc8_closed (c : Dev nD) (j : Fin 256) : ∀ (n : ℕ) (h : n < cfg0.N),
    (acc8 V c n h : Vec Ideal S1x256 .f32) (ix2 (0 : Fin 1) j)
      = ∑ t : Fin (n + 1), ∑ p : Fin 512,
          (hblk V c ⟨t.val, Nat.lt_of_lt_of_le t.isLt (Nat.succ_le_of_lt h)⟩ : Vec Ideal S512x256 .f32) (ix2 p j)
  | 0, h => by
    show k0_pay1 (F := Ideal) (hblk V c ⟨0, h⟩) (k0_pay3 (F := Ideal)) (ix2 (0 : Fin 1) j) = _
    rw [pay1_apply, pay3_apply, zero_add, Fin.sum_univ_one]
    rfl
  | n + 1, h => by
    show k0_pay1 (F := Ideal) (hblk V c ⟨n + 1, h⟩) (acc8 V c n (Nat.lt_of_succ_lt h)) (ix2 (0 : Fin 1) j) = _
    rw [pay1_apply, acc8_closed c j n (Nat.lt_of_succ_lt h)]
    conv_rhs => rw [Fin.sum_univ_castSucc]
    rfl

/-- The second total after point `n`, at column `j`: the same with each entry squared. -/
theorem acc9_closed (c : Dev nD) (j : Fin 256) : ∀ (n : ℕ) (h : n < cfg0.N),
    (acc9 V c n h : Vec Ideal S1x256 .f32) (ix2 (0 : Fin 1) j)
      = ∑ t : Fin (n + 1), ∑ p : Fin 512,
          (hblk V c ⟨t.val, Nat.lt_of_lt_of_le t.isLt (Nat.succ_le_of_lt h)⟩ : Vec Ideal S512x256 .f32) (ix2 p j)
            * (hblk V c ⟨t.val, Nat.lt_of_lt_of_le t.isLt (Nat.succ_le_of_lt h)⟩ : Vec Ideal S512x256 .f32) (ix2 p j)
  | 0, h => by
    show k0_pay2 (F := Ideal) (hblk V c ⟨0, h⟩) (k0_pay4 (F := Ideal)) (ix2 (0 : Fin 1) j) = _
    rw [pay2_apply, pay4_apply, zero_add, Fin.sum_univ_one]
    rfl
  | n + 1, h => by
    show k0_pay2 (F := Ideal) (hblk V c ⟨n + 1, h⟩) (acc9 V c n (Nat.lt_of_succ_lt h)) (ix2 (0 : Fin 1) j) = _
    rw [pay2_apply, acc9_closed c j n (Nat.lt_of_succ_lt h)]
    conv_rhs => rw [Fin.sum_univ_castSucc]
    rfl

/-- The first total after the last point: the column sum of a row-indexed function the blocks restrict. -/
theorem tot1_sum (c : Dev nD) (f : Fin 131072 → EReal) (j : Fin 256)
    (hf : ∀ (t : Fin cfg0.N) (p : Fin 512), (hblk V c t : Vec Ideal S512x256 .f32) (ix2 p j) = f (row0 t p)) :
    (acc8 V c 255 (by rw [show cfg0.N = 256 from N_0]; norm_num) : Vec Ideal S1x256 .f32) (ix2 (0 : Fin 1) j)
      = ∑ r : Fin 131072, f r := by
  refine (acc8_closed V c j 255 _).trans ?_
  rw [← Cert.Spec.sum_blocks f]
  refine Finset.sum_congr rfl fun t _ => Finset.sum_congr rfl fun p _ => ?_
  exact hf ⟨t.val, _⟩ p

/-- The second total after the last point: the column sum of the squares. -/
theorem tot2_sum (c : Dev nD) (f : Fin 131072 → EReal) (j : Fin 256)
    (hf : ∀ (t : Fin cfg0.N) (p : Fin 512), (hblk V c t : Vec Ideal S512x256 .f32) (ix2 p j) = f (row0 t p)) :
    (acc9 V c 255 (by rw [show cfg0.N = 256 from N_0]; norm_num) : Vec Ideal S1x256 .f32) (ix2 (0 : Fin 1) j)
      = ∑ r : Fin 131072, f r * f r := by
  refine (acc9_closed V c j 255 _).trans ?_
  rw [← Cert.Spec.sum_blocks fun r => f r * f r]
  refine Finset.sum_congr rfl fun t _ => Finset.sum_congr rfl fun p _ => ?_
  exact congrArg₂ (· * ·) (hf ⟨t.val, _⟩ p) (hf ⟨t.val, _⟩ p)

end Cert.KernelIdeal.Val

end
-- ==== Proof.KValue.lean ====
/-
  The kernel program's result array is the spec's function of its arguments.

  Entered with the host operations' results, the first kernel's block at point t, row p is the linear layer at row
  512 t + p: the row's two segment words are in range, so the zero-one row selects the pooled rows they name; the five
  pieces are the feature row; the weights and the bias are the arguments. Hence its block array is the linear layer's
  output and its two totals are the column sums and the column sums of squares. Between the kernels these become the
  column mean and the reciprocal root of (mean of squares less squared mean, plus the small constant), and the second
  kernel normalises, scales, shifts and clips each 4096-row block. Each kernel is first read over ANY contents it is
  entered with, given what its windows' arrays hold; the contents the host operations leave are put in last.
-/
import proofs.«414974_j88794153877511_1_alg».proof.Proof.KArr
import proofs.«414974_j88794153877511_1_alg».proof.Proof.KPay
import proofs.«414974_j88794153877511_1_alg».proof.Proof.KHost
import proofs.«414974_j88794153877511_1_alg».proof.Proof.KSum
import proofs.«414974_j88794153877511_1_alg».proof.Proof.Math

open scoped BigOperators

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

/-- A segment word in range reads, signed, as the row it names. -/
theorem word_row (ii : Cert.Spec.SI.Idx → BitVec 32) (h : Cert.Spec.InRange ii) (r : Fin 131072) :
    (ii (ix1 r)).toInt = ((Cert.Spec.rowOf ii r).val : Int) := by
  have h' := h r
  show _ = ((min (ii (ix1 r)).toInt.toNat 4095 : Nat) : Int)
  omega

/-- Five pieces that agree piece by piece agree side by side. -/
theorem cat5_congr {α : Type} (f0 f1 f2 f3 f4 g0 g1 g2 g3 g4 : Fin 128 → α) (h0 : ∀ q, f0 q = g0 q) (h1 : ∀ q, f1 q = g1 q)
    (h2 : ∀ q, f2 q = g2 q) (h3 : ∀ q, f3 q = g3 q) (h4 : ∀ q, f4 q = g4 q) (k : Fin 640) :
    Cert.Spec.cat5 f0 f1 f2 f3 f4 k = Cert.Spec.cat5 g0 g1 g2 g3 g4 k := by
  rw [show f0 = g0 from funext h0, show f1 = g1 from funext h1, show f2 = g2 from funext h2, show f3 = g3 from funext h3,
    show f4 = g4 from funext h4]

/-! ## The first kernel over any entry contents -/

section First
variable (V : (c : Dev nD) → (b : Ref sig .tc) → Buf (Elt Ideal) ((c : Thread nD τ).loc b)) (c : Dev nD)
variable (X : Cert.Spec.SX.Idx → EReal) (ai ei : Cert.Spec.SI.Idx → BitVec 32) (W : Cert.Spec.SW.Idx → EReal)
  (b : Cert.Spec.SV.Idx → EReal)
variable (hx : ∀ (r : Fin 131072) (k : Fin 384), (V c main_arg0 : Vec Ideal S131072x384 .f32) (ix2 r k) = X (ix2 r k))
  (ha : ∀ e : Fin 131072, (V c main_v24 : Vec Ideal S131072x1 .i32) (ix2 e (0 : Fin 1)) = ai (ix1 e))
  (he : ∀ e : Fin 131072, (V c main_v25 : Vec Ideal S131072x1 .i32) (ix2 e (0 : Fin 1)) = ei (ix1 e))
  (htA : ∀ (s : Fin 4096) (q : Fin 128), (V c main_v19 : Vec Ideal S4096x128 .bf16) (ix2 s q)
    = Cert.Spec.pooled (Cert.Spec.cols X 0 (by omega)) ai s q)
  (htE : ∀ (s : Fin 4096) (q : Fin 128), (V c main_v23 : Vec Ideal S4096x128 .bf16) (ix2 s q)
    = Cert.Spec.pooled (Cert.Spec.cols X 128 (by omega)) ai s q)
  (hw : ∀ (k : Fin 640) (j : Fin 256), (V c main_v26 : Vec Ideal S640x256 .bf16) (ix2 k j) = W (ix2 k j))
  (hb : ∀ j : Fin 256, (V c main_v27 : Vec Ideal S1x256 .f32) (ix2 (0 : Fin 1) j) = b (ix1 j))
  (hA : Cert.Spec.InRange ai) (hE : Cert.Spec.InRange ei)

include hx ha he htA htE hw hb hA hE

/-- The block at point t, row p, column j is the linear layer at row 512 t + p. -/
theorem hblk_gen (t : Fin cfg0.N) (p : Fin 512) (j : Fin 256) :
    (hblk V c t : Vec Ideal S512x256 .f32) (ix2 p j) = Cert.Spec.hpre X ai ei W b (row0 t p) j := by
  have h1 : ((iblk0 V c 1 t : Vec Ideal S512x1 .i32) (ix2 p (0 : Fin 1))).toInt
      = ((Cert.Spec.rowOf ai (row0 t p)).val : Int) := by
    rw [iblk0_a, ha]; exact word_row _ hA _
  have h2 : ((iblk0 V c 2 t : Vec Ideal S512x1 .i32) (ix2 p (0 : Fin 1))).toInt
      = ((Cert.Spec.rowOf ei (row0 t p)).val : Int) := by
    rw [iblk0_e, he]; exact word_row _ hE _
  unfold hblk
  rw [pay5_apply _ _ _ _ _ _ _ p j _ _ h1 h2]
  unfold Cert.Spec.hpre Cert.Spec.hin
  refine congrArg₂ (· + ·) ?_ ?_
  · refine Finset.sum_congr rfl fun k _ => ?_
    refine congrArg₂ (· * ·) ?_ ?_
    · refine cat5_congr _ _ _ _ _ _ _ _ _ _ (fun q => ?_) (fun q => ?_) (fun q => ?_) (fun q => ?_) (fun q => ?_) k
      · rw [iblk0_x, hx]; rfl
      · rw [iblk0_tA, htA]
      · rw [iblk0_x, hx]; rfl
      · rw [iblk0_tE, htE]
      · rw [iblk0_x, hx]; rfl
    · rw [iblk0_w]; exact hw k j
  · rw [iblk0_b]; exact hb j

/-- The block array is the linear layer's output. -/
theorem res7_gen (r : Fin 131072) (j : Fin 256) :
    ((dat0 V c).arrAt 7 cfg0.N : Vec Ideal S131072x256 .f32) (ix2 r j) = Cert.Spec.hpre X ai ei W b r j := by
  rw [arr7_apply, hblk_gen V c X ai ei W b hx ha he htA htE hw hb hA hE]
  refine congrArg (fun x => Cert.Spec.hpre X ai ei W b x j) (Fin.ext ?_)
  show 512 * (r.val / 512) + r.val % 512 = r.val
  omega

/-- The first total is the column sums. -/
theorem res8_gen (j : Fin 256) :
    ((dat0 V c).arrAt 8 cfg0.N : Vec Ideal S1x256 .f32) (ix2 (0 : Fin 1) j)
      = ∑ r : Fin 131072, Cert.Spec.hpre X ai ei W b r j := by
  rw [arr8_eq]
  exact tot1_sum V c (fun r => Cert.Spec.hpre X ai ei W b r j) j
    (fun t p => hblk_gen V c X ai ei W b hx ha he htA htE hw hb hA hE t p j)

/-- The second total is the column sums of squares. -/
theorem res9_gen (j : Fin 256) :
    ((dat0 V c).arrAt 9 cfg0.N : Vec Ideal S1x256 .f32) (ix2 (0 : Fin 1) j)
      = ∑ r : Fin 131072, Cert.Spec.hpre X ai ei W b r j * Cert.Spec.hpre X ai ei W b r j := by
  rw [arr9_eq]
  exact tot2_sum V c (fun r => Cert.Spec.hpre X ai ei W b r j) j
    (fun t p => hblk_gen V c X ai ei W b hx ha he htA htE hw hb hA hE t p j)

end First

/-! ## The second kernel over any entry contents -/

section Second
variable (V : (c : Dev nD) → (b : Ref sig .tc) → Buf (Elt Ideal) ((c : Thread nD τ).loc b)) (c : Dev nD)
variable (H : Fin 131072 → Fin 256 → EReal) (M I : Fin 256 → EReal) (g be : Cert.Spec.SV.Idx → EReal)
variable (hh : ∀ (r : Fin 131072) (j : Fin 256), (V c main_v28_0 : Vec Ideal S131072x256 .f32) (ix2 r j) = H r j)
  (hm : ∀ j : Fin 256, (V c main_v40 : Vec Ideal S1x256 .f32) (ix2 (0 : Fin 1) j) = M j)
  (hi : ∀ j : Fin 256, (V c main_v41 : Vec Ideal S1x256 .f32) (ix2 (0 : Fin 1) j) = I j)
  (hg : ∀ j : Fin 256, (V c main_v42 : Vec Ideal S1x256 .f32) (ix2 (0 : Fin 1) j) = g (ix1 j))
  (hbe : ∀ j : Fin 256, (V c main_v43 : Vec Ideal S1x256 .f32) (ix2 (0 : Fin 1) j) = be (ix1 j))

include hh hm hi hg hbe

/-- The result array at row r, column j. -/
theorem res5_gen (r : Fin 131072) (j : Fin 256) :
    ((dat1 V c).arrAt 5 cfg1.N : Vec Ideal S131072x256 .f32) (ix2 r j)
      = max ((H r j - M j) * I j * g (ix1 j) + be (ix1 j)) 0 := by
  have hr : row1 (pt1 r) (⟨r.val % 4096, Nat.mod_lt _ (by norm_num)⟩ : Fin 4096) = r := by
    apply Fin.ext
    show 4096 * (r.val / 4096) + r.val % 4096 = r.val
    omega
  rw [arr5_apply, k1_pay1_apply, iblk1_h, iblk1_mean, iblk1_inv, iblk1_g, iblk1_be, hr, hh, hm, hi, hg, hbe]

end Second

/-! ## The contents the host operations leave, put in -/

variable (m : (ℓ : Loc nD τ sig) → Buf (Elt Ideal) ℓ) (ρ : Dev nD → PrngReg)

/-- The seven arguments as launched. -/
abbrev aX (c : Dev nD) : Cert.Spec.SX.Idx → EReal := m ((c : Thread nD τ).loc main_arg0)
abbrev aA (c : Dev nD) : Cert.Spec.SI.Idx → BitVec 32 := m ((c : Thread nD τ).loc main_arg1)
abbrev aE (c : Dev nD) : Cert.Spec.SI.Idx → BitVec 32 := m ((c : Thread nD τ).loc main_arg2)
abbrev aW (c : Dev nD) : Cert.Spec.SW.Idx → EReal := m ((c : Thread nD τ).loc main_arg3)
abbrev aB (c : Dev nD) : Cert.Spec.SV.Idx → EReal := m ((c : Thread nD τ).loc main_arg4)
abbrev aG (c : Dev nD) : Cert.Spec.SV.Idx → EReal := m ((c : Thread nD τ).loc main_arg5)
abbrev aBe (c : Dev nD) : Cert.Spec.SV.Idx → EReal := m ((c : Thread nD τ).loc main_arg6)

/-- The linear layer's output of the launched arguments. -/
abbrev hp (c : Dev nD) : Fin 131072 → Fin 256 → EReal :=
  Cert.Spec.hpre (aX m c) (aA m c) (aE m c) (aW m c) (aB m c)

/-- THE RESULT: the result array at the last boundary is the spec's function of the launched arguments. -/
theorem result_eq (c : Dev nD) (hA : Cert.Spec.InRange (aA m c)) (hE : Cert.Spec.InRange (aE m c)) :
    W4 m ρ c (Proc.devRef .tc main_v44)
      = Cert.Spec.outK (aX m c) (aA m c) (aE m c) (aW m c) (aB m c) (aG m c) (aBe m c) := by
  have r7 := res7_gen (V1 m ρ) c (aX m c) (aA m c) (aE m c) (aW m c) (aB m c)
    (fun r k => congrFun (V1_x m ρ c) (ix2 r k)) (V1_a m ρ c) (V1_e m ρ c) (V1_tA m ρ c) (V1_tE m ρ c) (V1_w m ρ c)
    (V1_b m ρ c) hA hE
  have r8 := res8_gen (V1 m ρ) c (aX m c) (aA m c) (aE m c) (aW m c) (aB m c)
    (fun r k => congrFun (V1_x m ρ c) (ix2 r k)) (V1_a m ρ c) (V1_e m ρ c) (V1_tA m ρ c) (V1_tE m ρ c) (V1_w m ρ c)
    (V1_b m ρ c) hA hE
  have r9 := res9_gen (V1 m ρ) c (aX m c) (aA m c) (aE m c) (aW m c) (aB m c)
    (fun r k => congrFun (V1_x m ρ c) (ix2 r k)) (V1_a m ρ c) (V1_e m ρ c) (V1_tA m ρ c) (V1_tE m ρ c) (V1_w m ρ c)
    (V1_b m ρ c) hA hE
  have r5 := res5_gen (V3 m ρ) c (hp m c)
    (fun j => Ideal.div (∑ r : Fin 131072, hp m c r j) Cert.Spec.nrows)
    (fun j => Ideal.rsqrt
      (Ideal.div (∑ r : Fin 131072, hp m c r j * hp m c r j) Cert.Spec.nrows
          - Ideal.div (∑ r : Fin 131072, hp m c r j) Cert.Spec.nrows * Ideal.div (∑ r : Fin 131072, hp m c r j) Cert.Spec.nrows
        + Cert.Spec.eps))
    (aG m c) (aBe m c)
    (fun r j => (congrFun (V3_h m ρ c) (ix2 r j)).trans (r7 r j))
    (fun j => (V3_mean m ρ c j).trans (by rw [show tot1 m ρ c (ix2 (0 : Fin 1) j) = _ from r8 j]))
    (fun j => (V3_inv m ρ c j).trans (by
      rw [show tot1 m ρ c (ix2 (0 : Fin 1) j) = _ from r8 j, show tot2 m ρ c (ix2 (0 : Fin 1) j) = _ from r9 j]))
    (V3_g m ρ c) (V3_be m ρ c)
  refine (W4_arr m ρ c 5).trans ?_
  funext i
  obtain ⟨r, j, rfl⟩ : ∃ (r : Fin 131072) (j : Fin 256), i = ix2 r j := ⟨i 0, i 1, eq_ix2 i⟩
  exact r5 r j

end Cert.KernelIdeal.Val

end
-- ==== Proof.RefTerm.lean ====
/-
  The reference's result as one pure term of its seven arguments, named stage by stage: the three column groups of the
  features; the per-segment pooled table of a group (its segment sums over the larger of the segment's count and one);
  a segment word made non-negative by adding 4096 to a negative one, and the table row it then takes; the five pieces
  side by side; the linear layer; the column sums, the column mean, the deviations and the biased variance (the
  variance routine's own guard on its divisor included, as the program spells it); and the normalised, scaled, shifted
  and clipped result.
-/
import proofs.«414974_j88794153877511_1_alg».proof.ReferenceIdeal

noncomputable section

namespace Cert.ReferenceIdeal.Term

open Idealize.ShloMosaic Cert.ReferenceIdeal

variable {F : FTy → Type} [FloatOps F] [Facts]
open Facts₀ Facts

/-- A vector of segment words as a one-column matrix. -/
def col (ii : IVec S131072 32) : IVec S131072x1 32 := broadcastInDim S131072x1 ![0] bcast_S131072_S131072x1_0 ii

/-- The atom, element and distance column groups. -/
def sl0 (X : FVec F S131072x384 .f32) : FVec F S131072x128 .f32 :=
  extractStridedSlice S131072x128 ![0, 0] X slices_S131072x384_S131072x128_0_0
def sl1 (X : FVec F S131072x384 .f32) : FVec F S131072x128 .f32 :=
  extractStridedSlice S131072x128 ![0, 128] X slices_S131072x384_S131072x128_0_128
def sl2 (X : FVec F S131072x384 .f32) : FVec F S131072x128 .f32 :=
  extractStridedSlice S131072x128 ![0, 256] X slices_S131072x384_S131072x128_0_256

/-- Each segment's row count, not below one. -/
def counts (ai : IVec S131072 32) : FVec F S4096 .f32 :=
  maximumf
    (Host.scatterAdd scatter_S4096_S131072x1_S131072_n_0_0_1
      (broadcastInDim S4096 ![] bcast_S_S4096 (constant S_ .f32 0x00000000#32)) (col ai)
      (broadcastInDim S131072 ![] bcast_S_S131072 (constant S_ .f32 0x3F800000#32)))
    (broadcastInDim S4096 ![] bcast_S_S4096 (constant S_ .f32 0x3F800000#32))

/-- The pooled table of a column group: segment sums over counts. -/
def table (Y : FVec F S131072x128 .f32) (ai : IVec S131072 32) : FVec F S4096x128 .f32 :=
  Host.divf
    (Host.scatterAdd scatter_S4096x128_S131072x1_S131072x128_1_0_0_1
      (broadcastInDim S4096x128 ![] bcast_S_S4096x128 (constant S_ .f32 0x00000000#32)) (col ai) Y)
    (broadcastInDim S4096x128 ![0, 1] bcast_S4096x1_S4096x128_0_1
      (broadcastInDim S4096x1 ![0] bcast_S4096_S4096x1_0 (counts ai)))

/-- A negative segment word counted from the end. -/
def wrap (ii : IVec S131072 32) : IVec S131072 32 :=
  select (cmpi .slt ii (broadcastInDim S131072 ![] bcast_S_S131072 (constantI S_ 32 0#32)))
    (addi ii (broadcastInDim S131072 ![] bcast_S_S131072 (constantI S_ 32 4096#32))) ii

/-- Each row's table row. -/
def take (T : FVec F S4096x128 .f32) (ii : IVec S131072 32) : FVec F S131072x128 .f32 :=
  Host.gather gather_S4096x128_S131072x1_S131072x128_1_0_n_n_0_1_1128 T (col (wrap ii))

/-- The 640 features. -/
def feats (X : FVec F S131072x384 .f32) (ai ei : IVec S131072 32) : FVec F S131072x640 .f32 :=
  concatenate S131072x640 1
    [⟨S131072x128, sl0 X⟩, ⟨S131072x128, take (table (sl0 X) ai) ai⟩, ⟨S131072x128, sl1 X⟩,
      ⟨S131072x128, take (table (sl1 X) ai) ei⟩, ⟨S131072x128, sl2 X⟩]
    concatenates_S131072x128_S131072x128_S131072x128_S131072x128_S131072x128_S131072x640_d1

/-- A 256-vector repeated down the rows. -/
def rowb (v : FVec F S256 .f32) : FVec F S131072x256 .f32 :=
  broadcastInDim S131072x256 ![0, 1] bcast_S1x256_S131072x256_0_1 (broadcastInDim S1x256 ![1] bcast_S256_S1x256_1 v)

/-- The linear layer. -/
def lin (X : FVec F S131072x384 .f32) (ai ei : IVec S131072 32) (W : FVec F S640x256 .f32) (b : FVec F S256 .f32) :
    FVec F S131072x256 .f32 :=
  addf (Host.dotGeneral dot_S131072x640_S640x256_S131072x256_1_0_0_1_n_n none (feats X ai ei) W) (rowb b)

/-- The sum down each column. -/
def colsum (H : FVec F S131072x256 .f32) : FVec F S256 .f32 :=
  Host.reduceAdd H (constant S_ .f32 0x00000000#32) reducesTo_S131072x256_S256_d0 h_S_

/-- The mean down each column. -/
def mu (H : FVec F S131072x256 .f32) : FVec F S256 .f32 :=
  Host.divf (colsum H) (broadcastInDim S256 ![] bcast_S_S256 (constant S_ .f32 0x48000000#32))

/-- The deviations from the column mean, as the variance routine forms them. -/
def dev (H : FVec F S131072x256 .f32) : FVec F S131072x256 .f32 :=
  subf H (broadcastInDim S131072x256 ![0, 1] bcast_S1x256_S131072x256_0_1
    (Host.divf (broadcastInDim S1x256 ![1] bcast_S256_S1x256_1 (colsum H))
      (broadcastInDim S1x256 ![] bcast_S_S1x256 (constant S_ .f32 0x48000000#32))))

/-- The variance routine's divisor: the row count less zero degrees of freedom. -/
def dof : FVec F S_ .f32 := subf (constant (F := F) S_ .f32 0x48000000#32) (sitofp (F := F) .f32 (constantI S_ 32 0#32))

/-- The biased variance down each column, under the routine's guard that the divisor is positive. -/
def vr (H : FVec F S131072x256 .f32) : FVec F S256 .f32 :=
  select (broadcastInDim S256 ![] bcast_S_S256 (cmpf .ogt (dof (F := F)) (constant (F := F) S_ .f32 0x00000000#32)))
    (Host.divf (colsum (mulf (dev H) (dev H))) (broadcastInDim S256 ![] bcast_S_S256 (dof (F := F))))
    (broadcastInDim S256 ![] bcast_S_S256 (id (constant (F := F) S_ .f32 0x7FC00000#32)))

/-- The result. -/
def out (X : FVec F S131072x384 .f32) (ai ei : IVec S131072 32) (W : FVec F S640x256 .f32) (b g be : FVec F S256 .f32) :
    FVec F S131072x256 .f32 :=
  maximumf
    (addf
      (mulf
        (mulf (subf (lin X ai ei W b) (rowb (mu (lin X ai ei W b))))
          (rowb (Host.rsqrt (addf (vr (lin X ai ei W b))
            (broadcastInDim S256 ![] bcast_S_S256 (constant S_ .f32 0x3727C5AC#32))))))
        (rowb g))
      (rowb be))
    (broadcastInDim S131072x256 ![] bcast_S_S131072x256 (constant S_ .f32 0x00000000#32))

end Cert.ReferenceIdeal.Term

end
-- ==== Proof.RefRun.lean ====
/-
  The reference program's run, read back. The program is a straight line of 105 tensor operations once its three
  outlined routines are written out at their call sites over the buffers their calls name: the variance routine (with the
  guarded selection it calls in turn) after the column mean, and the clipping at zero at the very end. Run from any
  memory, every buffer ends at the fold of the operations' results over the launch contents; read at the result buffer,
  that fold is the one pure term of the seven arguments, and no operation writes an argument.
-/
import proofs.«414974_j88794153877511_1_alg».proof.ReferenceIdeal
import proofs.«414974_j88794153877511_1_alg».proof.Proof.Gen.ReferenceIdeal
import proofs.«414974_j88794153877511_1_alg».proof.Proof.RefTerm
import Idealize.ShloMosaic.Lib.StableHlo.Run
import Idealize.ShloMosaic.Lib.Tactic

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The 105 operations, in order: the first sixty of the main routine (the three column groups, the two pooled tables and
    the rows taken from them, the five pieces side by side, the linear layer and its column sums), the column mean, the
    variance routine's twenty-two (its last three the guarded selection), the normalisation, scale and shift, and the
    clipping's three. -/
abbrev ops : List (HloOp τ sig (Elt F)) :=
  [
    unary main_arg0 main_v0 ((extractStridedSlice S131072x128 ![0, 0] · slices_S131072x384_S131072x128_0_0) : (⟨S131072x384, .f32⟩ : BufTy).Contents (Elt F) → (⟨S131072x128, .f32⟩ : BufTy).Contents (Elt F)),
    unary main_arg0 main_v1 ((extractStridedSlice S131072x128 ![0, 128] · slices_S131072x384_S131072x128_0_128) : (⟨S131072x384, .f32⟩ : BufTy).Contents (Elt F) → (⟨S131072x128, .f32⟩ : BufTy).Contents (Elt F)),
    unary main_arg0 main_v2 ((extractStridedSlice S131072x128 ![0, 256] · slices_S131072x384_S131072x128_0_256) : (⟨S131072x384, .f32⟩ : BufTy).Contents (Elt F) → (⟨S131072x128, .f32⟩ : BufTy).Contents (Elt F)),
    nullary main_cst (constant S_ .f32 0x00000000#32),
    unary main_cst main_v3 (broadcastInDim S4096x128 ![] bcast_S_S4096x128 : (⟨S_, .f32⟩ : BufTy).Contents (Elt F) → (⟨S4096x128, .f32⟩ : BufTy).Contents (Elt F)),
    unary main_arg1 main_v4 (broadcastInDim S131072x1 ![0] bcast_S131072_S131072x1_0 : (⟨S131072, .i32⟩ : BufTy).Contents (Elt F) → (⟨S131072x1, .i32⟩ : BufTy).Contents (Elt F)),
    ternary main_v3 main_v4 main_v0 main_v5 ((fun x i u => Host.scatterAdd scatter_S4096x128_S131072x1_S131072x128_1_0_0_1 x i u) : (⟨S4096x128, .f32⟩ : BufTy).Contents (Elt F) → (⟨S131072x1, .i32⟩ : BufTy).Contents (Elt F) → (⟨S131072x128, .f32⟩ : BufTy).Contents (Elt F) → (⟨S4096x128, .f32⟩ : BufTy).Contents (Elt F)),
    nullary main_cst_0 (constant S_ .f32 0x3F800000#32),
    unary main_cst_0 main_v6 (broadcastInDim S131072 ![] bcast_S_S131072 : (⟨S_, .f32⟩ : BufTy).Contents (Elt F) → (⟨S131072, .f32⟩ : BufTy).Contents (Elt F)),
    nullary main_cst_1 (constant S_ .f32 0x00000000#32),
    unary main_cst_1 main_v7 (broadcastInDim S4096 ![] bcast_S_S4096 : (⟨S_, .f32⟩ : BufTy).Contents (Elt F) → (⟨S4096, .f32⟩ : BufTy).Contents (Elt F)),
    unary main_arg1 main_v8 (broadcastInDim S131072x1 ![0] bcast_S131072_S131072x1_0 : (⟨S131072, .i32⟩ : BufTy).Contents (Elt F) → (⟨S131072x1, .i32⟩ : BufTy).Contents (Elt F)),
    ternary main_v7 main_v8 main_v6 main_v9 ((fun x i u => Host.scatterAdd scatter_S4096_S131072x1_S131072_n_0_0_1 x i u) : (⟨S4096, .f32⟩ : BufTy).Contents (Elt F) → (⟨S131072x1, .i32⟩ : BufTy).Contents (Elt F) → (⟨S131072, .f32⟩ : BufTy).Contents (Elt F) → (⟨S4096, .f32⟩ : BufTy).Contents (Elt F)),
    nullary main_cst_2 (constant S_ .f32 0x3F800000#32),
    unary main_cst_2 main_v10 (broadcastInDim S4096 ![] bcast_S_S4096 : (⟨S_, .f32⟩ : BufTy).Contents (Elt F) → (⟨S4096, .f32⟩ : BufTy).Contents (Elt F)),
    binary main_v9 main_v10 main_v11 (maximumf : (⟨S4096, .f32⟩ : BufTy).Contents (Elt F) → (⟨S4096, .f32⟩ : BufTy).Contents (Elt F) → (⟨S4096, .f32⟩ : BufTy).Contents (Elt F)),
    unary main_v11 main_v12 (broadcastInDim S4096x1 ![0] bcast_S4096_S4096x1_0 : (⟨S4096, .f32⟩ : BufTy).Contents (Elt F) → (⟨S4096x1, .f32⟩ : BufTy).Contents (Elt F)),
    unary main_v12 main_v13 (broadcastInDim S4096x128 ![0, 1] bcast_S4096x1_S4096x128_0_1 : (⟨S4096x1, .f32⟩ : BufTy).Contents (Elt F) → (⟨S4096x128, .f32⟩ : BufTy).Contents (Elt F)),
    binary main_v5 main_v13 main_v14 (Host.divf : (⟨S4096x128, .f32⟩ : BufTy).Contents (Elt F) → (⟨S4096x128, .f32⟩ : BufTy).Contents (Elt F) → (⟨S4096x128, .f32⟩ : BufTy).Contents (Elt F)),
    nullary main_c (constantI S_ 32 0#32),
    unary main_c main_v15 (broadcastInDim S131072 ![] bcast_S_S131072 : (⟨S_, .i32⟩ : BufTy).Contents (Elt F) → (⟨S131072, .i32⟩ : BufTy).Contents (Elt F)),
    binary main_arg1 main_v15 main_v16 (cmpi .slt : (⟨S131072, .i32⟩ : BufTy).Contents (Elt F) → (⟨S131072, .i32⟩ : BufTy).Contents (Elt F) → (⟨S131072, .i1⟩ : BufTy).Contents (Elt F)),
    nullary main_c_3 (constantI S_ 32 4096#32),
    unary main_c_3 main_v17 (broadcastInDim S131072 ![] bcast_S_S131072 : (⟨S_, .i32⟩ : BufTy).Contents (Elt F) → (⟨S131072, .i32⟩ : BufTy).Contents (Elt F)),
    binary main_arg1 main_v17 main_v18 (addi : (⟨S131072, .i32⟩ : BufTy).Contents (Elt F) → (⟨S131072, .i32⟩ : BufTy).Contents (Elt F) → (⟨S131072, .i32⟩ : BufTy).Contents (Elt F)),
    ternary main_v16 main_v18 main_arg1 main_v19 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v19 main_v20 (broadcastInDim S131072x1 ![0] bcast_S131072_S131072x1_0 : (⟨S131072, .i32⟩ : BufTy).Contents (Elt F) → (⟨S131072x1, .i32⟩ : BufTy).Contents (Elt F)),
    binary main_v14 main_v20 main_v21 ((fun x i => Host.gather gather_S4096x128_S131072x1_S131072x128_1_0_n_n_0_1_1128 x i) : (⟨S4096x128, .f32⟩ : BufTy).Contents (Elt F) → (⟨S131072x1, .i32⟩ : BufTy).Contents (Elt F) → (⟨S131072x128, .f32⟩ : BufTy).Contents (Elt F)),
    nullary main_cst_4 (constant S_ .f32 0x00000000#32),
    unary main_cst_4 main_v22 (broadcastInDim S4096x128 ![] bcast_S_S4096x128 : (⟨S_, .f32⟩ : BufTy).Contents (Elt F) → (⟨S4096x128, .f32⟩ : BufTy).Contents (Elt F)),
    unary main_arg1 main_v23 (broadcastInDim S131072x1 ![0] bcast_S131072_S131072x1_0 : (⟨S131072, .i32⟩ : BufTy).Contents (Elt F) → (⟨S131072x1, .i32⟩ : BufTy).Contents (Elt F)),
    ternary main_v22 main_v23 main_v1 main_v24 ((fun x i u => Host.scatterAdd scatter_S4096x128_S131072x1_S131072x128_1_0_0_1 x i u) : (⟨S4096x128, .f32⟩ : BufTy).Contents (Elt F) → (⟨S131072x1, .i32⟩ : BufTy).Contents (Elt F) → (⟨S131072x128, .f32⟩ : BufTy).Contents (Elt F) → (⟨S4096x128, .f32⟩ : BufTy).Contents (Elt F)),
    nullary main_cst_5 (constant S_ .f32 0x3F800000#32),
    unary main_cst_5 main_v25 (broadcastInDim S131072 ![] bcast_S_S131072 : (⟨S_, .f32⟩ : BufTy).Contents (Elt F) → (⟨S131072, .f32⟩ : BufTy).Contents (Elt F)),
    nullary main_cst_6 (constant S_ .f32 0x00000000#32),
    unary main_cst_6 main_v26 (broadcastInDim S4096 ![] bcast_S_S4096 : (⟨S_, .f32⟩ : BufTy).Contents (Elt F) → (⟨S4096, .f32⟩ : BufTy).Contents (Elt F)),
    unary main_arg1 main_v27 (broadcastInDim S131072x1 ![0] bcast_S131072_S131072x1_0 : (⟨S131072, .i32⟩ : BufTy).Contents (Elt F) → (⟨S131072x1, .i32⟩ : BufTy).Contents (Elt F)),
    ternary main_v26 main_v27 main_v25 main_v28 ((fun x i u => Host.scatterAdd scatter_S4096_S131072x1_S131072_n_0_0_1 x i u) : (⟨S4096, .f32⟩ : BufTy).Contents (Elt F) → (⟨S131072x1, .i32⟩ : BufTy).Contents (Elt F) → (⟨S131072, .f32⟩ : BufTy).Contents (Elt F) → (⟨S4096, .f32⟩ : BufTy).Contents (Elt F)),
    nullary main_cst_7 (constant S_ .f32 0x3F800000#32),
    unary main_cst_7 main_v29 (broadcastInDim S4096 ![] bcast_S_S4096 : (⟨S_, .f32⟩ : BufTy).Contents (Elt F) → (⟨S4096, .f32⟩ : BufTy).Contents (Elt F)),
    binary main_v28 main_v29 main_v30 (maximumf : (⟨S4096, .f32⟩ : BufTy).Contents (Elt F) → (⟨S4096, .f32⟩ : BufTy).Contents (Elt F) → (⟨S4096, .f32⟩ : BufTy).Contents (Elt F)),
    unary main_v30 main_v31 (broadcastInDim S4096x1 ![0] bcast_S4096_S4096x1_0 : (⟨S4096, .f32⟩ : BufTy).Contents (Elt F) → (⟨S4096x1, .f32⟩ : BufTy).Contents (Elt F)),
    unary main_v31 main_v32 (broadcastInDim S4096x128 ![0, 1] bcast_S4096x1_S4096x128_0_1 : (⟨S4096x1, .f32⟩ : BufTy).Contents (Elt F) → (⟨S4096x128, .f32⟩ : BufTy).Contents (Elt F)),
    binary main_v24 main_v32 main_v33 (Host.divf : (⟨S4096x128, .f32⟩ : BufTy).Contents (Elt F) → (⟨S4096x128, .f32⟩ : BufTy).Contents (Elt F) → (⟨S4096x128, .f32⟩ : BufTy).Contents (Elt F)),
    nullary main_c_8 (constantI S_ 32 0#32),
    unary main_c_8 main_v34 (broadcastInDim S131072 ![] bcast_S_S131072 : (⟨S_, .i32⟩ : BufTy).Contents (Elt F) → (⟨S131072, .i32⟩ : BufTy).Contents (Elt F)),
    binary main_arg2 main_v34 main_v35 (cmpi .slt : (⟨S131072, .i32⟩ : BufTy).Contents (Elt F) → (⟨S131072, .i32⟩ : BufTy).Contents (Elt F) → (⟨S131072, .i1⟩ : BufTy).Contents (Elt F)),
    nullary main_c_9 (constantI S_ 32 4096#32),
    unary main_c_9 main_v36 (broadcastInDim S131072 ![] bcast_S_S131072 : (⟨S_, .i32⟩ : BufTy).Contents (Elt F) → (⟨S131072, .i32⟩ : BufTy).Contents (Elt F)),
    binary main_arg2 main_v36 main_v37 (addi : (⟨S131072, .i32⟩ : BufTy).Contents (Elt F) → (⟨S131072, .i32⟩ : BufTy).Contents (Elt F) → (⟨S131072, .i32⟩ : BufTy).Contents (Elt F)),
    ternary main_v35 main_v37 main_arg2 main_v38 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v38 main_v39 (broadcastInDim S131072x1 ![0] bcast_S131072_S131072x1_0 : (⟨S131072, .i32⟩ : BufTy).Contents (Elt F) → (⟨S131072x1, .i32⟩ : BufTy).Contents (Elt F)),
    binary main_v33 main_v39 main_v40 ((fun x i => Host.gather gather_S4096x128_S131072x1_S131072x128_1_0_n_n_0_1_1128 x i) : (⟨S4096x128, .f32⟩ : BufTy).Contents (Elt F) → (⟨S131072x1, .i32⟩ : BufTy).Contents (Elt F) → (⟨S131072x128, .f32⟩ : BufTy).Contents (Elt F)),
    nary ![main_v0, main_v21, main_v1, main_v40, main_v2] main_v41 (fun u => concatenate S131072x640 1 [⟨S131072x128, u 0⟩, ⟨S131072x128, u 1⟩, ⟨S131072x128, u 2⟩, ⟨S131072x128, u 3⟩, ⟨S131072x128, u 4⟩] concatenates_S131072x128_S131072x128_S131072x128_S131072x128_S131072x128_S131072x640_d1),
    binary main_v41 main_arg3 main_v42 ((fun l r => Host.dotGeneral dot_S131072x640_S640x256_S131072x256_1_0_0_1_n_n none l r) : (⟨S131072x640, .f32⟩ : BufTy).Contents (Elt F) → (⟨S640x256, .f32⟩ : BufTy).Contents (Elt F) → (⟨S131072x256, .f32⟩ : BufTy).Contents (Elt F)),
    unary main_arg4 main_v43 (broadcastInDim S1x256 ![1] bcast_S256_S1x256_1 : (⟨S256, .f32⟩ : BufTy).Contents (Elt F) → (⟨S1x256, .f32⟩ : BufTy).Contents (Elt F)),
    unary main_v43 main_v44 (broadcastInDim S131072x256 ![0, 1] bcast_S1x256_S131072x256_0_1 : (⟨S1x256, .f32⟩ : BufTy).Contents (Elt F) → (⟨S131072x256, .f32⟩ : BufTy).Contents (Elt F)),
    binary main_v42 main_v44 main_v45 (addf : (⟨S131072x256, .f32⟩ : BufTy).Contents (Elt F) → (⟨S131072x256, .f32⟩ : BufTy).Contents (Elt F) → (⟨S131072x256, .f32⟩ : BufTy).Contents (Elt F)),
    nullary main_cst_10 (constant S_ .f32 0x00000000#32),
    binary main_v45 main_cst_10 main_v46 ((fun x v => Host.reduceAdd x v reducesTo_S131072x256_S256_d0 h_S_) : (⟨S131072x256, .f32⟩ : BufTy).Contents (Elt F) → (⟨S_, .f32⟩ : BufTy).Contents (Elt F) → (⟨S256, .f32⟩ : BufTy).Contents (Elt F)),
    nullary main_cst_11 (constant S_ .f32 0x48000000#32),
    unary main_cst_11 main_v47 (broadcastInDim S256 ![] bcast_S_S256 : (⟨S_, .f32⟩ : BufTy).Contents (Elt F) → (⟨S256, .f32⟩ : BufTy).Contents (Elt F)),
    binary main_v46 main_v47 main_v48 (Host.divf : (⟨S256, .f32⟩ : BufTy).Contents (Elt F) → (⟨S256, .f32⟩ : BufTy).Contents (Elt F) → (⟨S256, .f32⟩ : BufTy).Contents (Elt F)),
    nullary main_c_12 (constantI S_ 32 0#32),
    nullary main_call0_cst (constant S_ .f32 0x00000000#32),
    binary main_v45 main_call0_cst main_call0_v0 ((fun x v => Host.reduceAdd x v reducesTo_S131072x256_S256_d0 h_S_) : (⟨S131072x256, .f32⟩ : BufTy).Contents (Elt F) → (⟨S_, .f32⟩ : BufTy).Contents (Elt F) → (⟨S256, .f32⟩ : BufTy).Contents (Elt F)),
    unary main_call0_v0 main_call0_v1 (broadcastInDim S1x256 ![1] bcast_S256_S1x256_1 : (⟨S256, .f32⟩ : BufTy).Contents (Elt F) → (⟨S1x256, .f32⟩ : BufTy).Contents (Elt F)),
    nullary main_call0_cst_0 (constant S_ .f32 0x48000000#32),
    unary main_call0_cst_0 main_call0_v2 (broadcastInDim S1x256 ![] bcast_S_S1x256 : (⟨S_, .f32⟩ : BufTy).Contents (Elt F) → (⟨S1x256, .f32⟩ : BufTy).Contents (Elt F)),
    binary main_call0_v1 main_call0_v2 main_call0_v3 (Host.divf : (⟨S1x256, .f32⟩ : BufTy).Contents (Elt F) → (⟨S1x256, .f32⟩ : BufTy).Contents (Elt F) → (⟨S1x256, .f32⟩ : BufTy).Contents (Elt F)),
    unary main_call0_v3 main_call0_v4 (broadcastInDim S131072x256 ![0, 1] bcast_S1x256_S131072x256_0_1 : (⟨S1x256, .f32⟩ : BufTy).Contents (Elt F) → (⟨S131072x256, .f32⟩ : BufTy).Contents (Elt F)),
    binary main_v45 main_call0_v4 main_call0_v5 (subf : (⟨S131072x256, .f32⟩ : BufTy).Contents (Elt F) → (⟨S131072x256, .f32⟩ : BufTy).Contents (Elt F) → (⟨S131072x256, .f32⟩ : BufTy).Contents (Elt F)),
    binary main_call0_v5 main_call0_v5 main_call0_v6 (mulf : (⟨S131072x256, .f32⟩ : BufTy).Contents (Elt F) → (⟨S131072x256, .f32⟩ : BufTy).Contents (Elt F) → (⟨S131072x256, .f32⟩ : BufTy).Contents (Elt F)),
    unary main_c_12 main_call0_v7 (sitofp .f32 : (⟨S_, .i32⟩ : BufTy).Contents (Elt F) → (⟨S_, .f32⟩ : BufTy).Contents (Elt F)),
    nullary main_call0_cst_1 (constant S_ .f32 0x48000000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S131072x256_S256_d0 h_S_) : (⟨S131072x256, .f32⟩ : BufTy).Contents (Elt F) → (⟨S_, .f32⟩ : BufTy).Contents (Elt F) → (⟨S256, .f32⟩ : BufTy).Contents (Elt F)),
    unary main_call0_v8 main_call0_v10 (broadcastInDim S256 ![] bcast_S_S256 : (⟨S_, .f32⟩ : BufTy).Contents (Elt F) → (⟨S256, .f32⟩ : BufTy).Contents (Elt F)),
    binary main_call0_v9 main_call0_v10 main_call0_v11 (Host.divf : (⟨S256, .f32⟩ : BufTy).Contents (Elt F) → (⟨S256, .f32⟩ : BufTy).Contents (Elt F) → (⟨S256, .f32⟩ : BufTy).Contents (Elt F)),
    nullary main_call0_cst_3 (constant S_ .f32 0x00000000#32),
    binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 (broadcastInDim S256 ![] bcast_S_S256 : (⟨S_, .f32⟩ : BufTy).Contents (Elt F) → (⟨S256, .f32⟩ : BufTy).Contents (Elt F)),
    ternary main_call0_v12 main_call0_v11 main_call0_call0_v1 main_v49 ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F)),
    unary main_v48 main_v50 (broadcastInDim S1x256 ![1] bcast_S256_S1x256_1 : (⟨S256, .f32⟩ : BufTy).Contents (Elt F) → (⟨S1x256, .f32⟩ : BufTy).Contents (Elt F)),
    unary main_v50 main_v51 (broadcastInDim S131072x256 ![0, 1] bcast_S1x256_S131072x256_0_1 : (⟨S1x256, .f32⟩ : BufTy).Contents (Elt F) → (⟨S131072x256, .f32⟩ : BufTy).Contents (Elt F)),
    binary main_v45 main_v51 main_v52 (subf : (⟨S131072x256, .f32⟩ : BufTy).Contents (Elt F) → (⟨S131072x256, .f32⟩ : BufTy).Contents (Elt F) → (⟨S131072x256, .f32⟩ : BufTy).Contents (Elt F)),
    nullary main_cst_13 (constant S_ .f32 0x3727C5AC#32),
    unary main_cst_13 main_v53 (broadcastInDim S256 ![] bcast_S_S256 : (⟨S_, .f32⟩ : BufTy).Contents (Elt F) → (⟨S256, .f32⟩ : BufTy).Contents (Elt F)),
    binary main_v49 main_v53 main_v54 (addf : (⟨S256, .f32⟩ : BufTy).Contents (Elt F) → (⟨S256, .f32⟩ : BufTy).Contents (Elt F) → (⟨S256, .f32⟩ : BufTy).Contents (Elt F)),
    unary main_v54 main_v55 (Host.rsqrt : (⟨S256, .f32⟩ : BufTy).Contents (Elt F) → (⟨S256, .f32⟩ : BufTy).Contents (Elt F)),
    unary main_v55 main_v56 (broadcastInDim S1x256 ![1] bcast_S256_S1x256_1 : (⟨S256, .f32⟩ : BufTy).Contents (Elt F) → (⟨S1x256, .f32⟩ : BufTy).Contents (Elt F)),
    unary main_v56 main_v57 (broadcastInDim S131072x256 ![0, 1] bcast_S1x256_S131072x256_0_1 : (⟨S1x256, .f32⟩ : BufTy).Contents (Elt F) → (⟨S131072x256, .f32⟩ : BufTy).Contents (Elt F)),
    binary main_v52 main_v57 main_v58 (mulf : (⟨S131072x256, .f32⟩ : BufTy).Contents (Elt F) → (⟨S131072x256, .f32⟩ : BufTy).Contents (Elt F) → (⟨S131072x256, .f32⟩ : BufTy).Contents (Elt F)),
    unary main_arg5 main_v59 (broadcastInDim S1x256 ![1] bcast_S256_S1x256_1 : (⟨S256, .f32⟩ : BufTy).Contents (Elt F) → (⟨S1x256, .f32⟩ : BufTy).Contents (Elt F)),
    unary main_v59 main_v60 (broadcastInDim S131072x256 ![0, 1] bcast_S1x256_S131072x256_0_1 : (⟨S1x256, .f32⟩ : BufTy).Contents (Elt F) → (⟨S131072x256, .f32⟩ : BufTy).Contents (Elt F)),
    binary main_v58 main_v60 main_v61 (mulf : (⟨S131072x256, .f32⟩ : BufTy).Contents (Elt F) → (⟨S131072x256, .f32⟩ : BufTy).Contents (Elt F) → (⟨S131072x256, .f32⟩ : BufTy).Contents (Elt F)),
    unary main_arg6 main_v62 (broadcastInDim S1x256 ![1] bcast_S256_S1x256_1 : (⟨S256, .f32⟩ : BufTy).Contents (Elt F) → (⟨S1x256, .f32⟩ : BufTy).Contents (Elt F)),
    unary main_v62 main_v63 (broadcastInDim S131072x256 ![0, 1] bcast_S1x256_S131072x256_0_1 : (⟨S1x256, .f32⟩ : BufTy).Contents (Elt F) → (⟨S131072x256, .f32⟩ : BufTy).Contents (Elt F)),
    binary main_v61 main_v63 main_v64 (addf : (⟨S131072x256, .f32⟩ : BufTy).Contents (Elt F) → (⟨S131072x256, .f32⟩ : BufTy).Contents (Elt F) → (⟨S131072x256, .f32⟩ : BufTy).Contents (Elt F)),
    nullary main_call1_cst (constant S_ .f32 0x00000000#32),
    unary main_call1_cst main_call1_v0 (broadcastInDim S131072x256 ![] bcast_S_S131072x256 : (⟨S_, .f32⟩ : BufTy).Contents (Elt F) → (⟨S131072x256, .f32⟩ : BufTy).Contents (Elt F)),
    binary main_v64 main_call1_v0 main_v65 (maximumf : (⟨S131072x256, .f32⟩ : BufTy).Contents (Elt F) → (⟨S131072x256, .f32⟩ : BufTy).Contents (Elt F) → (⟨S131072x256, .f32⟩ : BufTy).Contents (Elt F)) ]

-- a hundred and five binds re-associated: the rewrite under the chain recurses once per statement
set_option maxRecDepth 4096 in
set_option maxHeartbeats 4000000 in
/-- The main routine is that straight line: the routines' definitions unfolded at their calls and the buffer records at
    their fields, both sides are one chain of steps once sequencing is re-associated. -/
theorem main_eq (c : Dev nD) : main (F := F) c = seq ops := by
  simp only [main, main_part0, main_part1, fn_var.body, fn_where.body, fn_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub ..⟩

/-- A five-operand operation over a literal family of buffers leaves, at its result buffer, its function of the five
    operands' contents, each read at its own buffer. -/
theorem nary5_result {x a b c e y : Ref sig .tc}
    (f : ((k : Fin 5) → ((![x, a, b, c, e] : Fin 5 → Ref sig .tc) k).ty.Contents (Elt F)) → y.ty.Contents (Elt F)) (hxs hy)
    (V : Valuation τ sig (Elt F)) :
    (nary (τ := τ) ![x, a, b, c, e] y f hxs hy).result V (no_index (Proc.devRef .tc y))
      = f (Fin.cons (V (Proc.devRef .tc x)) (Fin.cons (V (Proc.devRef .tc a)) (Fin.cons (V (Proc.devRef .tc b))
          (Fin.cons (V (Proc.devRef .tc c)) (Fin.cons (V (Proc.devRef .tc e)) (fun i => i.elim0)))))) := by
  refine (nary_result _ _ f hxs hy V).trans (congrArg f (funext fun k => ?_))
  fin_cases k <;> rfl

set_option maxRecDepth 8192 in
set_option maxHeartbeats 4000000 in
/-- The fold read at the result buffer is the one pure term of the arguments: each operation's result at its own buffer
    is its function of its operands' contents, at any other buffer what was there; what is left is the term, stage by
    stage. -/
theorem out_eq (V : Valuation τ sig (Elt F)) :
    after ops V (main_v65 : DevRef τ sig)
      = Term.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  simp (disch := decide) only [after_cons, after_nil, nullary_result', unary_result', binary_result', ternary_result',
    nary5_result, nullary_result_ne', unary_result_ne', binary_result_ne', ternary_result_ne', nary_result_ne']
  rfl

/-! No operation writes an argument: read at an argument's buffer, the fold is the launch contents. -/

set_option maxRecDepth 8192 in
set_option maxHeartbeats 4000000 in
theorem arg0_eq (V : Valuation τ sig (Elt F)) :
    after ops V (main_arg0 : DevRef τ sig) = V (main_arg0 : DevRef τ sig) := by
  simp (disch := decide) only [after_cons, after_nil, nullary_result_ne', unary_result_ne', binary_result_ne',
    ternary_result_ne', nary_result_ne']

set_option maxRecDepth 8192 in
set_option maxHeartbeats 4000000 in
theorem arg1_eq (V : Valuation τ sig (Elt F)) :
    after ops V (main_arg1 : DevRef τ sig) = V (main_arg1 : DevRef τ sig) := by
  simp (disch := decide) only [after_cons, after_nil, nullary_result_ne', unary_result_ne', binary_result_ne',
    ternary_result_ne', nary_result_ne']

set_option maxRecDepth 8192 in
set_option maxHeartbeats 4000000 in
theorem arg2_eq (V : Valuation τ sig (Elt F)) :
    after ops V (main_arg2 : DevRef τ sig) = V (main_arg2 : DevRef τ sig) := by
  simp (disch := decide) only [after_cons, after_nil, nullary_result_ne', unary_result_ne', binary_result_ne',
    ternary_result_ne', nary_result_ne']

set_option maxRecDepth 8192 in
set_option maxHeartbeats 4000000 in
theorem arg3_eq (V : Valuation τ sig (Elt F)) :
    after ops V (main_arg3 : DevRef τ sig) = V (main_arg3 : DevRef τ sig) := by
  simp (disch := decide) only [after_cons, after_nil, nullary_result_ne', unary_result_ne', binary_result_ne',
    ternary_result_ne', nary_result_ne']

set_option maxRecDepth 8192 in
set_option maxHeartbeats 4000000 in
theorem arg4_eq (V : Valuation τ sig (Elt F)) :
    after ops V (main_arg4 : DevRef τ sig) = V (main_arg4 : DevRef τ sig) := by
  simp (disch := decide) only [after_cons, after_nil, nullary_result_ne', unary_result_ne', binary_result_ne',
    ternary_result_ne', nary_result_ne']

set_option maxRecDepth 8192 in
set_option maxHeartbeats 4000000 in
theorem arg5_eq (V : Valuation τ sig (Elt F)) :
    after ops V (main_arg5 : DevRef τ sig) = V (main_arg5 : DevRef τ sig) := by
  simp (disch := decide) only [after_cons, after_nil, nullary_result_ne', unary_result_ne', binary_result_ne',
    ternary_result_ne', nary_result_ne']

set_option maxRecDepth 8192 in
set_option maxHeartbeats 4000000 in
theorem arg6_eq (V : Valuation τ sig (Elt F)) :
    after ops V (main_arg6 : DevRef τ sig) = V (main_arg6 : DevRef τ sig) := by
  simp (disch := decide) only [after_cons, after_nil, nullary_result_ne', unary_result_ne', binary_result_ne',
    ternary_result_ne', nary_result_ne']

/-- On the one device, for any float values, from any memory with zero counters: every weakly fair execution of the
    main routine terminates with the result buffer at the pure term of the arguments' launch contents, and the seven
    arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65)
          = Term.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v65).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.Value

end
-- ==== Proof.RefFeats.lean ====
/-
  The reference's 640 features, read at a row and a column.

  A column group's pooled table at (s, q) is the sum of the group's column q over the rows whose segment word reads s,
  divided by the larger of that segment's row count and one. A row whose segment word lies in [0, 4096) is not negative,
  so it is taken as it is, and it is not past the end, so the row it takes is the one it names. The five pieces side by
  side are then the spec's feature row.
-/
import proofs.«414974_j88794153877511_1_alg».proof.Proof.RefTerm
import proofs.«414974_j88794153877511_1_alg».proof.Proof.Gen.ReferenceIdeal
import proofs.«414974_j88794153877511_1_alg».proof.Proof.Spec
import proofs.«414974_j88794153877511_1_alg».proof.Proof.Math
import proofs.«414974_j88794153877511_1_alg».proof.Proof.Cat5
import proofs.«414974_j88794153877511_1_alg».proof.Proof.LibGatherScatter
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.ReferenceIdeal.Val

open Idealize.ShloMosaic Idealize.ShloMosaic.ValueIdx
open Cert.ReferenceIdeal
open Cert.ReferenceIdeal.Facts₀ Cert.ReferenceIdeal.Facts
open Idealize.ShloMosaic.StableHlo.Predicate (ixP ij)

/-! ### The segment words as a column -/

/-- Row `e` of the one-column matrix of segment words is word `e`. -/
theorem col_apply (ii : IVec S131072 32) (e : Fin 131072) : Term.col ii (ixP e) = ii (ix1 e) := by
  unfold Term.col
  rw [StableHlo.Predicate.bcast_col1, RowOps.ofFin_eq_ix1]

/-- Update row `e` lands on segment `s` exactly when word `e` names `s`. -/
theorem lands_iff (ii : IVec S131072 32) (e : Fin 131072) (s : Nat) :
    RowOps.lands (Term.col ii) e s ↔ Cert.Spec.names ii e s := by
  unfold RowOps.lands Cert.Spec.names
  rw [col_apply]

/-- A rank-2 index written by its coordinates, in the two spellings the library uses. -/
theorem ix2_eq_ij {n m : Nat} (p : Fin n) (q : Fin m) : (ix2 p q : (⟨2, ![n, m]⟩ : Shape).Idx) = ij p q := by
  funext d
  match d with
  | ⟨0, _⟩ => rfl
  | ⟨1, _⟩ => rfl

/-! ### Counts and the pooled table -/

/-- Segment `s`'s guarded count: zero plus a one for each of its rows, then the larger of that and one. -/
theorem counts_apply (ai : IVec S131072 32) (s : Fin 4096) :
    Term.counts (F := Ideal) ai (ix1 s) = max (Cert.Spec.cnt ai s) Cert.Spec.one := by
  have hs := RowOps.scatterAdd_row1 scatter_S4096_S131072x1_S131072_n_0_0_1 rfl rfl rfl rfl
    (broadcastInDim S4096 ![] bcast_S_S4096 (constant (F := Ideal) S_ .f32 0x00000000#32)) (Term.col ai)
    (broadcastInDim S131072 ![] bcast_S_S131072 (constant (F := Ideal) S_ .f32 0x3F800000#32)) s
  refine (congrArg (fun z : EReal => max z Cert.Spec.one) hs).trans ?_
  show max (Ideal.ofBits .f32 0x00000000#32 + ∑ e ∈ _, Cert.Spec.one) Cert.Spec.one = _
  rw [Ideal.ofBits_zero_f32, zero_add]
  unfold Cert.Spec.cnt
  exact congrArg (fun z : EReal => max z Cert.Spec.one)
    (Finset.sum_congr (Finset.filter_congr fun e _ => lands_iff ai e s.val) fun _ _ => rfl)

/-- The guarded counts repeated along the columns read, at (s, q), segment `s`'s. -/
theorem countsB_apply (ai : IVec S131072 32) (s : Fin 4096) (q : Fin 128) :
    broadcastInDim S4096x128 ![0, 1] bcast_S4096x1_S4096x128_0_1
        (broadcastInDim S4096x1 ![0] bcast_S4096_S4096x1_0 (Term.counts (F := Ideal) ai)) (ix2 s q)
      = max (Cert.Spec.cnt ai s) Cert.Spec.one := by
  rw [ix2_eq_ij, StableHlo.Predicate.bcast_rows, RowOps.ofFin_eq_ix1, counts_apply]

/-- The pooled table of a column group at segment `s`, column `q`. -/
theorem table_apply (Y : FVec Ideal S131072x128 .f32) (ai : IVec S131072 32) (s : Fin 4096) (q : Fin 128) :
    Term.table (F := Ideal) Y ai (ix2 s q) = Cert.Spec.pooled (fun e j => Y (ix2 e j)) ai s q := by
  have hA := RowOps.scatterAdd_rows scatter_S4096x128_S131072x1_S131072x128_1_0_0_1 rfl rfl rfl rfl
    (broadcastInDim S4096x128 ![] bcast_S_S4096x128 (constant (F := Ideal) S_ .f32 0x00000000#32)) (Term.col ai) Y s q
  have hB := countsB_apply ai s q
  unfold Term.table
  simp only [Host.divf, Host.scatterAdd, Ideal.hostDivf_def, Ideal.hostScatterAdd_def]
  rw [hA, hB]
  show Ideal.div (Ideal.ofBits .f32 0x00000000#32 + ∑ e ∈ _, Y (ix2 e q)) _ = _
  rw [Ideal.ofBits_zero_f32, zero_add]
  unfold Cert.Spec.pooled Cert.Spec.seg
  exact congrArg (fun z : EReal => Ideal.div z (max (Cert.Spec.cnt ai s) Cert.Spec.one))
    (Finset.sum_congr (Finset.filter_congr fun e _ => lands_iff ai e s.val) fun _ _ => rfl)

/-! ### The row a segment word takes -/

/-- A word that is not negative is left as it is. -/
theorem wrap_apply (ii : IVec S131072 32) (hii : Cert.Spec.InRange ii) (r : Fin 131072) :
    Term.wrap ii (ix1 r) = ii (ix1 r) := by
  have h0 := (hii r).1
  have hn : ¬ (IntOp.cmpi .slt (ii (ix1 r)) 0#32 = 1#1) := by
    rw [IntOp.cmpi_slt]
    have z : (0#32 : BitVec 32).toInt = 0 := by decide
    rw [z]; omega
  have hc : IntOp.cmpi .slt (ii (ix1 r)) 0#32 = 0#1 := by
    rcases BitVec.eq_zero_or_eq_one (IntOp.cmpi .slt (ii (ix1 r)) 0#32) with h | h
    · exact h
    · exact absurd h hn
  show Scalar.select (IntOp.cmpi .slt (ii (ix1 r)) 0#32) _ (ii (ix1 r)) = ii (ix1 r)
  rw [hc, select_zero]

/-- The table row an in-range word takes is the row it names. -/
theorem clampRow_eq (ii : IVec S131072 32) (hii : Cert.Spec.InRange ii) (r : Fin 131072) (hN : 0 < 4096) :
    RowOps.clampRow 4096 hN (Term.col (Term.wrap ii)) r = Cert.Spec.rowOf ii r := by
  apply Fin.ext
  show min ((Term.col (Term.wrap ii)) (ixP r)).toInt.toNat (4096 - 1) = min (ii (ix1 r)).toInt.toNat 4095
  rw [col_apply, wrap_apply ii hii r]

/-- A row whose segment word is in range takes the table row it names. -/
theorem take_apply (T : FVec Ideal S4096x128 .f32) (ii : IVec S131072 32) (hii : Cert.Spec.InRange ii)
    (r : Fin 131072) (q : Fin 128) :
    Term.take (F := Ideal) T ii (ix2 r q) = T (ix2 (Cert.Spec.rowOf ii r) q) := by
  unfold Term.take
  rw [RowOps.gather_rows gather_S4096x128_S131072x1_S131072x128_1_0_n_n_0_1_1128 rfl rfl rfl rfl rfl rfl T
    (Term.col (Term.wrap ii)) r q (by decide), clampRow_eq ii hii r]

/-! ### The three column groups and the five pieces -/

theorem sl0_apply (X : FVec Ideal S131072x384 .f32) (e : Fin 131072) (j : Fin 128) :
    Term.sl0 (F := Ideal) X (ix2 e j) = Cert.Spec.cols X 0 (by omega) e j := by
  unfold Term.sl0 Cert.Spec.cols
  exact slice2_axis1_apply 0 X _ e j _ rfl

theorem sl1_apply (X : FVec Ideal S131072x384 .f32) (e : Fin 131072) (j : Fin 128) :
    Term.sl1 (F := Ideal) X (ix2 e j) = Cert.Spec.cols X 128 (by omega) e j := by
  unfold Term.sl1 Cert.Spec.cols
  exact slice2_axis1_apply 128 X _ e j _ rfl

theorem sl2_apply (X : FVec Ideal S131072x384 .f32) (e : Fin 131072) (j : Fin 128) :
    Term.sl2 (F := Ideal) X (ix2 e j) = Cert.Spec.cols X 256 (by omega) e j := by
  unfold Term.sl2 Cert.Spec.cols
  exact slice2_axis1_apply 256 X _ e j _ rfl

/-- Five rows that agree piece by piece agree side by side. -/
theorem cat5_congr {α : Type} {f0 g0 f1 g1 f2 g2 f3 g3 f4 g4 : Fin 128 → α} (h0 : f0 = g0) (h1 : f1 = g1) (h2 : f2 = g2)
    (h3 : f3 = g3) (h4 : f4 = g4) (k : Fin 640) : Cert.Spec.cat5 f0 f1 f2 f3 f4 k = Cert.Spec.cat5 g0 g1 g2 g3 g4 k := by
  subst h0 h1 h2 h3 h4; rfl

/-- The 640 features at row `r`, column `k`. -/
theorem feats_apply (X : FVec Ideal S131072x384 .f32) (ai ei : IVec S131072 32)
    (hai : Cert.Spec.InRange ai) (hei : Cert.Spec.InRange ei) (r : Fin 131072) (k : Fin 640) :
    Term.feats (F := Ideal) X ai ei (ix2 r k) = Cert.Spec.hin X ai ei r k := by
  have hY0 : (fun e j => Term.sl0 (F := Ideal) X (ix2 e j)) = Cert.Spec.cols X 0 (by omega) :=
    funext fun e => funext fun j => sl0_apply X e j
  have hY1 : (fun e j => Term.sl1 (F := Ideal) X (ix2 e j)) = Cert.Spec.cols X 128 (by omega) :=
    funext fun e => funext fun j => sl1_apply X e j
  unfold Term.feats
  refine (Cert.Spec.concat5_apply (n := 131072) _ _ _ _ _ _ r k).trans ?_
  unfold Cert.Spec.hin
  refine cat5_congr (funext fun q => sl0_apply X r q) (funext fun q => ?_) (funext fun q => sl1_apply X r q)
    (funext fun q => ?_) (funext fun q => sl2_apply X r q) k
  · rw [take_apply _ ai hai r q, table_apply, hY0]
  · rw [take_apply _ ei hei r q, table_apply, hY1]

end Cert.ReferenceIdeal.Val

end
-- ==== Proof.RefValue.lean ====
/-
  The reference's result is the spec's, index by index.

  The linear layer at (r, j) is the sum over the 640 features of feature times weight, plus the bias. The column mean is
  the column sum over 131072; the variance routine divides the sum of squared deviations by 131072 less zero, a positive
  number, so its guard takes the quotient; the tail subtracts the mean, multiplies by the reciprocal root of variance
  plus the small constant, by the scale, adds the shift and clips at zero.
-/
import proofs.«414974_j88794153877511_1_alg».proof.Proof.RefFeats

open scoped BigOperators

noncomputable section

namespace Cert.ReferenceIdeal.Val

open Idealize.ShloMosaic Idealize.ShloMosaic.ValueIdx
open Cert.ReferenceIdeal Cert.ReferenceIdeal.Facts₀

/-! ### The product's operand indices: at output (r, j) and contraction position k, the left operand is read at (r, k)
    and the right at (k, j) -/

theorem lhs_dot_0 (i : S131072x256.Idx) (q : dot_S131072x640_S640x256_S131072x256_1_0_0_1_n_n.contr.Idx) :
    (dot_S131072x640_S640x256_S131072x256_1_0_0_1_n_n.lhsIdx i q 0).val = (i 0).val := by
  unfold DotDims.lhsIdx
  rw [dif_neg (show ¬(0 : Fin S131072x640.rank) ∈ dot_S131072x640_S640x256_S131072x256_1_0_0_1_n_n.lhsBatch by decide),
    dif_pos (show (0 : Fin S131072x640.rank) ∈ dot_S131072x640_S640x256_S131072x256_1_0_0_1_n_n.lhsNonContracting by decide)]
  rfl

theorem lhs_dot_1 (i : S131072x256.Idx) (q : dot_S131072x640_S640x256_S131072x256_1_0_0_1_n_n.contr.Idx) :
    (dot_S131072x640_S640x256_S131072x256_1_0_0_1_n_n.lhsIdx i q 1).val = (q ⟨0, by decide⟩).val :=
  dot_S131072x640_S640x256_S131072x256_1_0_0_1_n_n.lhsIdx_val_of_single rfl i q

theorem rhs_dot_0 (i : S131072x256.Idx) (q : dot_S131072x640_S640x256_S131072x256_1_0_0_1_n_n.contr.Idx) :
    (dot_S131072x640_S640x256_S131072x256_1_0_0_1_n_n.rhsIdx i q 0).val = (q ⟨0, by decide⟩).val :=
  dot_S131072x640_S640x256_S131072x256_1_0_0_1_n_n.rhsIdx_val_of_single rfl i q

theorem rhs_dot_1 (i : S131072x256.Idx) (q : dot_S131072x640_S640x256_S131072x256_1_0_0_1_n_n.contr.Idx) :
    (dot_S131072x640_S640x256_S131072x256_1_0_0_1_n_n.rhsIdx i q 1).val = (i 1).val := by
  unfold DotDims.rhsIdx
  rw [dif_neg (show ¬(1 : Fin S640x256.rank) ∈ dot_S131072x640_S640x256_S131072x256_1_0_0_1_n_n.rhsBatch by decide),
    dif_pos (show (1 : Fin S640x256.rank) ∈ dot_S131072x640_S640x256_S131072x256_1_0_0_1_n_n.rhsNonContracting by decide)]
  rfl

/-- The matrix product at (r, j): the sum over the 640 contraction positions. -/
theorem dot_apply (A : FVec Ideal S131072x640 .f32) (W : FVec Ideal S640x256 .f32) (r : Fin 131072) (j : Fin 256) :
    Host.dotGeneral dot_S131072x640_S640x256_S131072x256_1_0_0_1_n_n none A W (ix2 r j)
      = ∑ k : Fin 640, A (ix2 r k) * W (ix2 k j) := by
  simp only [Host.dotGeneral]
  rw [Ideal.dotGeneral_apply,
    ← Equiv.sum_comp (contrEquiv1 dot_S131072x640_S640x256_S131072x256_1_0_0_1_n_n 640 rfl rfl).symm]
  refine Finset.sum_congr rfl fun k _ => ?_
  have hk := contrEquiv1_symm_val dot_S131072x640_S640x256_S131072x256_1_0_0_1_n_n 640 rfl rfl k
  have el : dot_S131072x640_S640x256_S131072x256_1_0_0_1_n_n.lhsIdx (ix2 r j)
      ((contrEquiv1 dot_S131072x640_S640x256_S131072x256_1_0_0_1_n_n 640 rfl rfl).symm k) = ix2 r k :=
    funext fun a => Fin.ext (by
      match a with
      | ⟨0, _⟩ => exact lhs_dot_0 _ _
      | ⟨1, _⟩ => exact (lhs_dot_1 _ _).trans hk)
  have er : dot_S131072x640_S640x256_S131072x256_1_0_0_1_n_n.rhsIdx (ix2 r j)
      ((contrEquiv1 dot_S131072x640_S640x256_S131072x256_1_0_0_1_n_n 640 rfl rfl).symm k) = ix2 k j :=
    funext fun a => Fin.ext (by
      match a with
      | ⟨0, _⟩ => exact (rhs_dot_0 _ _).trans hk
      | ⟨1, _⟩ => exact rhs_dot_1 _ _)
  rw [el, er]

/-- A 256-vector repeated down the rows reads, at (r, j), the vector at j. -/
theorem rowb_apply (v : FVec Ideal S256 .f32) (r : Fin 131072) (j : Fin 256) :
    Term.rowb (F := Ideal) v (ix2 r j) = v (ix1 j) := by
  unfold Term.rowb
  rw [broadcastInDim_apply _ _ _ (ix2 r j) (ix2 (0 : Fin 1) j) (by
    intro a
    match a with
    | ⟨0, _⟩ => rfl
    | ⟨1, _⟩ => rfl)]
  rw [broadcastInDim_apply _ _ _ (ix2 (0 : Fin 1) j) (ix1 j) (by
    intro a
    match a with
    | ⟨0, _⟩ => rfl)]

/-- The linear layer at row `r`, column `j`. -/
theorem lin_apply (X : FVec Ideal S131072x384 .f32) (ai ei : IVec S131072 32) (W : FVec Ideal S640x256 .f32)
    (b : FVec Ideal S256 .f32) (hai : Cert.Spec.InRange ai) (hei : Cert.Spec.InRange ei) (r : Fin 131072) (j : Fin 256) :
    Term.lin (F := Ideal) X ai ei W b (ix2 r j) = Cert.Spec.hpre X ai ei W b r j := by
  unfold Term.lin Cert.Spec.hpre
  rw [addf_apply, dot_apply, rowb_apply]
  congr 1
  exact Finset.sum_congr rfl fun k _ => by rw [feats_apply X ai ei hai hei r k]

/-! ### The column statistics -/

/-- The sum down column j, over the 131072 rows. -/
theorem colsum_apply (H : FVec Ideal S131072x256 .f32) (j : Fin 256) :
    Term.colsum (F := Ideal) H (ix1 j) = ∑ r : Fin 131072, H (ix2 r j) := by
  unfold Term.colsum
  simp only [Host.reduceAdd, Ideal.hostReduceAdd_def]
  rw [Ideal.hostReduceAdd_single reducesTo_S131072x256_S256_d0 (by decide)]
  rw [constant_apply, Ideal.ofBits_zero_f32, zero_add]
  refine Finset.sum_congr rfl fun k _ => ?_
  exact congrArg H (funext fun a => Fin.ext (by match a with | ⟨0, _⟩ => rfl | ⟨1, _⟩ => rfl))

/-- The mean down column j: the column sum over the row count. -/
theorem mu_apply (H : FVec Ideal S131072x256 .f32) (j : Fin 256) :
    Term.mu (F := Ideal) H (ix1 j) = Ideal.div (∑ r : Fin 131072, H (ix2 r j)) Cert.Spec.nrows := by
  show Ideal.div (Term.colsum (F := Ideal) H (ix1 j)) Cert.Spec.nrows = _
  rw [colsum_apply]

/-- The deviation at (r, j): the entry less the column mean (recomputed through a one-row matrix: the same number). -/
theorem dev_apply (H : FVec Ideal S131072x256 .f32) (r : Fin 131072) (j : Fin 256) :
    Term.dev (F := Ideal) H (ix2 r j)
      = H (ix2 r j) - Ideal.div (∑ r : Fin 131072, H (ix2 r j)) Cert.Spec.nrows := by
  unfold Term.dev
  rw [subf_apply]
  rw [broadcastInDim_apply _ _ _ (ix2 r j) (ix2 (0 : Fin 1) j) (by
    intro a
    match a with
    | ⟨0, _⟩ => rfl
    | ⟨1, _⟩ => rfl)]
  show _ - Ideal.div (broadcastInDim S1x256 ![1] bcast_S256_S1x256_1 (Term.colsum (F := Ideal) H) (ix2 (0 : Fin 1) j))
    Cert.Spec.nrows = _
  rw [broadcastInDim_apply _ _ _ (ix2 (0 : Fin 1) j) (ix1 j) (by
    intro a
    match a with
    | ⟨0, _⟩ => rfl)]
  rw [colsum_apply]

/-- The variance routine's divisor is the row count: 131072 less zero. -/
theorem dof_apply (i : S_.Idx) : Term.dof (F := Ideal) i = Cert.Spec.nrows := by
  show Cert.Spec.nrows - (((0#32 : BitVec 32).toInt : ℝ) : EReal) = Cert.Spec.nrows
  simp

/-- The row count is above zero, so the routine's guard holds. -/
theorem guard_one : Ideal.cmp .ogt Cert.Spec.nrows (Ideal.ofBits .f32 0x00000000#32) = 1#1 := by
  rw [Ideal.ofBits_zero_f32, Cert.Spec.nrows_eq]
  unfold Ideal.cmp
  have h : (0 : EReal) < ((131072 : ℝ) : EReal) := by exact_mod_cast (by norm_num : (0 : ℝ) < 131072)
  simp [h]

/-- The biased variance down column j: the mean of the squared deviations. -/
theorem vr_apply (H : FVec Ideal S131072x256 .f32) (j : Fin 256) :
    Term.vr (F := Ideal) H (ix1 j)
      = Ideal.div (∑ r : Fin 131072,
          (H (ix2 r j) - Ideal.div (∑ r : Fin 131072, H (ix2 r j)) Cert.Spec.nrows)
            * (H (ix2 r j) - Ideal.div (∑ r : Fin 131072, H (ix2 r j)) Cert.Spec.nrows)) Cert.Spec.nrows := by
  unfold Term.vr
  rw [select_apply]
  have hb : broadcastInDim S256 ![] bcast_S_S256
      (cmpf .ogt (Term.dof (F := Ideal)) (constant (F := Ideal) S_ .f32 0x00000000#32)) (ix1 j) = 1#1 := by
    show Ideal.cmp .ogt (Term.dof (F := Ideal) _) (Ideal.ofBits .f32 0x00000000#32) = 1#1
    rw [dof_apply]
    exact guard_one
  rw [hb, select_one]
  show Ideal.div (Term.colsum (F := Ideal) (mulf (Term.dev (F := Ideal) H) (Term.dev (F := Ideal) H)) (ix1 j))
    (Term.dof (F := Ideal) _) = _
  rw [dof_apply, colsum_apply]
  refine congrArg (fun s => Ideal.div s Cert.Spec.nrows) (Finset.sum_congr rfl fun r _ => ?_)
  rw [mulf_apply, dev_apply]

/-- On a matrix that is `h` entry by entry, the reference's column mean is the spec's. -/
theorem mu_eq (H : FVec Ideal S131072x256 .f32) (h : Fin 131072 → Fin 256 → EReal)
    (hH : ∀ r j, H (ix2 r j) = h r j) (j : Fin 256) : Term.mu (F := Ideal) H (ix1 j) = Cert.Spec.mean h j := by
  rw [mu_apply]
  unfold Cert.Spec.mean
  exact congrArg (fun s => Ideal.div s Cert.Spec.nrows) (Finset.sum_congr rfl fun r _ => hH r j)

/-- On such a matrix the reference's column variance is the spec's mean of squared deviations. -/
theorem vr_eq (H : FVec Ideal S131072x256 .f32) (h : Fin 131072 → Fin 256 → EReal)
    (hH : ∀ r j, H (ix2 r j) = h r j) (j : Fin 256) : Term.vr (F := Ideal) H (ix1 j) = Cert.Spec.varR h j := by
  rw [vr_apply]
  unfold Cert.Spec.varR Cert.Spec.mean
  have hs : ∑ r : Fin 131072, H (ix2 r j) = ∑ r : Fin 131072, h r j := Finset.sum_congr rfl fun r _ => hH r j
  rw [hs]
  exact congrArg (fun s => Ideal.div s Cert.Spec.nrows) (Finset.sum_congr rfl fun r _ => by rw [hH r j])

/-- The reciprocal root of a column quantity plus the small constant, at column j. -/
theorem rs_apply (V : FVec Ideal S256 .f32) (j : Fin 256) :
    Host.rsqrt (addf V (broadcastInDim S256 ![] bcast_S_S256 (constant (F := Ideal) S_ .f32 0x3727C5AC#32))) (ix1 j)
      = Ideal.rsqrt (V (ix1 j) + Cert.Spec.eps) := rfl

/-- The reference's result. -/
theorem out_eq (X : FVec Ideal S131072x384 .f32) (ai ei : IVec S131072 32) (W : FVec Ideal S640x256 .f32)
    (b g be : FVec Ideal S256 .f32) (hai : Cert.Spec.InRange ai) (hei : Cert.Spec.InRange ei) :
    Term.out (F := Ideal) X ai ei W b g be = Cert.Spec.outR X ai ei W b g be := by
  funext i
  obtain ⟨r, j, rfl⟩ : ∃ (r : Fin 131072) (j : Fin 256), i = ix2 r j := ⟨i 0, i 1, eq_ix2 i⟩
  have hH : ∀ r j, Term.lin (F := Ideal) X ai ei W b (ix2 r j) = Cert.Spec.hpre X ai ei W b r j :=
    fun r j => lin_apply X ai ei W b hai hei r j
  unfold Term.out
  rw [maximumf_apply, addf_apply, mulf_apply, mulf_apply, subf_apply, rowb_apply, rowb_apply, rowb_apply, rowb_apply,
    rs_apply, hH r j, mu_eq _ _ hH j, vr_eq _ _ hH j]
  show max _ (Ideal.ofBits .f32 0x00000000#32) = _
  rw [Ideal.ofBits_zero_f32]
  rfl

end Cert.ReferenceIdeal.Val

end
-- ==== Proof.lean ====
/-
  The certificate's five claims.

  Both kernel programs terminate with their arguments unchanged (the two frames), and so does the reference (its run).
  The idealised kernel is the kernel's own text read over the extended reals: no rewrite was applied. And at the extended
  reals the two programs end with equal results whenever the float inputs are real numbers and both segment-word vectors
  lie in [0, 4096): the kernel's result is the linear layer's output normalised with the variance written as the mean of
  the squares less the square of the mean, the reference's with the variance written as the mean of the squared
  deviations, and on real columns the two are one number.
-/
import proofs.«414974_j88794153877511_1_alg».proof.Defs
import proofs.«414974_j88794153877511_1_alg».proof.Proof.Gen.Kernel
import proofs.«414974_j88794153877511_1_alg».proof.Proof.Gen.Kernel.Skeleton
import proofs.«414974_j88794153877511_1_alg».proof.Proof.Gen.Kernel.Launch
import proofs.«414974_j88794153877511_1_alg».proof.Proof.Gen.Kernel.Points
import proofs.«414974_j88794153877511_1_alg».proof.Proof.Gen.Kernel.Frame
import proofs.«414974_j88794153877511_1_alg».proof.Proof.Gen.KernelIdeal
import proofs.«414974_j88794153877511_1_alg».proof.Proof.Gen.KernelIdeal.Skeleton
import proofs.«414974_j88794153877511_1_alg».proof.Proof.Gen.KernelIdeal.Launch
import proofs.«414974_j88794153877511_1_alg».proof.Proof.Gen.KernelIdeal.Points
import proofs.«414974_j88794153877511_1_alg».proof.Proof.Gen.KernelIdeal.Frame
import proofs.«414974_j88794153877511_1_alg».proof.Proof.Gen.ReferenceIdeal
import proofs.«414974_j88794153877511_1_alg».proof.Proof.Gen.Pre_finite_inputs
import proofs.«414974_j88794153877511_1_alg».proof.Proof.PreDecode
import proofs.«414974_j88794153877511_1_alg».proof.Proof.Math
import proofs.«414974_j88794153877511_1_alg».proof.Proof.KRun
import proofs.«414974_j88794153877511_1_alg».proof.Proof.KValue
import proofs.«414974_j88794153877511_1_alg».proof.Proof.RefRun
import proofs.«414974_j88794153877511_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hd := fun c => Cert.PreDecode.of_pre _ _ _ _ _ _ _ (hpre c)
  refine ⟨fun c => Cert.Spec.outK (Cert.KernelIdeal.Val.aX m c) (Cert.KernelIdeal.Val.aA m c) (Cert.KernelIdeal.Val.aE m c)
      (Cert.KernelIdeal.Val.aW m c) (Cert.KernelIdeal.Val.aB m c) (Cert.KernelIdeal.Val.aG m c) (Cert.KernelIdeal.Val.aBe m c), ?_, ?_⟩
  · exact (θ_run Cert.KernelIdeal.defs _ _).mono
      (fun _ h c => ⟨(h c).1.trans (Cert.KernelIdeal.Val.result_eq m ρ c (hd c).2.2.2.1 (hd c).2.2.2.2), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [e0, e1, e2, e3, e4, e5, e6]
    obtain ⟨hX, hW, hb, hA, hE⟩ := hd c
    exact (Cert.ReferenceIdeal.Val.out_eq _ _ _ _ _ _ _ hA hE).trans
      (Cert.Spec.outK_eq_outR _ _ _ _ _ _ _ hX hW hb).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
